-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x8 : Shape := ⟨2, ![1048576, 8]⟩
abbrev S1048576x2 : Shape := ⟨2, ![1048576, 2]⟩
abbrev S4x2x4 : Shape := ⟨3, ![4, 2, 4]⟩
abbrev S6x2x4 : Shape := ⟨3, ![6, 2, 4]⟩
abbrev S6x1x4 : Shape := ⟨3, ![6, 1, 4]⟩
abbrev S4x1x4 : Shape := ⟨3, ![4, 1, 4]⟩
abbrev S4x4x1 : Shape := ⟨3, ![4, 4, 1]⟩
abbrev S6x4x1 : Shape := ⟨3, ![6, 4, 1]⟩
abbrev S6x1x1 : Shape := ⟨3, ![6, 1, 1]⟩
abbrev S4x1x1 : Shape := ⟨3, ![4, 1, 1]⟩
abbrev S4x4 : Shape := ⟨2, ![4, 4]⟩
abbrev S4 : Shape := ⟨1, ![4]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S_ : Shape := ⟨0, ![]⟩

class Facts : Prop where
  bcast_S_S1048576x8 : S_.BroadcastsInDim S1048576x8 (![] : Fin 0 → Fin S1048576x8.rank)
  reducesTo_S1048576x8_S_d0_1 : S1048576x8.ReducesTo [0, 1] S_
  h_S_ : 0 < S_.numel
  bcast_S_S1048576x2 : S_.BroadcastsInDim S1048576x2 (![] : Fin 0 → Fin S1048576x2.rank)
  reducesTo_S1048576x2_S_d0_1 : S1048576x2.ReducesTo [0, 1] S_
  bcast_S_S4x2x4 : S_.BroadcastsInDim S4x2x4 (![] : Fin 0 → Fin S4x2x4.rank)
  reducesTo_S4x2x4_S_d0_1_2 : S4x2x4.ReducesTo [0, 1, 2] S_
  bcast_S_S6x2x4 : S_.BroadcastsInDim S6x2x4 (![] : Fin 0 → Fin S6x2x4.rank)
  reducesTo_S6x2x4_S_d0_1_2 : S6x2x4.ReducesTo [0, 1, 2] S_
  bcast_S_S6x1x4 : S_.BroadcastsInDim S6x1x4 (![] : Fin 0 → Fin S6x1x4.rank)
  reducesTo_S6x1x4_S_d0_1_2 : S6x1x4.ReducesTo [0, 1, 2] S_
  bcast_S_S4x1x4 : S_.BroadcastsInDim S4x1x4 (![] : Fin 0 → Fin S4x1x4.rank)
  reducesTo_S4x1x4_S_d0_1_2 : S4x1x4.ReducesTo [0, 1, 2] S_
  bcast_S_S4x4x1 : S_.BroadcastsInDim S4x4x1 (![] : Fin 0 → Fin S4x4x1.rank)
  reducesTo_S4x4x1_S_d0_1_2 : S4x4x1.ReducesTo [0, 1, 2] S_
  bcast_S_S6x4x1 : S_.BroadcastsInDim S6x4x1 (![] : Fin 0 → Fin S6x4x1.rank)
  reducesTo_S6x4x1_S_d0_1_2 : S6x4x1.ReducesTo [0, 1, 2] S_
  bcast_S_S6x1x1 : S_.BroadcastsInDim S6x1x1 (![] : Fin 0 → Fin S6x1x1.rank)
  reducesTo_S6x1x1_S_d0_1_2 : S6x1x1.ReducesTo [0, 1, 2] S_
  bcast_S_S4x1x1 : S_.BroadcastsInDim S4x1x1 (![] : Fin 0 → Fin S4x1x1.rank)
  reducesTo_S4x1x1_S_d0_1_2 : S4x1x1.ReducesTo [0, 1, 2] S_
  bcast_S_S4x4 : S_.BroadcastsInDim S4x4 (![] : Fin 0 → Fin S4x4.rank)
  reducesTo_S4x4_S_d0_1 : S4x4.ReducesTo [0, 1] S_
  bcast_S_S4 : S_.BroadcastsInDim S4 (![] : Fin 0 → Fin S4.rank)
  reducesTo_S4_S_d0 : S4.ReducesTo [0] S_
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg21 : FVec F S64 .f32) (main_arg22 : FVec F S64x1 .f32) (main_arg23 : FVec F S1 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x1 .f32 := Host.absf main_arg22
  let main_cst_42 : FVec F S_ .f32 := constant S_ .f32 0x7F800000#32
  let main_v110 : FVec F S64x1 .f32 := broadcastInDim S64x1 ![] bcast_S_S64x1 main_cst_42
  let main_v111 : IVec S64x1 1 := cmpf .olt main_v109 main_v110
  let main_c_43 : IVec S_ 1 := constantI S_ 1 1#1
  let main_v112 : IVec S_ 1 := (fun x v => Host.reduce IntOp.andi x v reducesTo_S64x1_S_d0_1 h_S_) main_v111 main_c_43
  let main_v113 : IVec S_ 1 := andi main_v108 main_v112
  let main_v114 : FVec F S1 .f32 := Host.absf main_arg23
  let main_cst_44 : FVec F S_ .f32 := constant S_ .f32 0x7F800000#32
  let main_v115 : FVec F S1 .f32 := broadcastInDim S1 ![] bcast_S_S1 main_cst_44
  let main_v116 : IVec S1 1 := cmpf .olt main_v114 main_v115
  let main_c_45 : IVec S_ 1 := constantI S_ 1 1#1
  let main_v117 : IVec S_ 1 := (fun x v => Host.reduce IntOp.andi x v reducesTo_S1_S_d0 h_S_) main_v116 main_c_45
  let main_v118 : IVec S_ 1 := andi main_v113 main_v117
  main_v118

def fn_part5 {F : FTy → Type} [FloatOps F] (main_arg18 : FVec F S2 .f32) (main_arg19 : FVec F S2 .f32) (main_arg20 : FVec F S64x64 .f32) (main_arg21 : FVec F S64 .f32) (main_arg22 : FVec F S64x1 .f32) (main_arg23 : FVec F S1 .f32) (main_v83 : IVec S_ 1) (main_v84 : FVec F S64x2 .f32) (main_cst_32 : FVec F S_ .f32) : IVec S_ 1 :=
  let main_v85 : FVec F S64x2 .f32 := broadcastInDim S64x2 ![] bcast_S_S64x2 main_cst_32
  let main_v86 : IVec S64x2 1 := cmpf .olt main_v84 main_v85
  let main_c_33 : IVec S_ 1 := constantI S_ 1 1#1
  let main_v87 : IVec S_ 1 := (fun x v => Host.reduce IntOp.andi x v reducesTo_S64x2_S_d0_1 h_S_) main_v86 main_c_33
  let main_v88 : IVec S_ 1 := andi main_v83 main_v87
  let main_v89 : FVec F S2 .f32 := Host.absf main_arg18
  let main_cst_34 : FVec F S_ .f32 := constant S_ .f32 0x7F800000#32
  let main_v90 : FVec F S2 .f32 := broadcastInDim S2 ![] bcast_S_S2 main_cst_34
  let main_v91 : IVec S2 1 := cmpf .olt main_v89 main_v90
  let main_c_35 : IVec S_ 1 := constantI S_ 1 1#1
  let main_v92 : IVec S_ 1 := (fun x v => Host.reduce IntOp.andi x v reducesTo_S2_S_d0 h_S_) main_v91 main_c_35
  let main_v93 : IVec S_ 1 := andi main_v88 main_v92
  let main_v94 : FVec F S2 .f32 := Host.absf main_arg19
  let main_cst_36 : FVec F S_ .f32 := constant S_ .f32 0x7F800000#32
  let main_v95 : FVec F S2 .f32 := broadcastInDim S2 ![] bcast_S_S2 main_cst_36
  let main_v96 : IVec S2 1 := cmpf .olt main_v94 main_v95
  let main_c_37 : IVec S_ 1 := constantI S_ 1 1#1
  let main_v97 : IVec S_ 1 := (fun x v => Host.reduce IntOp.andi x v reducesTo_S2_S_d0 h_S_) main_v96 main_c_37
  let main_v98 : IVec S_ 1 := andi main_v93 main_v97
  let main_v99 : FVec F S64x64 .f32 := Host.absf main_arg20
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x2 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v48 : IVec S_ 1) (main_v49 : FVec F S4x1x1 .f32) (main_v50 : FVec F S4x1x1 .f32) : IVec S_ 1 :=
  let main_v51 : IVec S4x1x1 1 := cmpf .olt main_v49 main_v50
  let main_c_19 : IVec S_ 1 := constantI S_ 1 1#1
  let main_v52 : IVec S_ 1 := (fun x v => Host.reduce IntOp.andi x v reducesTo_S4x1x1_S_d0_1_2 h_S_) main_v51 main_c_19
  let main_v53 : IVec S_ 1 := andi main_v48 main_v52
  let main_v54 : FVec F S4x4 .f32 := Host.absf main_arg11
  let main_cst_20 : FVec F S_ .f32 := constant S_ .f32 0x7F800000#32
  let main_v55 : FVec F S4x4 .f32 := broadcastInDim S4x4 ![] bcast_S_S4x4 main_cst_20
  let main_v56 : IVec S4x4 1 := cmpf .olt main_v54 main_v55
  let main_c_21 : IVec S_ 1 := constantI S_ 1 1#1
  let main_v57 : IVec S_ 1 := (fun x v => Host.reduce IntOp.andi x v reducesTo_S4x4_S_d0_1 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S8x64 .f32 := Host.absf main_arg13
  let main_cst_24 : FVec F S_ .f32 := constant S_ .f32 0x7F800000#32
  let main_v65 : FVec F S8x64 .f32 := broadcastInDim S8x64 ![] bcast_S_S8x64 main_cst_24
  let main_v66 : IVec S8x64 1 := cmpf .olt main_v64 main_v65
  let main_c_25 : IVec S_ 1 := constantI S_ 1 1#1
  let main_v67 : IVec S_ 1 := (fun x v => Host.reduce IntOp.andi x v reducesTo_S8x64_S_d0_1 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S4x4x1 .f32) (main_arg8 : FVec F S6x4x1 .f32) (main_arg9 : FVec F S6x1x1 .f32) (main_arg10 : FVec F S4x1x1 .f32) (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v33 : IVec S_ 1) : IVec S_ 1 :=
  let main_v34 : FVec F S4x4x1 .f32 := Host.absf main_arg7
  let main_cst_12 : FVec F S_ .f32 := constant S_ .f32 0x7F800000#32
  let main_v35 : FVec F S4x4x1 .f32 := broadcastInDim S4x4x1 ![] bcast_S_S4x4x1 main_cst_12
  let main_v36 : IVec S4x4x1 1 := cmpf .olt main_v34 main_v35
  let main_c_13 : IVec S_ 1 := constantI S_ 1 1#1
  let main_v37 : IVec S_ 1 := (fun x v => Host.reduce IntOp.andi x v reducesTo_S4x4x1_S_d0_1_2 h_S_) main_v36 main_c_13
  let main_v38 : IVec S_ 1 := andi main_v33 main_v37
  let main_v39 : FVec F S6x4x1 .f32 := Host.absf main_arg8
  let main_cst_14 : FVec F S_ .f32 := constant S_ .f32 0x7F800000#32
  let main_v40 : FVec F S6x4x1 .f32 := broadcastInDim S6x4x1 ![] bcast_S_S6x4x1 main_cst_14
  let main_v41 : IVec S6x4x1 1 := cmpf .olt main_v39 main_v40
  let main_c_15 : IVec S_ 1 := constantI S_ 1 1#1
  let main_v42 : IVec S_ 1 := (fun x v => Host.reduce IntOp.andi x v reducesTo_S6x4x1_S_d0_1_2 h_S_) main_v41 main_c_15
  let main_v43 : IVec S_ 1 := andi main_v38 main_v42
  let main_v44 : FVec F S6x1x1 .f32 := Host.absf main_arg9
  let main_cst_16 : FVec F S_ .f32 := constant S_ .f32 0x7F800000#32
  let main_v45 : FVec F S6x1x1 .f32 := broadcastInDim S6x1x1 ![] bcast_S_S6x1x1 main_cst_16
  let main_v46 : IVec S6x1x1 1 := cmpf .olt main_v44 main_v45
  let main_c_17 : IVec S_ 1 := constantI S_ 1 1#1
  let main_v47 : IVec S_ 1 := (fun x v => Host.reduce IntOp.andi x v reducesTo_S6x1x1_S_d0_1_2 h_S_) main_v46 main_c_17
  let main_v48 : IVec S_ 1 := andi main_v43 main_v47
  let main_v49 : FVec F S4x1x1 .f32 := Host.absf main_arg10
  let main_cst_18 : FVec F S_ .f32 := constant S_ .f32 0x7F800000#32
  let main_v50 : FVec F S4x1x1 .f32 := broadcastInDim S4x1x1 ![] bcast_S_S4x1x1 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S6x2x4 .f32) (main_arg5 : FVec F S6x1x4 .f32) (main_arg6 : FVec F S4x1x4 .f32) (main_arg7 : FVec F S4x4x1 .f32) (main_arg8 : FVec F S6x4x1 .f32) (main_arg9 : FVec F S6x1x1 .f32) (main_arg10 : FVec F S4x1x1 .f32) (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) (main_v13 : IVec S_ 1) (main_v16 : IVec S4x2x4 1) : IVec S_ 1 :=
  let main_c_5 : IVec S_ 1 := constantI S_ 1 1#1
  let main_v17 : IVec S_ 1 := (fun x v => Host.reduce IntOp.andi x v reducesTo_S4x2x4_S_d0_1_2 h_S_) main_v16 main_c_5
  let main_v18 : IVec S_ 1 := andi main_v13 main_v17
  let main_v19 : FVec F S6x2x4 .f32 := Host.absf main_arg4
  let main_cst_6 : FVec F S_ .f32 := constant S_ .f32 0x7F800000#32
  let main_v20 : FVec F S6x2x4 .f32 := broadcastInDim S6x2x4 ![] bcast_S_S6x2x4 main_cst_6
  let main_v21 : IVec S6x2x4 1 := cmpf .olt main_v19 main_v20
  let main_c_7 : IVec S_ 1 := constantI S_ 1 1#1
  let main_v22 : IVec S_ 1 := (fun x v => Host.reduce IntOp.andi x v reducesTo_S6x2x4_S_d0_1_2 h_S_) main_v21 main_c_7
  let main_v23 : IVec S_ 1 := andi main_v18 main_v22
  let main_v24 : FVec F S6x1x4 .f32 := Host.absf main_arg5
  let main_cst_8 : FVec F S_ .f32 := constant S_ .f32 0x7F800000#32
  let main_v25 : FVec F S6x1x4 .f32 := broadcastInDim S6x1x4 ![] bcast_S_S6x1x4 main_cst_8
  let main_v26 : IVec S6x1x4 1 := cmpf .olt main_v24 main_v25
  let main_c_9 : IVec S_ 1 := constantI S_ 1 1#1
  let main_v27 : IVec S_ 1 := (fun x v => Host.reduce IntOp.andi x v reducesTo_S6x1x4_S_d0_1_2 h_S_) main_v26 main_c_9
  let main_v28 : IVec S_ 1 := andi main_v23 main_v27
  let main_v29 : FVec F S4x1x4 .f32 := Host.absf main_arg6
  let main_cst_10 : FVec F S_ .f32 := constant S_ .f32 0x7F800000#32
  let main_v30 : FVec F S4x1x4 .f32 := broadcastInDim S4x1x4 ![] bcast_S_S4x1x4 main_cst_10
  let main_v31 : IVec S4x1x4 1 := cmpf .olt main_v29 main_v30
  let main_c_11 : IVec S_ 1 := constantI S_ 1 1#1
  let main_v32 : IVec S_ 1 := (fun x v => Host.reduce IntOp.andi x v reducesTo_S4x1x4_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S1048576x8 .f32) (main_arg1 : FVec F S1048576x2 .f32) (main_arg2 : FVec F S1048576x2 .f32) (main_arg3 : FVec F S4x2x4 .f32) (main_arg4 : FVec F S6x2x4 .f32) (main_arg5 : FVec F S6x1x4 .f32) (main_arg6 : FVec F S4x1x4 .f32) (main_arg7 : FVec F S4x4x1 .f32) (main_arg8 : FVec F S6x4x1 .f32) (main_arg9 : FVec F S6x1x1 .f32) (main_arg10 : FVec F S4x1x1 .f32) (main_arg11 : FVec F S4x4 .f32) (main_arg12 : FVec F S4 .f32) (main_arg13 : FVec F S8x64 .f32) (main_arg14 : FVec F S64 .f32) (main_arg15 : FVec F S64x64 .f32) (main_arg16 : FVec F S64 .f32) (main_arg17 : FVec F S64x2 .f32) (main_arg18 : FVec F S2 .f32) (main_arg19 : FVec F S2 .f32) (main_arg20 : FVec F S64x64 .f32) (main_arg21 : FVec F S64 .f32) (main_arg22 : FVec F S64x1 .f32) (main_arg23 : FVec F S1 .f32) : IVec S_ 1 :=
  let main_v0 : FVec F S1048576x8 .f32 := Host.absf main_arg0
  let main_cst : FVec F S_ .f32 := constant S_ .f32 0x7F800000#32
  let main_v1 : FVec F S1048576x8 .f32 := broadcastInDim S1048576x8 ![] bcast_S_S1048576x8 main_cst
  let main_v2 : IVec S1048576x8 1 := cmpf .olt main_v0 main_v1
  let main_c : IVec S_ 1 := constantI S_ 1 1#1
  let main_v3 : IVec S_ 1 := (fun x v => Host.reduce IntOp.andi x v reducesTo_S1048576x8_S_d0_1 h_S_) main_v2 main_c
  let main_v4 : FVec F S1048576x2 .f32 := Host.absf main_arg1
  let main_cst_0 : FVec F S_ .f32 := constant S_ .f32 0x7F800000#32
  let main_v5 : FVec F S1048576x2 .f32 := broadcastInDim S1048576x2 ![] bcast_S_S1048576x2 main_cst_0
  let main_v6 : IVec S1048576x2 1 := cmpf .olt main_v4 main_v5
  let main_c_1 : IVec S_ 1 := constantI S_ 1 1#1
  let main_v7 : IVec S_ 1 := (fun x v => Host.reduce IntOp.andi x v reducesTo_S1048576x2_S_d0_1 h_S_) main_v6 main_c_1
  let main_v8 : IVec S_ 1 := andi main_v3 main_v7
  let main_v9 : FVec F S1048576x2 .f32 := Host.absf main_arg2
  let main_cst_2 : FVec F S_ .f32 := constant S_ .f32 0x7F800000#32
  let main_v10 : FVec F S1048576x2 .f32 := broadcastInDim S1048576x2 ![] bcast_S_S1048576x2 main_cst_2
  let main_v11 : IVec S1048576x2 1 := cmpf .olt main_v9 main_v10
  let main_c_3 : IVec S_ 1 := constantI S_ 1 1#1
  let main_v12 : IVec S_ 1 := (fun x v => Host.reduce IntOp.andi x v reducesTo_S1048576x2_S_d0_1 h_S_) main_v11 main_c_3
  let main_v13 : IVec S_ 1 := andi main_v8 main_v12
  let main_v14 : FVec F S4x2x4 .f32 := Host.absf main_arg3
  let main_cst_4 : FVec F S_ .f32 := constant S_ .f32 0x7F800000#32
  let main_v15 : FVec F S4x2x4 .f32 := broadcastInDim S4x2x4 ![] bcast_S_S4x2x4 main_cst_4
  let main_v16 : IVec S4x2x4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S1048576x8 : Shape := ⟨2, ![1048576, 8]⟩
abbrev S1048576x2 : Shape := ⟨2, ![1048576, 2]⟩
abbrev S4x2x4 : Shape := ⟨3, ![4, 2, 4]⟩
abbrev S6x2x4 : Shape := ⟨3, ![6, 2, 4]⟩
abbrev S6x1x4 : Shape := ⟨3, ![6, 1, 4]⟩
abbrev S4x1x4 : Shape := ⟨3, ![4, 1, 4]⟩
abbrev S4x4x1 : Shape := ⟨3, ![4, 4, 1]⟩
abbrev S6x4x1 : Shape := ⟨3, ![6, 4, 1]⟩
abbrev S6x1x1 : Shape := ⟨3, ![6, 1, 1]⟩
abbrev S4x1x1 : Shape := ⟨3, ![4, 1, 1]⟩
abbrev S4x4 : Shape := ⟨2, ![4, 4]⟩
abbrev S4 : Shape := ⟨1, ![4]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S1048576x1 : Shape := ⟨2, ![1048576, 1]⟩
abbrev S1048576 : Shape := ⟨1, ![1048576]⟩
abbrev S8192x8 : Shape := ⟨2, ![8192, 8]⟩
abbrev S8192x2 : Shape := ⟨2, ![8192, 2]⟩
abbrev S8192x1 : Shape := ⟨2, ![8192, 1]⟩
abbrev S8192 : Shape := ⟨1, ![8192]⟩
abbrev S1x2x4 : Shape := ⟨3, ![1, 2, 4]⟩
abbrev S2x4 : Shape := ⟨2, ![2, 4]⟩
abbrev S8192x4 : Shape := ⟨2, ![8192, 4]⟩
abbrev S1x1x4 : Shape := ⟨3, ![1, 1, 4]⟩
abbrev S1x4 : Shape := ⟨2, ![1, 4]⟩
abbrev S1x4x1 : Shape := ⟨3, ![1, 4, 1]⟩
abbrev S4x1 : Shape := ⟨2, ![4, 1]⟩
abbrev S1x1x1 : Shape := ⟨3, ![1, 1, 1]⟩
abbrev S1x1 : Shape := ⟨2, ![1, 1]⟩
abbrev S8192x64 : Shape := ⟨2, ![8192, 64]⟩
abbrev S1x64 : Shape := ⟨2, ![1, 64]⟩
abbrev S1x2 : Shape := ⟨2, ![1, 2]⟩

abbrev nBuf : Space → Nat
  | .hbm => 27
  | .vmem => 33
  | .smem => 0
  | _ => 0

abbrev bufTy : (tb : Table) → Fin (tcTables nBuf tb) → BufTy
  | .hbm, ⟨0, _⟩ => ⟨S1048576x8, .f32⟩
  | .hbm, ⟨1, _⟩ => ⟨S1048576x2, .f32⟩
  | .hbm, ⟨2, _⟩ => ⟨S1048576x2, .f32⟩
  | .hbm, ⟨3, _⟩ => ⟨S4x2x4, .f32⟩
  | .hbm, ⟨4, _⟩ => ⟨S6x2x4, .f32⟩
  | .hbm, ⟨5, _⟩ => ⟨S6x1x4, .f32⟩
  | .hbm, ⟨6, _⟩ => ⟨S4x1x4, .f32⟩
  | .hbm, ⟨7, _⟩ => ⟨S4x4x1, .f32⟩
  | .hbm, ⟨8, _⟩ => ⟨S6x4x1, .f32⟩
  | .hbm, ⟨9, _⟩ => ⟨S6x1x1, .f32⟩
  | .hbm, ⟨10, _⟩ => ⟨S4x1x1, .f32⟩
  | .hbm, ⟨11, _⟩ => ⟨S4x4, .f32⟩
  | .hbm, ⟨12, _⟩ => ⟨S4, .f32⟩
  | .hbm, ⟨13, _⟩ => ⟨S8x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x2, .f32⟩
  | .hbm, ⟨18, _⟩ => ⟨S2, .f32⟩
  | .hbm, ⟨19, _⟩ => ⟨S2, .f32⟩
  | .hbm, ⟨20, _⟩ => ⟨S64x64, .f32⟩
  | .hbm, ⟨21, _⟩ => ⟨S64, .f32⟩
  | .hbm, ⟨22, _⟩ => ⟨S64x1, .f32⟩
  | .hbm, ⟨23, _⟩ => ⟨S1, .f32⟩
  | .hbm, ⟨24, _⟩ => ⟨S1048576x2, .f32⟩
  | .hbm, ⟨25, _⟩ => ⟨S1048576x1, .f32⟩
  | .hbm, ⟨26, _⟩ => ⟨S1048576, .f32⟩
  | .local _ .vmem, ⟨0, _⟩ => ⟨S8192x8, .f32⟩
  | .local _ .vmem, ⟨1, _⟩ => ⟨S8192x8, .f32⟩
  | .local _ .vmem, ⟨2, _⟩ => ⟨S8192x2, .f32⟩
  | .local _ .vmem, ⟨3, _⟩ => ⟨S8192x2, .f32⟩
  | .local _ .vmem, ⟨4, _⟩ => ⟨S8192x2, .f32⟩
  | .local _ .vmem, ⟨5, _⟩ => ⟨S8192x2, .f32⟩
  | .local _ .vmem, ⟨6, _⟩ => ⟨S4x2x4, .f32⟩
  | .local _ .vmem, ⟨7, _⟩ => ⟨S6x2x4, .f32⟩
  | .local _ .vmem, ⟨8, _⟩ => ⟨S6x1x4, .f32⟩
  | .local _ .vmem, ⟨9, _⟩ => ⟨S4x1x4, .f32⟩
  | .local _ .vmem, ⟨10, _⟩ => ⟨S4x4x1, .f32⟩
  | .local _ .vmem, ⟨11, _⟩ => ⟨S6x4x1, .f32⟩
  | .local _ .vmem, ⟨12, _⟩ => ⟨S6x1x1, .f32⟩
  | .local _ .vmem, ⟨13, _⟩ => ⟨S4x1x1, .f32⟩
  | .local _ .vmem, ⟨14, _⟩ => ⟨S4x4, .f32⟩
  | .local _ .vmem, ⟨15, _⟩ => ⟨S4, .f32⟩
  | .local _ .vmem, ⟨16, _⟩ => ⟨S8x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64x2, .f32⟩
  | .local _ .vmem, ⟨21, _⟩ => ⟨S2, .f32⟩
  | .local _ .vmem, ⟨22, _⟩ => ⟨S2, .f32⟩
  | .local _ .vmem, ⟨23, _⟩ => ⟨S64x64, .f32⟩
  | .local _ .vmem, ⟨24, _⟩ => ⟨S64, .f32⟩
  | .local _ .vmem, ⟨25, _⟩ => ⟨S64x1, .f32⟩
  | .local _ .vmem, ⟨26, _⟩ => ⟨S1, .f32⟩
  | .local _ .vmem, ⟨27, _⟩ => ⟨S8192x2, .f32⟩
  | .local _ .vmem, ⟨28, _⟩ => ⟨S8192x2, .f32⟩
  | .local _ .vmem, ⟨29, _⟩ => ⟨S8192x1, .f32⟩
  | .local _ .vmem, ⟨30, _⟩ => ⟨S8192x1, .f32⟩
  | .local _ .vmem, ⟨31, _⟩ => ⟨S8192, .f32⟩
  | .local _ .vmem, ⟨32, _⟩ => ⟨S8192, .f32⟩
  | _, _ => ⟨S1048576x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v0_2 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg22_0 : Ref sig .tc := ⟨.vmem, 25, rfl⟩
abbrev cc0_stg23_0 : Ref sig .tc := ⟨.vmem, 26, rfl⟩
abbrev cc0_stg24_0 : Ref sig .tc := ⟨.vmem, 27, rfl⟩
abbrev cc0_stg24_1 : Ref sig .tc := ⟨.vmem, 28, rfl⟩
abbrev cc0_stg25_0 : Ref sig .tc := ⟨.vmem, 29, rfl⟩
abbrev cc0_stg25_1 : Ref sig .tc := ⟨.vmem, 30, rfl⟩
abbrev cc0_stg26_0 : Ref sig .tc := ⟨.vmem, 31, rfl⟩
abbrev cc0_stg26_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem22_0 : DmaSem sig := 25
abbrev cc0_sem23_0 : DmaSem sig := 26
abbrev cc0_sem24_0 : DmaSem sig := 27
abbrev cc0_sem24_1 : DmaSem sig := 28
abbrev cc0_sem25_0 : DmaSem sig := 29
abbrev cc0_sem25_1 : DmaSem sig := 30
abbrev cc0_sem26_0 : DmaSem sig := 31
abbrev cc0_sem26_1 : DmaSem sig := 32

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_26 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x2x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x2x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S6x1x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x4x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x4x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x4 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S64x2 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S2 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S64x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S64 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S64x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S8192x2 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S8192x1 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S8192 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

class Facts₀ : Prop where
  inb_S8192x8_S8192x8_0_0 : ∀ a, (![0, 0] : Fin 2 → Nat) a + S8192x8.size a ≤ S8192x8.size a
  h_S8192x8 : 0 < S8192x8.numel
  inb_S8192x2_S8192x2_0_0 : ∀ a, (![0, 0] : Fin 2 → Nat) a + S8192x2.size a ≤ S8192x2.size a
  h_S8192x2 : 0 < S8192x2.numel
  slices_S8192x8_o0_6_S8192x2 : S8192x8.Slices ![0, 6] S8192x2
  slices_S8192x8_o0_0_S8192x2 : S8192x8.Slices ![0, 0] S8192x2
  inb_S4x2x4_S4x2x4_0_0_0 : ∀ a, (![0, 0, 0] : Fin 3 → Nat) a + S4x2x4.size a ≤ S4x2x4.size a
  h_S4x2x4 : 0 < S4x2x4.numel
  inb_S6x2x4_S6x2x4_0_0_0 : ∀ a, (![0, 0, 0] : Fin 3 → Nat) a + S6x2x4.size a ≤ S6x2x4.size a
  h_S6x2x4 : 0 < S6x2x4.numel
  inb_S6x1x4_S6x1x4_0_0_0 : ∀ a, (![0, 0, 0] : Fin 3 → Nat) a + S6x1x4.size a ≤ S6x1x4.size a
  h_S6x1x4 : 0 < S6x1x4.numel
  inb_S4x1x4_S4x1x4_0_0_0 : ∀ a, (![0, 0, 0] : Fin 3 → Nat) a + S4x1x4.size a ≤ S4x1x4.size a
  h_S4x1x4 : 0 < S4x1x4.numel
  slices_S4x2x4_o0_0_0_S1x2x4 : S4x2x4.Slices ![0, 0, 0] S1x2x4
  shapeCasts_S1x2x4_S2x4 : S1x2x4.ShapeCasts S2x4
  bitsLt_bf16_f32 : FTy.bits .bf16 < FTy.bits .f32
  slices_S4x2x4_o1_0_0_S1x2x4 : S4x2x4.Slices ![1, 0, 0] S1x2x4
  slices_S4x2x4_o2_0_0_S1x2x4 : S4x2x4.Slices ![2, 0, 0] S1x2x4
  slices_S4x2x4_o3_0_0_S1x2x4 : S4x2x4.Slices ![3, 0, 0] S1x2x4
  slices_S6x2x4_o0_0_0_S1x2x4 : S6x2x4.Slices ![0, 0, 0] S1x2x4
  slices_S6x1x4_o0_0_0_S1x1x4 : S6x1x4.Slices ![0, 0, 0] S1x1x4
  shapeCasts_S1x1x4_S1x4 : S1x1x4.ShapeCasts S1x4
  broadcasts_S1x4_S8192x4 : S1x4.Broadcasts S8192x4
  slices_S6x2x4_o1_0_0_S1x2x4 : S6x2x4.Slices ![1, 0, 0] S1x2x4
  slices_S6x1x4_o1_0_0_S1x1x4 : S6x1x4.Slices ![1, 0, 0] S1x1x4
  slices_S6x2x4_o2_0_0_S1x2x4 : S6x2x4.Slices ![2, 0, 0] S1x2x4
  slices_S6x1x4_o2_0_0_S1x1x4 : S6x1x4.Slices ![2, 0, 0] S1x1x4
  slices_S6x2x4_o3_0_0_S1x2x4 : S6x2x4.Slices ![3, 0, 0] S1x2x4
  slices_S6x1x4_o3_0_0_S1x1x4 : S6x1x4.Slices ![3, 0, 0] S1x1x4
  slices_S6x2x4_o4_0_0_S1x2x4 : S6x2x4.Slices ![4, 0, 0] S1x2x4
  slices_S6x1x4_o4_0_0_S1x1x4 : S6x1x4.Slices ![4, 0, 0] S1x1x4
  slices_S6x2x4_o5_0_0_S1x2x4 : S6x2x4.Slices ![5, 0, 0] S1x2x4
  slices_S6x1x4_o5_0_0_S1x1x4 : S6x1x4.Slices ![5, 0, 0] S1x1x4
  slices_S4x1x4_o0_0_0_S1x1x4 : S4x1x4.Slices ![0, 0, 0] S1x1x4
  slices_S4x1x4_o1_0_0_S1x1x4 : S4x1x4.Slices ![1, 0, 0] S1x1x4
  slices_S4x1x4_o2_0_0_S1x1x4 : S4x1x4.Slices ![2, 0, 0] S1x1x4
  slices_S4x1x4_o3_0_0_S1x1x4 : S4x1x4.Slices ![3, 0, 0] S1x1x4
  inb_S4x4x1_S4x4x1_0_0_0 : ∀ a, (![0, 0, 0] : Fin 3 → Nat) a + S4x4x1.size a ≤ S4x4x1.size a
  h_S4x4x1 : 0 < S4x4x1.numel
  inb_S6x4x1_S6x4x1_0_0_0 : ∀ a, (![0, 0, 0] : Fin 3 → Nat) a + S6x4x1.size a ≤ S6x4x1.size a
  h_S6x4x1 : 0 < S6x4x1.numel
  inb_S6x1x1_S6x1x1_0_0_0 : ∀ a, (![0, 0, 0] : Fin 3 → Nat) a + S6x1x1.size a ≤ S6x1x1.size a
  h_S6x1x1 : 0 < S6x1x1.numel
  inb_S4x1x1_S4x1x1_0_0_0 : ∀ a, (![0, 0, 0] : Fin 3 → Nat) a + S4x1x1.size a ≤ S4x1x1.size a
  h_S4x1x1 : 0 < S4x1x1.numel
  slices_S4x4x1_o0_0_0_S1x4x1 : S4x4x1.Slices ![0, 0, 0] S1x4x1
  shapeCasts_S1x4x1_S4x1 : S1x4x1.ShapeCasts S4x1
  slices_S4x4x1_o1_0_0_S1x4x1 : S4x4x1.Slices ![1, 0, 0] S1x4x1
  slices_S4x4x1_o2_0_0_S1x4x1 : S4x4x1.Slices ![2, 0, 0] S1x4x1
  slices_S4x4x1_o3_0_0_S1x4x1 : S4x4x1.Slices ![3, 0, 0] S1x4x1
  slices_S6x4x1_o0_0_0_S1x4x1 : S6x4x1.Slices ![0, 0, 0] S1x4x1
  slices_S6x1x1_o0_0_0_S1x1x1 : S6x1x1.Slices ![0, 0, 0] S1x1x1
  shapeCasts_S1x1x1_S1x1 : S1x1x1.ShapeCasts S1x1
  broadcasts_S1x1_S8192x1 : S1x1.Broadcasts S8192x1
  slices_S6x4x1_o1_0_0_S1x4x1 : S6x4x1.Slices ![1, 0, 0] S1x4x1
  slices_S6x1x1_o1_0_0_S1x1x1 : S6x1x1.Slices ![1, 0, 0] S1x1x1
  slices_S6x4x1_o2_0_0_S1x4x1 : S6x4x1.Slices ![2, 0, 0] S1x4x1
  slices_S6x1x1_o2_0_0_S1x1x1 : S6x1x1.Slices ![2, 0, 0] S1x1x1
  slices_S6x4x1_o3_0_0_S1x4x1 : S6x4x1.Slices ![3, 0, 0] S1x4x1
  slices_S6x1x1_o3_0_0_S1x1x1 : S6x1x1.Slices ![3, 0, 0] S1x1x1
  slices_S6x4x1_o4_0_0_S1x4x1 : S6x4x1.Slices ![4, 0, 0] S1x4x1
  slices_S6x1x1_o4_0_0_S1x1x1 : S6x1x1.Slices ![4, 0, 0] S1x1x1
  slices_S6x4x1_o5_0_0_S1x4x1 : S6x4x1.Slices ![5, 0, 0] S1x4x1
  slices_S6x1x1_o5_0_0_S1x1x1 : S6x1x1.Slices ![5, 0, 0] S1x1x1
  slices_S4x1x1_o0_0_0_S1x1x1 : S4x1x1.Slices ![0, 0, 0] S1x1x1
  slices_S4x1x1_o1_0_0_S1x1x1 : S4x1x1.Slices ![1, 0, 0] S1x1x1
  slices_S4x1x1_o2_0_0_S1x1x1 : S4x1x1.Slices ![2, 0, 0] S1x1x1
  slices_S4x1x1_o3_0_0_S1x1x1 : S4x1x1.Slices ![3, 0, 0] S1x1x1
  concatenates_S8192x1_S8192x1_S8192x1_S8192x1_S8192x4_d1 : Shape.Concatenates [S8192x1, S8192x1, S8192x1, S8192x1] S8192x4 1
  inb_S4x4_S4x4_0_0 : ∀ a, (![0, 0] : Fin 2 → Nat) a + S4x4.size a ≤ S4x4.size a
  h_S4x4 : 0 < S4x4.numel
  inb_S4_S4_0 : ∀ a, (![0] : Fin 1 → Nat) a + S4.size a ≤ S4.size a
  h_S4 : 0 < S4.numel
  shapeCasts_S4_S1x4 : S4.ShapeCasts S1x4
  slices_S8192x8_o0_2_S8192x4 : S8192x8.Slices ![0, 2] S8192x4
  concatenates_S8192x4_S8192x4_S8192x8_d1 : Shape.Concatenates [S8192x4, S8192x4] S8192x8 1
  inb_S8x64_S8x64_0_0 : ∀ a, (![0, 0] : Fin 2 → Nat) a + S8x64.size a ≤ S8x64.size a
  h_S8x64 : 0 < S8x64.numel
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  inb_S64x64_S64x64_0_0 : ∀ a, (![0, 0] : Fin 2 → Nat) a + S64x64.size a ≤ S64x64.size a
  h_S64x64 : 0 < S64x64.numel
  inb_S64x2_S64x2_0_0 : ∀ a, (![0, 0] : Fin 2 → Nat) a + S64x2.size a ≤ S64x2.size a
  h_S64x2 : 0 < S64x2.numel
  inb_S2_S2_0 : ∀ a, (![0] : Fin 1 → Nat) a + S2.size a ≤ S2.size a
  h_S2 : 0 < S2.numel
  shapeCasts_S2_S1x2 : S2.ShapeCasts S1x2
  broadcasts_S1x2_S8192x2 : S1x2.Broadcasts S8192x2
  reduces_S8192x2_S8192 : S8192x2.Reduces [1] S8192
  inb_S8192_S8192_0 : ∀ a, (![0] : Fin 1 → Nat) a + S8192.size a ≤ S8192.size a
  h_S8192 : 0 < S8192.numel
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  inb_S8192x1_S8192x1_0_0 : ∀ a, (![0, 0] : Fin 2 → Nat) a + S8192x1.size a ≤ S8192x1.size a
  h_S8192x1 : 0 < S8192x1.numel
  dot_S8192x2_S2x4_S8192x4_1_0_0_1_n_n_wf : DotDims.WF S8192x2 S2x4 S8192x4 [1] [0] [0] [1] [] []
  dot_S8192x4_S4x1_S8192x1_1_0_0_1_n_n_wf : DotDims.WF S8192x4 S4x1 S8192x1 [1] [0] [0] [1] [] []
  dot_S8192x4_S4x4_S8192x4_1_0_0_1_n_n_wf : DotDims.WF S8192x4 S4x4 S8192x4 [1] [0] [0] [1] [] []
  dot_S8192x8_S8x64_S8192x64_1_0_0_1_n_n_wf : DotDims.WF S8192x8 S8x64 S8192x64 [1] [0] [0] [1] [] []
  dot_S8192x64_S64x64_S8192x64_1_0_0_1_n_n_wf : DotDims.WF S8192x64 S64x64 S8192x64 [1] [0] [0] [1] [] []
  dot_S8192x64_S64x2_S8192x2_1_0_0_1_n_n_wf : DotDims.WF S8192x64 S64x2 S8192x2 [1] [0] [0] [1] [] []
  dot_S8192x64_S64x1_S8192x1_1_0_0_1_n_n_wf : DotDims.WF S8192x64 S64x1 S8192x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x8.size a ≤ S1048576x8.size a
  hwx0_0 : ∀ i : grid0.Coords, EltTy.bits .f32 = 32 ∨ (Rect.block (s := S1048576x8) S8192x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x2.size a ≤ S1048576x2.size a
  hwx0_1 : ∀ i : grid0.Coords, EltTy.bits .f32 = 32 ∨ (Rect.block (s := S1048576x2) S8192x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x2.size a ≤ S1048576x2.size a
  hwx0_2 : ∀ i : grid0.Coords, EltTy.bits .f32 = 32 ∨ (Rect.block (s := S1048576x2) S8192x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x2x4.size a ≤ S4x2x4.size a
  hwx0_3 : ∀ i : grid0.Coords, EltTy.bits .f32 = 32 ∨ (Rect.block (s := S4x2x4) S4x2x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x2x4.size a ≤ S6x2x4.size a
  hwx0_4 : ∀ i : grid0.Coords, EltTy.bits .f32 = 32 ∨ (Rect.block (s := S6x2x4) S6x2x4.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S6x1x4.size a ≤ S6x1x4.size a
  hwx0_5 : ∀ i : grid0.Coords, EltTy.bits .f32 = 32 ∨ (Rect.block (s := S6x1x4) S6x1x4.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1x4.size a ≤ S4x1x4.size a
  hwx0_6 : ∀ i : grid0.Coords, EltTy.bits .f32 = 32 ∨ (Rect.block (s := S4x1x4) S4x1x4.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x4x1.size a ≤ S4x4x1.size a
  hwx0_7 : ∀ i : grid0.Coords, EltTy.bits .f32 = 32 ∨ (Rect.block (s := S4x4x1) S4x4x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S6x4x1.size a ≤ S6x4x1.size a
  hwx0_8 : ∀ i : grid0.Coords, EltTy.bits .f32 = 32 ∨ (Rect.block (s := S6x4x1) S6x4x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x1x1.size a ≤ S6x1x1.size a
  hwx0_9 : ∀ i : grid0.Coords, EltTy.bits .f32 = 32 ∨ (Rect.block (s := S6x1x1) S6x1x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x1x1.size a ≤ S4x1x1.size a
  hwx0_10 : ∀ i : grid0.Coords, EltTy.bits .f32 = 32 ∨ (Rect.block (s := S4x1x1) S4x1x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x4.size a ≤ S4x4.size a
  hwx0_11 : ∀ i : grid0.Coords, EltTy.bits .f32 = 32 ∨ (Rect.block (s := S4x4) S4x4.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S4.size a ≤ S4.size a
  hwx0_12 : ∀ i : grid0.Coords, EltTy.bits .f32 = 32 ∨ (Rect.block (s := S4) S4.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S8x64.size a ≤ S8x64.size a
  hwx0_13 : ∀ i : grid0.Coords, EltTy.bits .f32 = 32 ∨ (Rect.block (s := S8x64) S8x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64.size a ≤ S64.size a
  hwx0_14 : ∀ i : grid0.Coords, EltTy.bits .f32 = 32 ∨ (Rect.block (s := S64) S64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x64.size a ≤ S64x64.size a
  hwx0_15 : ∀ i : grid0.Coords, EltTy.bits .f32 = 32 ∨ (Rect.block (s := S64x64) S64x64.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S64.size a ≤ S64.size a
  hwx0_16 : ∀ i : grid0.Coords, EltTy.bits .f32 = 32 ∨ (Rect.block (s := S64) S64.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S64x2.size a ≤ S64x2.size a
  hwx0_17 : ∀ i : grid0.Coords, EltTy.bits .f32 = 32 ∨ (Rect.block (s := S64x2) S64x2.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S2.size a ≤ S2.size a
  hwx0_18 : ∀ i : grid0.Coords, EltTy.bits .f32 = 32 ∨ (Rect.block (s := S2) S2.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S2.size a ≤ S2.size a
  hwx0_19 : ∀ i : grid0.Coords, EltTy.bits .f32 = 32 ∨ (Rect.block (s := S2) S2.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S64x64.size a ≤ S64x64.size a
  hwx0_20 : ∀ i : grid0.Coords, EltTy.bits .f32 = 32 ∨ (Rect.block (s := S64x64) S64x64.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S64.size a ≤ S64.size a
  hwx0_21 : ∀ i : grid0.Coords, EltTy.bits .f32 = 32 ∨ (Rect.block (s := S64) S64.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S64x1.size a ≤ S64x1.size a
  hwx0_22 : ∀ i : grid0.Coords, EltTy.bits .f32 = 32 ∨ (Rect.block (s := S64x1) S64x1.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1.size a ≤ S1.size a
  hwx0_23 : ∀ i : grid0.Coords, EltTy.bits .f32 = 32 ∨ (Rect.block (s := S1) S1.size (cc0_transform_23 i) (hinb0_23 i)).WholeWords (EltTy.packing .f32)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S8192x2.size a ≤ S1048576x2.size a
  hwx0_24 : ∀ i : grid0.Coords, EltTy.bits .f32 = 32 ∨ (Rect.block (s := S1048576x2) S8192x2.size (cc0_transform_24 i) (hinb0_24 i)).WholeWords (EltTy.packing .f32)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S8192x1.size a ≤ S1048576x1.size a
  hwx0_25 : ∀ i : grid0.Coords, EltTy.bits .f32 = 32 ∨ (Rect.block (s := S1048576x1) S8192x1.size (cc0_transform_25 i) (hinb0_25 i)).WholeWords (EltTy.packing .f32)
  hstage0_26 : ∀ j, (stage0_26 j).IsWhole
  nbuf0_26 : grid0.bufCount reads0_26 false = 2
  hreads0_26 : ∀ i i' : grid0.Coords, (∀ a, reads0_26 a = true → i a = i' a) → cc0_transform_26 i = cc0_transform_26 i'
  hinb0_26 : ∀ (i : grid0.Coords) a, (cc0_transform_26 i a + 1) * S8192.size a ≤ S1048576.size a
  hwx0_26 : ∀ i : grid0.Coords, EltTy.bits .f32 = 32 ∨ (Rect.block (s := S1048576) S8192.size (cc0_transform_26 i) (hinb0_26 i)).WholeWords (EltTy.packing .f32)

variable [Facts₀]

def dot_S8192x2_S2x4_S8192x4_1_0_0_1_n_n : DotDims S8192x2 S2x4 S8192x4 where
  lhsContracting := [1]
  rhsContracting := [0]
  lhsNonContracting := [0]
  rhsNonContracting := [1]
  lhsBatch := []
  rhsBatch := []
  wf := dot_S8192x2_S2x4_S8192x4_1_0_0_1_n_n_wf
def dot_S8192x4_S4x1_S8192x1_1_0_0_1_n_n : DotDims S8192x4 S4x1 S8192x1 where
  lhsContracting := [1]
  rhsContracting := [0]
  lhsNonContracting := [0]
  rhsNonContracting := [1]
  lhsBatch := []
  rhsBatch := []
  wf := dot_S8192x4_S4x1_S8192x1_1_0_0_1_n_n_wf
def dot_S8192x4_S4x4_S8192x4_1_0_0_1_n_n : DotDims S8192x4 S4x4 S8192x4 where
  lhsContracting := [1]
  rhsContracting := [0]
  lhsNonContracting := [0]
  rhsNonContracting := [1]
  lhsBatch := []
  rhsBatch := []
  wf := dot_S8192x4_S4x4_S8192x4_1_0_0_1_n_n_wf
def dot_S8192x8_S8x64_S8192x64_1_0_0_1_n_n : DotDims S8192x8 S8x64 S8192x64 where
  lhsContracting := [1]
  rhsContracting := [0]
  lhsNonContracting := [0]
  rhsNonContracting := [1]
  lhsBatch := []
  rhsBatch := []
  wf := dot_S8192x8_S8x64_S8192x64_1_0_0_1_n_n_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf
def dot_S8192x64_S64x1_S8192x1_1_0_0_1_n_n : DotDims S8192x64 S64x1 S8192x1 where
  lhsContracting := [1]
  rhsContracting := [0]
  lhsNonContracting := [0]
  rhsNonContracting := [1]
  lhsBatch := []
  rhsBatch := []
  wf := dot_S8192x64_S64x1_S8192x1_1_0_0_1_n_n_wf

abbrev win0_0 : Pipeline.Window sig grid0 :=
  Pipeline.Window.ofSpec (Memref.whole main_arg0) S8192x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S4x2x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x2x4.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S6x1x4.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4x1x4.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S4x4x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S6x4x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S4x1x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S4x4.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S4.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S8x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S64x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S64.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S64x2.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S2.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S2.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S64x64.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_arg21) S64.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S64x1.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_arg23) S1.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v0_0) S8192x2.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v0_1) S8192x1.size cc0_transform_25 reads0_25 true false 2 stage0_25 sem0_25
    hrank0 hreads0_25 hinb0_25 nbuf0_25 (Memref.isWhole_whole _) hwx0_25 hstage0_25

abbrev win0_26 : Pipeline.Window sig grid0 :=
  Pipeline.Window.ofSpec (Memref.whole main_v0_2) S8192.size cc0_transform_26 reads0_26 true false 2 stage0_26 sem0_26
    hrank0 hreads0_26 hinb0_26 nbuf0_26 (Memref.isWhole_whole _) hwx0_26 hstage0_26

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S1048576x8 : Shape := ⟨2, ![1048576, 8]⟩
abbrev S1048576x2 : Shape := ⟨2, ![1048576, 2]⟩
abbrev S4x2x4 : Shape := ⟨3, ![4, 2, 4]⟩
abbrev S6x2x4 : Shape := ⟨3, ![6, 2, 4]⟩
abbrev S6x1x4 : Shape := ⟨3, ![6, 1, 4]⟩
abbrev S4x1x4 : Shape := ⟨3, ![4, 1, 4]⟩
abbrev S4x4x1 : Shape := ⟨3, ![4, 4, 1]⟩
abbrev S6x4x1 : Shape := ⟨3, ![6, 4, 1]⟩
abbrev S6x1x1 : Shape := ⟨3, ![6, 1, 1]⟩
abbrev S4x1x1 : Shape := ⟨3, ![4, 1, 1]⟩
abbrev S4x4 : Shape := ⟨2, ![4, 4]⟩
abbrev S4 : Shape := ⟨1, ![4]⟩
abbrev S8x64 : Shape := ⟨2, ![8, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S64x1 : Shape := ⟨2, ![64, 1]⟩
abbrev S1 : Shape := ⟨1, ![1]⟩
abbrev S6 : Shape := ⟨1, ![6]⟩
abbrev S1x1048576x2 : Shape := ⟨3, ![1, 1048576, 2]⟩
abbrev S4x1048576x2 : Shape := ⟨3, ![4, 1048576, 2]⟩
abbrev S4x1048576x4 : Shape := ⟨3, ![4, 1048576, 4]⟩
abbrev S_ : Shape := ⟨0, ![]⟩
abbrev S6x1 : Shape := ⟨2, ![6, 1]⟩
abbrev S6x1048576x2 : Shape := ⟨3, ![6, 1048576, 2]⟩
abbrev S6x1048576x4 : Shape := ⟨3, ![6, 1048576, 4]⟩
abbrev S4x1048576x1 : Shape := ⟨3, ![4, 1048576, 1]⟩
abbrev S6x1048576x1 : Shape := ⟨3, ![6, 1048576, 1]⟩
abbrev S4x1048576 : Shape := ⟨2, ![4, 1048576]⟩
abbrev S1048576x4 : Shape := ⟨2, ![1048576, 4]⟩
abbrev S1x4 : Shape := ⟨2, ![1, 4]⟩
abbrev S1048576x64 : Shape := ⟨2, ![1048576, 64]⟩
abbrev S1x64 : Shape := ⟨2, ![1, 64]⟩
abbrev S1x2 : Shape := ⟨2, ![1, 2]⟩
abbrev S1048576 : Shape := ⟨1, ![1048576]⟩
abbrev S1048576x1 : Shape := ⟨2, ![1048576, 1]⟩
abbrev S1x1 : Shape := ⟨2, ![1, 1]⟩

abbrev nBuf : Space → Nat
  | .hbm => 124
  | .vmem => 0
  | .smem => 0
  | _ => 0

abbrev bufTy : (tb : Table) → Fin (tcTables nBuf tb) → BufTy
  | .hbm, ⟨0, _⟩ => ⟨S1048576x8, .f32⟩
  | .hbm, ⟨1, _⟩ => ⟨S1048576x2, .f32⟩
  | .hbm, ⟨2, _⟩ => ⟨S1048576x2, .f32⟩
  | .hbm, ⟨3, _⟩ => ⟨S4x2x4, .f32⟩
  | .hbm, ⟨4, _⟩ => ⟨S6x2x4, .f32⟩
  | .hbm, ⟨5, _⟩ => ⟨S6x1x4, .f32⟩
  | .hbm, ⟨6, _⟩ => ⟨S4x1x4, .f32⟩
  | .hbm, ⟨7, _⟩ => ⟨S4x4x1, .f32⟩
  | .hbm, ⟨8, _⟩ => ⟨S6x4x1, .f32⟩
  | .hbm, ⟨9, _⟩ => ⟨S6x1x1, .f32⟩
  | .hbm, ⟨10, _⟩ => ⟨S4x1x1, .f32⟩
  | .hbm, ⟨11, _⟩ => ⟨S4x4, .f32⟩
  | .hbm, ⟨12, _⟩ => ⟨S4, .f32⟩
  | .hbm, ⟨13, _⟩ => ⟨S8x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x2, .f32⟩
  | .hbm, ⟨18, _⟩ => ⟨S2, .f32⟩
  | .hbm, ⟨19, _⟩ => ⟨S2, .f32⟩
  | .hbm, ⟨20, _⟩ => ⟨S64x64, .f32⟩
  | .hbm, ⟨21, _⟩ => ⟨S64, .f32⟩
  | .hbm, ⟨22, _⟩ => ⟨S64x1, .f32⟩
  | .hbm, ⟨23, _⟩ => ⟨S1, .f32⟩
  | .hbm, ⟨24, _⟩ => ⟨S6, .i32⟩
  | .hbm, ⟨25, _⟩ => ⟨S6, .i32⟩
  | .hbm, ⟨26, _⟩ => ⟨S1048576x2, .f32⟩
  | .hbm, ⟨27, _⟩ => ⟨S1048576x2, .f32⟩
  | .hbm, ⟨28, _⟩ => ⟨S1x1048576x2, .f32⟩
  | .hbm, ⟨29, _⟩ => ⟨S1x1048576x2, .f32⟩
  | .hbm, ⟨30, _⟩ => ⟨S1x1048576x2, .f32⟩
  | .hbm, ⟨31, _⟩ => ⟨S1x1048576x2, .f32⟩
  | .hbm, ⟨32, _⟩ => ⟨S4x1048576x2, .f32⟩
  | .hbm, ⟨33, _⟩ => ⟨S4x1048576x4, .f32⟩
  | .hbm, ⟨34, _⟩ => ⟨S_, .i32⟩
  | .hbm, ⟨35, _⟩ => ⟨S6, .i32⟩
  | .hbm, ⟨36, _⟩ => ⟨S6, .i1⟩
  | .hbm, ⟨37, _⟩ => ⟨S_, .i32⟩
  | .hbm, ⟨38, _⟩ => ⟨S6, .i32⟩
  | .hbm, ⟨39, _⟩ => ⟨S6, .i32⟩
  | .hbm, ⟨40, _⟩ => ⟨S6, .i32⟩
  | .hbm, ⟨41, _⟩ => ⟨S6x1, .i32⟩
  | .hbm, ⟨42, _⟩ => ⟨S6x1048576x2, .f32⟩
  | .hbm, ⟨43, _⟩ => ⟨S6x1048576x4, .f32⟩
  | .hbm, ⟨44, _⟩ => ⟨S6x1048576x4, .f32⟩
  | .hbm, ⟨45, _⟩ => ⟨S6x1048576x4, .f32⟩
  | .hbm, ⟨46, _⟩ => ⟨S_, .f32⟩
  | .hbm, ⟨47, _⟩ => ⟨S4x1048576x4, .f32⟩
  | .hbm, ⟨48, _⟩ => ⟨S6x1, .i32⟩
  | .hbm, ⟨49, _⟩ => ⟨S4x1048576x4, .f32⟩
  | .hbm, ⟨50, _⟩ => ⟨S4x1048576x4, .f32⟩
  | .hbm, ⟨51, _⟩ => ⟨S4x1048576x4, .f32⟩
  | .hbm, ⟨52, _⟩ => ⟨S4x1048576x4, .f32⟩
  | .hbm, ⟨53, _⟩ => ⟨S4x1048576x4, .f32⟩
  | .hbm, ⟨54, _⟩ => ⟨S4x1048576x1, .f32⟩
  | .hbm, ⟨55, _⟩ => ⟨S_, .i32⟩
  | .hbm, ⟨56, _⟩ => ⟨S6, .i32⟩
  | .hbm, ⟨57, _⟩ => ⟨S6, .i1⟩
  | .hbm, ⟨58, _⟩ => ⟨S_, .i32⟩
  | .hbm, ⟨59, _⟩ => ⟨S6, .i32⟩
  | .hbm, ⟨60, _⟩ => ⟨S6, .i32⟩
  | .hbm, ⟨61, _⟩ => ⟨S6, .i32⟩
  | .hbm, ⟨62, _⟩ => ⟨S6x1, .i32⟩
  | .hbm, ⟨63, _⟩ => ⟨S6x1048576x4, .f32⟩
  | .hbm, ⟨64, _⟩ => ⟨S6x1048576x1, .f32⟩
  | .hbm, ⟨65, _⟩ => ⟨S6x1048576x1, .f32⟩
  | .hbm, ⟨66, _⟩ => ⟨S6x1048576x1, .f32⟩
  | .hbm, ⟨67, _⟩ => ⟨S_, .f32⟩
  | .hbm, ⟨68, _⟩ => ⟨S4x1048576x1, .f32⟩
  | .hbm, ⟨69, _⟩ => ⟨S6x1, .i32⟩
  | .hbm, ⟨70, _⟩ => ⟨S4x1048576x1, .f32⟩
  | .hbm, ⟨71, _⟩ => ⟨S4x1048576x1, .f32⟩
  | .hbm, ⟨72, _⟩ => ⟨S4x1048576x1, .f32⟩
  | .hbm, ⟨73, _⟩ => ⟨S4x1048576x1, .f32⟩
  | .hbm, ⟨74, _⟩ => ⟨S4x1048576, .f32⟩
  | .hbm, ⟨75, _⟩ => ⟨S4x1048576, .f32⟩
  | .hbm, ⟨76, _⟩ => ⟨S1048576x4, .f32⟩
  | .hbm, ⟨77, _⟩ => ⟨S1048576x4, .f32⟩
  | .hbm, ⟨78, _⟩ => ⟨S1x4, .f32⟩
  | .hbm, ⟨79, _⟩ => ⟨S1048576x4, .f32⟩
  | .hbm, ⟨80, _⟩ => ⟨S1048576x4, .f32⟩
  | .hbm, ⟨81, _⟩ => ⟨S1048576x4, .f32⟩
  | .hbm, ⟨82, _⟩ => ⟨S1048576x4, .f32⟩
  | .hbm, ⟨83, _⟩ => ⟨S1048576x8, .f32⟩
  | .hbm, ⟨84, _⟩ => ⟨S1048576x64, .f32⟩
  | .hbm, ⟨85, _⟩ => ⟨S1x64, .f32⟩
  | .hbm, ⟨86, _⟩ => ⟨S1048576x64, .f32⟩
  | .hbm, ⟨87, _⟩ => ⟨S1048576x64, .f32⟩
  | .hbm, ⟨88, _⟩ => ⟨S1048576x64, .f32⟩
  | .hbm, ⟨89, _⟩ => ⟨S1048576x64, .f32⟩
  | .hbm, ⟨90, _⟩ => ⟨S1x64, .f32⟩
  | .hbm, ⟨91, _⟩ => ⟨S1048576x64, .f32⟩
  | .hbm, ⟨92, _⟩ => ⟨S1048576x64, .f32⟩
  | .hbm, ⟨93, _⟩ => ⟨S1048576x64, .f32⟩
  | .hbm, ⟨94, _⟩ => ⟨S1048576x2, .f32⟩
  | .hbm, ⟨95, _⟩ => ⟨S1x2, .f32⟩
  | .hbm, ⟨96, _⟩ => ⟨S1048576x2, .f32⟩
  | .hbm, ⟨97, _⟩ => ⟨S1048576x2, .f32⟩
  | .hbm, ⟨98, _⟩ => ⟨S2, .f32⟩
  | .hbm, ⟨99, _⟩ => ⟨S1048576x2, .f32⟩
  | .hbm, ⟨100, _⟩ => ⟨S1x2, .f32⟩
  | .hbm, ⟨101, _⟩ => ⟨S1048576x2, .f32⟩
  | .hbm, ⟨102, _⟩ => ⟨S1048576x2, .f32⟩
  | .hbm, ⟨103, _⟩ => ⟨S1048576x2, .f32⟩
  | .hbm, ⟨104, _⟩ => ⟨S_, .f32⟩
  | .hbm, ⟨105, _⟩ => ⟨S1048576x2, .f32⟩
  | .hbm, ⟨106, _⟩ => ⟨S1048576x2, .f32⟩
  | .hbm, ⟨107, _⟩ => ⟨S1x2, .f32⟩
  | .hbm, ⟨108, _⟩ => ⟨S1048576x2, .f32⟩
  | .hbm, ⟨109, _⟩ => ⟨S1048576x2, .f32⟩
  | .hbm, ⟨110, _⟩ => ⟨S_, .f32⟩
  | .hbm, ⟨111, _⟩ => ⟨S1048576x2, .f32⟩
  | .hbm, ⟨112, _⟩ => ⟨S1048576x2, .f32⟩
  | .hbm, ⟨113, _⟩ => ⟨S_, .f32⟩
  | .hbm, ⟨114, _⟩ => ⟨S1048576, .f32⟩
  | .hbm, ⟨115, _⟩ => ⟨S1048576x64, .f32⟩
  | .hbm, ⟨116, _⟩ => ⟨S1x64, .f32⟩
  | .hbm, ⟨117, _⟩ => ⟨S1048576x64, .f32⟩
  | .hbm, ⟨118, _⟩ => ⟨S1048576x64, .f32⟩
  | .hbm, ⟨119, _⟩ => ⟨S1048576x64, .f32⟩
  | .hbm, ⟨120, _⟩ => ⟨S1048576x1, .f32⟩
  | .hbm, ⟨121, _⟩ => ⟨S1x1, .f32⟩
  | .hbm, ⟨122, _⟩ => ⟨S1048576x1, .f32⟩
  | .hbm, ⟨123, _⟩ => ⟨S1048576x1, .f32⟩
  | _, _ => ⟨S1048576x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_c : Ref sig .tc := ⟨.hbm, 24, rfl⟩
abbrev main_c_0 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_c_1 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_c_3 : Ref sig .tc := ⟨.hbm, 55, rfl⟩
abbrev main_v26 : Ref sig .tc := ⟨.hbm, 56, rfl⟩
abbrev main_v27 : Ref sig .tc := ⟨.hbm, 57, rfl⟩
abbrev main_c_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_5 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_6 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_cst_7 : Ref sig .tc := ⟨.hbm, 110, rfl⟩
abbrev main_v77 : Ref sig .tc := ⟨.hbm, 111, rfl⟩
abbrev main_v78 : Ref sig .tc := ⟨.hbm, 112, rfl⟩
abbrev main_cst_8 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩

abbrev nD : Nat := 1
abbrev τ : Topo := Topo.v7x

variable {F : FTy → Type} [FloatOps F]

class Facts₀ : Prop where
  slices_S1048576x8_S1048576x2_0_6 : S1048576x8.Slices ![0, 6] S1048576x2
  slices_S1048576x8_S1048576x2_0_0 : S1048576x8.Slices ![0, 0] S1048576x2
  bcast_S1048576x2_S1x1048576x2_1_2 : S1048576x2.BroadcastsInDim S1x1048576x2 (![1, 2] : Fin 2 → Fin S1x1048576x2.rank)
  concatenates_S1x1048576x2_S1x1048576x2_S1x1048576x2_S1x1048576x2_S4x1048576x2_d0 : Shape.Concatenates [S1x1048576x2, S1x1048576x2, S1x1048576x2, S1x1048576x2] S4x1048576x2 0
  bcast_S_S6 : S_.BroadcastsInDim S6 (![] : Fin 0 → Fin S6.rank)
  bcast_S6_S6x1_0 : S6.BroadcastsInDim S6x1 (![0] : Fin 1 → Fin S6x1.rank)
  bcast_S6x1x4_S6x1048576x4_0_1_2 : S6x1x4.BroadcastsInDim S6x1048576x4 (![0, 1, 2] : Fin 3 → Fin S6x1048576x4.rank)
  bcast_S_S4x1048576x4 : S_.BroadcastsInDim S4x1048576x4 (![] : Fin 0 → Fin S4x1048576x4.rank)
  bcast_S4x1x4_S4x1048576x4_0_1_2 : S4x1x4.BroadcastsInDim S4x1048576x4 (![0, 1, 2] : Fin 3 → Fin S4x1048576x4.rank)
  bcast_S6x1x1_S6x1048576x1_0_1_2 : S6x1x1.BroadcastsInDim S6x1048576x1 (![0, 1, 2] : Fin 3 → Fin S6x1048576x1.rank)
  bcast_S_S4x1048576x1 : S_.BroadcastsInDim S4x1048576x1 (![] : Fin 0 → Fin S4x1048576x1.rank)
  bcast_S4x1x1_S4x1048576x1_0_1_2 : S4x1x1.BroadcastsInDim S4x1048576x1 (![0, 1, 2] : Fin 3 → Fin S4x1048576x1.rank)
  shapeCasts_S4x1048576x1_S4x1048576 : S4x1048576x1.ShapeCasts S4x1048576
  transposes_S4x1048576_S1048576x4_1_0 : S4x1048576.Transposes [1, 0] S1048576x4
  bcast_S4_S1x4_1 : S4.BroadcastsInDim S1x4 (![1] : Fin 1 → Fin S1x4.rank)
  bcast_S1x4_S1048576x4_0_1 : S1x4.BroadcastsInDim S1048576x4 (![0, 1] : Fin 2 → Fin S1048576x4.rank)
  slices_S1048576x8_S1048576x4_0_2 : S1048576x8.Slices ![0, 2] S1048576x4
  concatenates_S1048576x4_S1048576x4_S1048576x8_d1 : Shape.Concatenates [S1048576x4, S1048576x4] S1048576x8 1
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  bcast_S_S1048576x2 : S_.BroadcastsInDim S1048576x2 (![] : Fin 0 → Fin S1048576x2.rank)
  reducesTo_S1048576x2_S1048576_d1 : S1048576x2.ReducesTo [1] S1048576
  h_S_ : 0 < S_.numel
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  dot_S4x1048576x2_S4x2x4_S4x1048576x4_2_1_1_2_0_0_wf : DotDims.WF S4x1048576x2 S4x2x4 S4x1048576x4 [2] [1] [1] [2] [0] [0]
  gather_S4x1048576x2_S6x1_S6x1048576x2_12_0_n_n_0_1_110485762_wf : GatherDims.WF S4x1048576x2 S6x1 S6x1048576x2 [1, 2] [0] [] [0] [] 1 ![1, 1048576, 2]
  dot_S6x1048576x2_S6x2x4_S6x1048576x4_2_1_1_2_0_0_wf : DotDims.WF S6x1048576x2 S6x2x4 S6x1048576x4 [2] [1] [1] [2] [0] [0]
  scatter_S4x1048576x4_S6x1_S6x1048576x4_12_0_0_1_wf : ScatterDims.WF S4x1048576x4 S6x1 S6x1048576x4 [1, 2] [0] [0] 1
  dot_S4x1048576x4_S4x4x1_S4x1048576x1_2_1_1_2_0_0_wf : DotDims.WF S4x1048576x4 S4x4x1 S4x1048576x1 [2] [1] [1] [2] [0] [0]
  gather_S4x1048576x4_S6x1_S6x1048576x4_12_0_n_n_0_1_110485764_wf : GatherDims.WF S4x1048576x4 S6x1 S6x1048576x4 [1, 2] [0] [] [0] [] 1 ![1, 1048576, 4]
  dot_S6x1048576x4_S6x4x1_S6x1048576x1_2_1_1_2_0_0_wf : DotDims.WF S6x1048576x4 S6x4x1 S6x1048576x1 [2] [1] [1] [2] [0] [0]
  scatter_S4x1048576x1_S6x1_S6x1048576x1_12_0_0_1_wf : ScatterDims.WF S4x1048576x1 S6x1 S6x1048576x1 [1, 2] [0] [0] 1
  dot_S1048576x4_S4x4_S1048576x4_1_0_0_1_n_n_wf : DotDims.WF S1048576x4 S4x4 S1048576x4 [1] [0] [0] [1] [] []
  dot_S1048576x8_S8x64_S1048576x64_1_0_0_1_n_n_wf : DotDims.WF S1048576x8 S8x64 S1048576x64 [1] [0] [0] [1] [] []
  dot_S1048576x64_S64x64_S1048576x64_1_0_0_1_n_n_wf : DotDims.WF S1048576x64 S64x64 S1048576x64 [1] [0] [0] [1] [] []
  dot_S1048576x64_S64x2_S1048576x2_1_0_0_1_n_n_wf : DotDims.WF S1048576x64 S64x2 S1048576x2 [1] [0] [0] [1] [] []
  dot_S1048576x64_S64x1_S1048576x1_1_0_0_1_n_n_wf : DotDims.WF S1048576x64 S64x1 S1048576x1 [1] [0] [0] [1] [] []

variable [Facts₀]

def dot_S4x1048576x2_S4x2x4_S4x1048576x4_2_1_1_2_0_0 : DotDims S4x1048576x2 S4x2x4 S4x1048576x4 where
  lhsContracting := [2]
  rhsContracting := [1]
  lhsNonContracting := [1]
  rhsNonContracting := [2]
  lhsBatch := [0]
  rhsBatch := [0]
  wf := dot_S4x1048576x2_S4x2x4_S4x1048576x4_2_1_1_2_0_0_wf
def gather_S4x1048576x2_S6x1_S6x1048576x2_12_0_n_n_0_1_110485762 : GatherDims S4x1048576x2 S6x1 S6x1048576x2 where
  offsetDims := [1, 2]
  collapsedSliceDims := [0]
  operandBatchingDims := []
  startIndicesBatchingDims := []
  startIndexMap := [0]
  indexVectorDim := 1
  sliceSizes := ![1, 1048576, 2]
  wf := gather_S4x1048576x2_S6x1_S6x1048576x2_12_0_n_n_0_1_110485762_wf
def dot_S6x1048576x2_S6x2x4_S6x1048576x4_2_1_1_2_0_0 : DotDims S6x1048576x2 S6x2x4 S6x1048576x4 where
  lhsContracting := [2]
  rhsContracting := [1]
  lhsNonContracting := [1]
  rhsNonContracting := [2]
  lhsBatch := [0]
  rhsBatch := [0]
  wf := dot_S6x1048576x2_S6x2x4_S6x1048576x4_2_1_1_2_0_0_wf
def scatter_S4x1048576x4_S6x1_S6x1048576x4_12_0_0_1 : ScatterDims S4x1048576x4 S6x1 S6x1048576x4 where
  updateWindowDims := [1, 2]
  insertedWindowDims := [0]
  scatterDimsToOperandDims := [0]
  indexVectorDim := 1
  wf := scatter_S4x1048576x4_S6x1_S6x1048576x4_12_0_0_1_wf
def dot_S4x1048576x4_S4x4x1_S4x1048576x1_2_1_1_2_0_0 : DotDims S4x1048576x4 S4x4x1 S4x1048576x1 where
  lhsContracting := [2]
  rhsContracting := [1]
  lhsNonContracting := [1]
  rhsNonContracting := [2]
  lhsBatch := [0]
  rhsBatch := [0]
  wf := dot_S4x1048576x4_S4x4x1_S4x1048576x1_2_1_1_2_0_0_wf
def gather_S4x1048576x4_S6x1_S6x1048576x4_12_0_n_n_0_1_110485764 : GatherDims S4x1048576x4 S6x1 S6x1048576x4 where
  offsetDims := [1, 2]
  collapsedSliceDims := [0]
  operandBatchingDims := []
  startIndicesBatchingDims := []
  startIndexMap := [0]
  indexVectorDim := 1
  sliceSizes := ![1, 1048576, 4]
  wf := gather_S4x1048576x4_S6x1_S6x1048576x4_12_0_n_n_0_1_110485764_wf
def dot_S6x1048576x4_S6x4x1_S6x1048576x1_2_1_1_2_0_0 : DotDims S6x1048576x4 S6x4x1 S6x1048576x1 where
  lhsContracting := [2]
  rhsContracting := [1]
  lhsNonContracting := [1]
  rhsNonContracting := [2]
  lhsBatch := [0]
  rhsBatch := [0]
  wf := dot_S6x1048576x4_S6x4x1_S6x1048576x1_2_1_1_2_0_0_wf
def scatter_S4x1048576x1_S6x1_S6x1048576x1_12_0_0_1 : ScatterDims S4x1048576x1 S6x1 S6x1048576x1 where
  updateWindowDims := [1, 2]
  insertedWindowDims := [0]
  scatterDimsToOperandDims := [0]
  indexVectorDim := 1
  wf := scatter_S4x1048576x1_S6x1_S6x1048576x1_12_0_0_1_wf
def dot_S1048576x4_S4x4_S1048576x4_1_0_0_1_n_n : DotDims S1048576x4 S4x4 S1048576x4 where
  lhsContracting := [1]
  rhsContracting := [0]
  lhsNonContracting := [0]
  rhsNonContracting := [1]
  lhsBatch := []
  rhsBatch := []
  wf := dot_S1048576x4_S4x4_S1048576x4_1_0_0_1_n_n_wf
def dot_S1048576x8_S8x64_S1048576x64_1_0_0_1_n_n : DotDims S1048576x8 S8x64 S1048576x64 where
  lhsContracting := [1]
  rhsContracting := [0]
  lhsNonContracting := [0]
  rhsNonContracting := [1]
  lhsBatch := []
  rhsBatch := []
  wf := dot_S1048576x8_S8x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x2_S1048576x2_1_0_0_1_n_n : DotDims S1048576x64 S64x2 S1048576x2 where
  lhsContracting := [1]
  rhsContracting := [0]
  lhsNonContracting := [0]
  rhsNonContracting := [1]
  lhsBatch := []
  rhsBatch := []
  wf := dot_S1048576x64_S64x2_S1048576x2_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.Spec.lean ====
/-
  The policy network of one batch row, on the extended reals.

  A row of the batch carries four graph nodes of two features each: columns 6–7 of the observation, the two target
  rows, and columns 0–1 of the observation. Two rounds of message passing over the fixed graph with edges
  (0→1, 0→2, 0→3, 1→2, 1→3, 2→3) follow: a node's new value is the sum of its incoming edges' messages
  (source features times the edge's matrix, plus the edge's bias), plus the node's bias, plus the node's own
  features times its loop matrix; the first round ends in tanh and has four outputs a node, the second has one.
  The four second-round values, through tanh, a 4×4 layer and tanh, give the graph's four latent features; with
  columns 2–5 of the observation they are the eight inputs of a 64-wide tanh layer shared by two heads: the
  actor (64-wide tanh layer, then two means) and the critic (64-wide tanh layer, then one value). The
  log-probability of the mean action under the diagonal Gaussian is the sum over the two actions of
  -1/2 · (0 / exp s)² - s - c, with s the action's log standard deviation and c the constant ½ log 2π as the
  f32 word both programs carry.

  Everything is a function of ONE row: the batch index never mixes. `Gact`, `Gval`, `Glogp` read the row off
  whole arrays of any number of rows.
-/
import Idealize.ShloMosaic.PureOps.Ideal
import Idealize.ShloMosaic.Lib.ValueIdx

noncomputable section

open scoped BigOperators

namespace Cert.Spec

open Idealize.ShloMosaic Idealize.ShloMosaic.ValueIdx

/-- Arrays of extended reals of rank one, two and three, by their extents. -/
abbrev Arr1 (a : ℕ) : Type := (⟨1, ![a]⟩ : Shape).Idx → EReal
abbrev Arr2 (a b : ℕ) : Type := (⟨2, ![a, b]⟩ : Shape).Idx → EReal
abbrev Arr3 (a b c : ℕ) : Type := (⟨3, ![a, b, c]⟩ : Shape).Idx → EReal

/-- The network's parameters, in the order the programs take them. -/
structure Params where
  lw1 : Arr3 4 2 4
  W1 : Arr3 6 2 4
  mb1 : Arr3 6 1 4
  hb1 : Arr3 4 1 4
  lw2 : Arr3 4 4 1
  W2 : Arr3 6 4 1
  mb2 : Arr3 6 1 1
  hb2 : Arr3 4 1 1
  few : Arr2 4 4
  feb : Arr1 4
  cw : Arr2 8 64
  cb : Arr1 64
  aw : Arr2 64 64
  ab : Arr1 64
  acw : Arr2 64 2
  acb : Arr1 2
  ls : Arr1 2
  crw : Arr2 64 64
  crb : Arr1 64
  vw : Arr2 64 1
  vb : Arr1 1

/-- Edge `e` leaves node `src e` … -/
def src (e : Fin 6) : Fin 4 := ![0, 0, 0, 1, 1, 2] e
/-- … and enters node `dst e`. -/
def dst (e : Fin 6) : Fin 4 := ![1, 2, 3, 2, 3, 3] e

/-- The message of edge `e` at output feature `q`: its source's features through the edge's matrix, plus the edge's bias. -/
def msg {I O : ℕ} (W : Arr3 6 I O) (mb : Arr3 6 1 O) (h : Fin 4 → Fin I → EReal) (e : Fin 6) (q : Fin O) : EReal :=
  (∑ i : Fin I, h (src e) i * W (ix3 e i q)) + mb (ix3 e (0 : Fin 1) q)

/-- A node's own features through its loop matrix. -/
def loop {I O : ℕ} (lw : Arr3 4 I O) (h : Fin 4 → Fin I → EReal) (n : Fin 4) (q : Fin O) : EReal :=
  ∑ i : Fin I, h n i * lw (ix3 n i q)

/-- One round of message passing at node `n`, output feature `q`, before the activation: incoming messages, the node's
    bias, the node's loop term, added in that order. -/
def gnn {I O : ℕ} (lw : Arr3 4 I O) (W : Arr3 6 I O) (mb : Arr3 6 1 O) (hb : Arr3 4 1 O) (h : Fin 4 → Fin I → EReal)
    (n : Fin 4) (q : Fin O) : EReal :=
  ((∑ e ∈ Finset.univ.filter (fun e : Fin 6 => dst e = n), msg W mb h e q) + hb (ix3 n (0 : Fin 1) q)) + loop lw h n q

/-- A dense layer before its activation: `x · w + b` at output `j`. -/
def dense {K N : ℕ} (w : Arr2 K N) (b : Arr1 N) (x : Fin K → EReal) (j : Fin N) : EReal :=
  (∑ k : Fin K, x k * w (ix2 k j)) + b (ix1 j)

/-- The log-probability of the mean action from the log standard deviations `ls`: over the two actions,
    `-1/2 · (0 / exp s)² - s - c`, the constants as the f32 words both programs carry. -/
def logpOf (ls : Arr1 2) : EReal :=
  ∑ a : Fin 2, ((Ideal.ofBits .f32 0xBF000000#32
      * (Ideal.div 0 (Ideal.exp (ls (ix1 a))) * Ideal.div 0 (Ideal.exp (ls (ix1 a)))) - ls (ix1 a))
    - Ideal.ofBits .f32 0x3F6B3F8E#32)

variable (P : Params)

/-- First round: four features a node. -/
def X (nd : Fin 4 → Fin 2 → EReal) (n : Fin 4) (q : Fin 4) : EReal := Ideal.tanh (gnn P.lw1 P.W1 P.mb1 P.hb1 nd n q)
/-- Second round and its tanh: one value a node. -/
def Y (x : Fin 4 → Fin 4 → EReal) (n : Fin 4) : EReal := Ideal.tanh (gnn P.lw2 P.W2 P.mb2 P.hb2 x n (0 : Fin 1))
/-- The graph's four latent features. -/
def glat (y : Fin 4 → EReal) (q : Fin 4) : EReal := Ideal.tanh (dense P.few P.feb y q)
/-- The eight inputs of the shared layer: the latent features, then four columns of the observation. -/
def feat (gl : Fin 4 → EReal) (mid : Fin 4 → EReal) (k : Fin 8) : EReal :=
  if h : k.val < 4 then gl ⟨k.val, h⟩ else mid ⟨k.val - 4, by omega⟩
/-- The shared 64-wide layer. -/
def shared (f : Fin 8 → EReal) (j : Fin 64) : EReal := Ideal.tanh (dense P.cw P.cb f j)
/-- The actor's hidden layer … -/
def lpi (s : Fin 64 → EReal) (j : Fin 64) : EReal := Ideal.tanh (dense P.aw P.ab s j)
/-- … and its two means. -/
def act (l : Fin 64 → EReal) (a : Fin 2) : EReal := dense P.acw P.acb l a
/-- The critic's hidden layer … -/
def lvf (s : Fin 64 → EReal) (j : Fin 64) : EReal := Ideal.tanh (dense P.crw P.crb s j)
/-- … and its value. -/
def value (l : Fin 64 → EReal) : EReal := dense P.vw P.vb l (0 : Fin 1)

/-- The log-probability of the mean action: over the two actions, `-1/2 · (0 / exp s)² - s - c`. -/
def logp : EReal := logpOf P.ls

/-- The shared layer of a row, from its node features `nd` and its observation columns 2–5 `mid`. -/
def sharedRow (nd : Fin 4 → Fin 2 → EReal) (mid : Fin 4 → EReal) : Fin 64 → EReal :=
  shared P (feat (glat P (Y P (X P nd))) mid)
/-- The row's two action means. -/
def actRow (nd : Fin 4 → Fin 2 → EReal) (mid : Fin 4 → EReal) (a : Fin 2) : EReal := act P (lpi P (sharedRow P nd mid)) a
/-- The row's value. -/
def valRow (nd : Fin 4 → Fin 2 → EReal) (mid : Fin 4 → EReal) : EReal := value P (lvf P (sharedRow P nd mid))

/-- A row's four nodes: observation columns 6–7, the first target, the second target, observation columns 0–1. -/
def nodeRow (o : Fin 8 → EReal) (a b : Fin 2 → EReal) (n : Fin 4) (i : Fin 2) : EReal :=
  match n with
  | ⟨0, _⟩ => o ⟨6 + i.val, by omega⟩
  | ⟨1, _⟩ => a i
  | ⟨2, _⟩ => b i
  | ⟨3, _⟩ => o ⟨i.val, by omega⟩
/-- A row's observation columns 2–5. -/
def midRow (o : Fin 8 → EReal) (k : Fin 4) : EReal := o ⟨2 + k.val, by omega⟩

/-- Row `b` of a matrix. -/
def row2 {B C : ℕ} (A : Arr2 B C) (b : Fin B) (k : Fin C) : EReal := A (ix2 b k)

/-- The action means of every row of the batch. -/
def Gact {B : ℕ} (obs : Arr2 B 8) (t1 t2 : Arr2 B 2) : Arr2 B 2 := fun j =>
  actRow P (nodeRow (row2 obs (j 0)) (row2 t1 (j 0)) (row2 t2 (j 0))) (midRow (row2 obs (j 0))) (j 1)
/-- The value of every row. -/
def Gval {B : ℕ} (obs : Arr2 B 8) (t1 t2 : Arr2 B 2) : Arr2 B 1 := fun j =>
  valRow P (nodeRow (row2 obs (j 0)) (row2 t1 (j 0)) (row2 t2 (j 0))) (midRow (row2 obs (j 0)))
/-- The log-probability, the same in every row. -/
def Glogp {B : ℕ} : Arr1 B := fun _ => logp P

end Cert.Spec

end
-- ==== Proof.KTerms.lean ====
/-
  The kernel body's values, named.

  The body computes, from the blocks of its twenty-four windows, first the four nodes' first-round values (`xT0` … `xT3`:
  each the tanh of incoming messages plus the node's bias plus its loop term), from them the product of the graph's four
  second-round values with the 4×4 feature matrix (`graphT`), then the shared 64-wide layer (`sharedT`), and stores the
  action means, the value and the log-probability. Each window's staging buffer is loaded and stored whole, so what the
  body leaves in an output's buffer is its one stored payload.
-/
import proofs.«124978_j13331578487072_1_alg».proof.Proof.Gen.KernelIdeal.Frame
import proofs.«124978_j13331578487072_1_alg».proof.Proof.Spec
import Idealize.ShloMosaic.Lib.Pipeline.Value

noncomputable section

namespace Cert.KernelIdeal.Rows

open Cert.KernelIdeal Cert.KernelIdeal.Gen Idealize.ShloMosaic Idealize.ShloMosaic.ValueIdx

variable {F : FTy → Type} [FloatOps F]

/-- Node 0's first-round value: no incoming edge. -/
def xT0 (x0 : Vec F S8192x8 .f32) (x3 : Vec F S4x2x4 .f32) (x6 : Vec F S4x1x4 .f32) : FVec F S8192x4 .f32 :=
  k0_pay20 x6 (k0_pay4 x0 x3) (k0_pay16 (F := F))
/-- Node 1's: edge 0. -/
def xT1 (x0 : Vec F S8192x8 .f32) (x1 : Vec F S8192x2 .f32) (x3 : Vec F S4x2x4 .f32) (x4 : Vec F S6x2x4 .f32) (x5 : Vec F S6x1x4 .f32) (x6 : Vec F S4x1x4 .f32) : FVec F S8192x4 .f32 :=
  k0_pay21 x6 (k0_pay5 x1 x3) (k0_pay10 (k0_pay8 x0 x4) (k0_pay9 x5)) (k0_pay17 (F := F))
/-- Node 2's: edges 1 and 3. -/
def xT2 (x0 : Vec F S8192x8 .f32) (x1 : Vec F S8192x2 .f32) (x2 : Vec F S8192x2 .f32) (x3 : Vec F S4x2x4 .f32) (x4 : Vec F S6x2x4 .f32) (x5 : Vec F S6x1x4 .f32) (x6 : Vec F S4x1x4 .f32) : FVec F S8192x4 .f32 :=
  k0_pay22 x6 (k0_pay6 x2 x3) (k0_pay11 (k0_pay3 x0) x4 x5) (k0_pay13 x1 x4 x5) (k0_pay18 (F := F))
/-- Node 3's: edges 2, 4 and 5. -/
def xT3 (x0 : Vec F S8192x8 .f32) (x1 : Vec F S8192x2 .f32) (x2 : Vec F S8192x2 .f32) (x3 : Vec F S4x2x4 .f32) (x4 : Vec F S6x2x4 .f32) (x5 : Vec F S6x1x4 .f32) (x6 : Vec F S4x1x4 .f32) : FVec F S8192x4 .f32 :=
  k0_pay23 x6 (k0_pay7 x0 x3) (k0_pay12 (k0_pay3 x0) x4 x5) (k0_pay14 x1 x4 x5) (k0_pay15 x2 x4 x5) (k0_pay19 (F := F))

/-- The four second-round values, through tanh, times the 4×4 feature matrix. -/
def graphT (x0 : Vec F S8192x8 .f32) (x1 : Vec F S8192x2 .f32) (x2 : Vec F S8192x2 .f32) (x3 : Vec F S4x2x4 .f32) (x4 : Vec F S6x2x4 .f32) (x5 : Vec F S6x1x4 .f32) (x6 : Vec F S4x1x4 .f32) (x7 : Vec F S4x4x1 .f32) (x8 : Vec F S6x4x1 .f32) (x9 : Vec F S6x1x1 .f32) (x10 : Vec F S4x1x1 .f32) (x11 : Vec F S4x4 .f32) : FVec F S8192x4 .f32 :=
  k0_pay34 (xT2 x0 x1 x2 x3 x4 x5 x6) x8 x9 x10
    (k0_pay24 x6 (k0_pay4 x0 x3) (k0_pay16 (F := F)) x7)
    (k0_pay25 x6 (k0_pay5 x1 x3) (k0_pay10 (k0_pay8 x0 x4) (k0_pay9 x5)) (k0_pay17 (F := F)) x7)
    (k0_pay27 (xT2 x0 x1 x2 x3 x4 x5 x6) (k0_pay26 x7))
    (k0_pay28 (xT3 x0 x1 x2 x3 x4 x5 x6) x7)
    (k0_pay29 (xT0 x0 x3 x6) x8 x9) (k0_pay30 (xT0 x0 x3 x6) x8 x9) (k0_pay31 (xT0 x0 x3 x6) x8 x9)
    (k0_pay32 (xT1 x0 x1 x3 x4 x5 x6) x8 x9) (k0_pay33 (xT1 x0 x1 x3 x4 x5 x6) x8 x9) x11

/-- The shared 64-wide layer. -/
def sharedT (x0 : Vec F S8192x8 .f32) (x1 : Vec F S8192x2 .f32) (x2 : Vec F S8192x2 .f32) (x3 : Vec F S4x2x4 .f32) (x4 : Vec F S6x2x4 .f32) (x5 : Vec F S6x1x4 .f32) (x6 : Vec F S4x1x4 .f32) (x7 : Vec F S4x4x1 .f32) (x8 : Vec F S6x4x1 .f32) (x9 : Vec F S6x1x1 .f32) (x10 : Vec F S4x1x1 .f32) (x11 : Vec F S4x4 .f32) (x12 : Vec F S4 .f32) (x13 : Vec F S8x64 .f32) (x14 : Vec F S64 .f32) : FVec F S8192x64 .f32 :=
  k0_pay36 x0 (graphT x0 x1 x2 x3 x4 x5 x6 x7 x8 x9 x10 x11) (k0_pay35 x12) x13 x14

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (x0 : Vec F S8192x8 .f32) (x1 : Vec F S8192x2 .f32) (x2 : Vec F S8192x2 .f32) (x3 : Vec F S4x2x4 .f32) (x4 : Vec F S6x2x4 .f32) (x5 : Vec F S6x1x4 .f32) (x6 : Vec F S4x1x4 .f32) (x7 : Vec F S4x4x1 .f32) (x8 : Vec F S6x4x1 .f32) (x9 : Vec F S6x1x1 .f32) (x10 : Vec F S4x1x1 .f32) (x11 : Vec F S4x4 .f32) (x12 : Vec F S4 .f32) (x13 : Vec F S8x64 .f32) (x14 : Vec F S64 .f32) (x15 : Vec F S64x64 .f32) (x16 : Vec F S64 .f32) (x17 : Vec F S64x2 .f32) (x18 : Vec F S2 .f32) (x19 : Vec F S2 .f32) (x20 : Vec F S64x64 .f32) (x21 : Vec F S64 .f32) (x22 : Vec F S64x1 .f32) (x23 : Vec F S1 .f32)

/-- What the body leaves in the action means' buffer is its one stored payload. -/
theorem out0_24_eq : out0_24 x0 x1 x2 x3 x4 x5 x6 x7 x8 x9 x10 x11 x12 x13 x14 x15 x16 x17 x18 x19 x20 x21 x22 x23
    = k0_pay37 x0 (graphT x0 x1 x2 x3 x4 x5 x6 x7 x8 x9 x10 x11) (k0_pay35 x12) x13 x14 x15 x16 x17 x18 := by
  unfold out0_24
  rw [View.canon_unit_zero hz2]
  simp only [View.ld_unit_zero (S := S8192x8) hz2, View.ld_unit_zero (S := S8192x2) hz2, View.ld_unit_zero (S := S4x2x4) hz3,
    View.ld_unit_zero (S := S6x2x4) hz3, View.ld_unit_zero (S := S6x1x4) hz3, View.ld_unit_zero (S := S4x1x4) hz3,
    View.ld_unit_zero (S := S4x4x1) hz3, View.ld_unit_zero (S := S6x4x1) hz3, View.ld_unit_zero (S := S6x1x1) hz3,
    View.ld_unit_zero (S := S4x1x1) hz3, View.ld_unit_zero (S := S4x4) hz2, View.ld_unit_zero (S := S4) hz1,
    View.ld_unit_zero (S := S8x64) hz2, View.ld_unit_zero (S := S64) hz1, View.ld_unit_zero (S := S64x64) hz2,
    View.ld_unit_zero (S := S64x2) hz2, View.ld_unit_zero (S := S2) hz1]
  rfl

/-- The same for the value's buffer. -/
theorem out0_25_eq : out0_25 x0 x1 x2 x3 x4 x5 x6 x7 x8 x9 x10 x11 x12 x13 x14 x15 x16 x17 x18 x19 x20 x21 x22 x23
    = k0_pay2 (sharedT x0 x1 x2 x3 x4 x5 x6 x7 x8 x9 x10 x11 x12 x13 x14) x20 x21 x22 x23 := by
  unfold out0_25
  rw [View.canon_unit_zero hz2]
  simp only [View.ld_unit_zero (S := S8192x8) hz2, View.ld_unit_zero (S := S8192x2) hz2, View.ld_unit_zero (S := S4x2x4) hz3,
    View.ld_unit_zero (S := S6x2x4) hz3, View.ld_unit_zero (S := S6x1x4) hz3, View.ld_unit_zero (S := S4x1x4) hz3,
    View.ld_unit_zero (S := S4x4x1) hz3, View.ld_unit_zero (S := S6x4x1) hz3, View.ld_unit_zero (S := S6x1x1) hz3,
    View.ld_unit_zero (S := S4x1x1) hz3, View.ld_unit_zero (S := S4x4) hz2, View.ld_unit_zero (S := S4) hz1,
    View.ld_unit_zero (S := S8x64) hz2, View.ld_unit_zero (S := S64) hz1, View.ld_unit_zero (S := S64x64) hz2,
    View.ld_unit_zero (S := S64x1) hz2, View.ld_unit_zero (S := S1) hz1]
  rfl

/-- The same for the log-probability's buffer. -/
theorem out0_26_eq : out0_26 x0 x1 x2 x3 x4 x5 x6 x7 x8 x9 x10 x11 x12 x13 x14 x15 x16 x17 x18 x19 x20 x21 x22 x23 = k0_pay1 (k0_pay38 x19) (k0_pay39 x19) := by
  unfold out0_26
  rw [View.canon_unit_zero hz1]
  simp only [View.ld_unit_zero (S := S2) hz1]

end Cert.KernelIdeal.Rows

end
-- ==== Proof.LibDotAt.lean ====
/-
  Matrix products read at an entry, at the ideal values.

  A product `[M, K] · [K, N] → [M, N]` — the left operand contracted on its second axis, the right on its first, no
  batch axis — has at row `o`, column `t` the entry `∑ c, A[o, c] · B[c, t]`: as a kernel's matrix unit accumulates it
  into a zero accumulator, and as the host computes it. With a leading batch axis on both operands and the result,
  `[G, M, K] · [G, K, N] → [G, M, N]`, the entry at `(g, o, t)` is `∑ c, A[g, o, c] · B[g, c, t]`.
  The contraction's index set has one axis; the sum over it is re-indexed by that axis's coordinate.
-/
import Idealize.ShloMosaic.PureOps.Ideal.Laws
import Idealize.ShloMosaic.Lib.ValueIdx

noncomputable section

open scoped BigOperators

namespace Cert.LibDotAt

open Idealize.ShloMosaic Idealize.ShloMosaic.ValueIdx

/-- An index read at two spellings of one axis number gives one coordinate. -/
theorem coord_of_eq {s : Shape} (i : s.Idx) (p q : ℕ) (hp : p < s.rank) (hq : q < s.rank) (h : p = q) :
    (i ⟨p, hp⟩).val = (i ⟨q, hq⟩).val := by subst h; rfl

section Plain

variable {M K N : ℕ} (D : DotDims ⟨2, ![M, K]⟩ ⟨2, ![K, N]⟩ ⟨2, ![M, N]⟩)

/-- The left operand's kept axis is the result's first axis. -/
theorem lhs_kept (hb : D.lhsBatch = []) (hn : D.lhsNonContracting = [0]) (i : (⟨2, ![M, N]⟩ : Shape).Idx) (q : D.contr.Idx) :
    (D.lhsIdx i q 0).val = (i 0).val := by
  unfold DotDims.lhsIdx
  rw [dif_neg (by rw [hb]; exact List.not_mem_nil), dif_pos (by rw [hn]; exact List.mem_singleton.mpr rfl)]
  simp only [Fin.val_cast]
  exact coord_of_eq i _ _ _ _ (by simp [hb, hn])

/-- The right operand's kept axis — its second — is the result's second axis. -/
theorem rhs_kept (hb : D.rhsBatch = []) (hlb : D.lhsBatch = []) (hln : D.lhsNonContracting = [0]) (hn : D.rhsNonContracting = [1])
    (i : (⟨2, ![M, N]⟩ : Shape).Idx) (q : D.contr.Idx) :
    (D.rhsIdx i q 1).val = (i 1).val := by
  unfold DotDims.rhsIdx
  rw [dif_neg (by rw [hb]; exact List.not_mem_nil), dif_pos (by rw [hn]; exact List.mem_singleton.mpr rfl)]
  simp only [Fin.val_cast]
  exact coord_of_eq i _ _ _ _ (by simp [hn, hlb, hln])

/-- One axis is contracted, -/
theorem contr_rank (hc : D.lhsContracting = [1]) : D.contr.rank = 1 := by rw [D.rank_contr, hc]; rfl

/-- of extent `K`. -/
theorem contr_size (hc : D.lhsContracting = [1]) : D.contr.size ⟨0, by rw [contr_rank D hc]; exact Nat.one_pos⟩ = K := by
  rw [D.size_contr 0 (by rw [hc]; exact Nat.one_pos)]
  simp [hc]

/-- The sum over the contraction index, by its one coordinate. -/
theorem sum_contr_at (hlc : D.lhsContracting = [1]) (hrc : D.rhsContracting = [0]) (hlb : D.lhsBatch = [])
    (hrb : D.rhsBatch = []) (hln : D.lhsNonContracting = [0]) (hrn : D.rhsNonContracting = [1])
    (A : (⟨2, ![M, K]⟩ : Shape).Idx → EReal) (B : (⟨2, ![K, N]⟩ : Shape).Idx → EReal) (o : Fin M) (t : Fin N) :
    ∑ k : D.contr.Idx, A (D.lhsIdx (ix2 o t) k) * B (D.rhsIdx (ix2 o t) k) = ∑ c : Fin K, A (ix2 o c) * B (ix2 c t) := by
  rw [← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 o t) ((contrEquiv1 D K (contr_rank D hlc) (contr_size D hlc)).symm k) = ix2 o k :=
    funext fun a => Fin.ext (by
      match a with
      | ⟨0, _⟩ => exact lhs_kept D hlb hln _ _
      | ⟨1, _⟩ => exact (D.lhsIdx_val_of_single hlc _ _).trans hk)
  have er : D.rhsIdx (ix2 o t) ((contrEquiv1 D K (contr_rank D hlc) (contr_size D hlc)).symm k) = ix2 k t :=
    funext fun a => Fin.ext (by
      match a with
      | ⟨0, _⟩ => exact (D.rhsIdx_val_of_single hrc _ _).trans hk
      | ⟨1, _⟩ => exact rhs_kept D hrb hlb hln hrn _ _)
  rw [el, er]

/-- THE KERNEL'S PRODUCT AT AN ENTRY, into the zero accumulator: row `o` of the left operand against column `t` of the right. -/
theorem matmul_zero_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    matmul D prec A B (constant ⟨2, ![M, N]⟩ .f32 0x00000000#32) (ix2 o t) = ∑ c : Fin K, A (ix2 o c) * B (ix2 c t) := by
  show FloatOps.matmul D prec A B (constant ⟨2, ![M, N]⟩ .f32 0x00000000#32) (ix2 o t) = _
  rw [Ideal.matmul_constant_zero_apply]
  exact sum_contr_at D hlc hrc hlb hrb hln hrn A B o t

/-- THE HOST'S PRODUCT AT AN ENTRY: the same sum. -/
theorem dotGeneral_at {φ₁ φ₂ : FTy} (hlc : D.lhsContracting = [1]) (hrc : D.rhsContracting = [0]) (hlb : D.lhsBatch = [])
    (hrb : D.rhsBatch = []) (hln : D.lhsNonContracting = [0]) (hrn : D.rhsNonContracting = [1])
    (prec : Option ContractPrecision) (A : FVec Ideal ⟨2, ![M, K]⟩ φ₁) (B : FVec Ideal ⟨2, ![K, N]⟩ φ₂) (o : Fin M) (t : Fin N) :
    Host.dotGeneral D prec A B (ix2 o t) = ∑ c : Fin K, A (ix2 o c) * B (ix2 c t) := by
  show FloatOps.dotGeneral D prec .single A B (ix2 o t) = _
  rw [Ideal.dotGeneral_apply]
  exact sum_contr_at D hlc hrc hlb hrb hln hrn A B o t

end Plain

section Batched

variable {G M K N : ℕ} (D : DotDims ⟨3, ![G, M, K]⟩ ⟨3, ![G, K, N]⟩ ⟨3, ![G, M, N]⟩)

/-- The left operand's batch axis is the result's first axis, -/
theorem lhs_batch (hb : D.lhsBatch = [0]) (i : (⟨3, ![G, M, N]⟩ : Shape).Idx) (q : D.contr.Idx) :
    (D.lhsIdx i q 0).val = (i 0).val := by
  unfold DotDims.lhsIdx
  rw [dif_pos (by rw [hb]; exact List.mem_singleton.mpr rfl)]
  simp only [Fin.val_cast]
  exact coord_of_eq i _ _ _ _ (by simp [hb])

/-- its kept axis the result's second. -/
theorem lhs_kept3 (hb : D.lhsBatch = [0]) (hn : D.lhsNonContracting = [1]) (i : (⟨3, ![G, M, N]⟩ : Shape).Idx) (q : D.contr.Idx) :
    (D.lhsIdx i q 1).val = (i 1).val := by
  unfold DotDims.lhsIdx
  rw [dif_neg (by rw [hb]; simp), dif_pos (by rw [hn]; exact List.mem_singleton.mpr rfl)]
  simp only [Fin.val_cast]
  exact coord_of_eq i _ _ _ _ (by simp [hb, hn])

/-- The right operand's batch axis is the result's first axis, -/
theorem rhs_batch (hb : D.rhsBatch = [0]) (i : (⟨3, ![G, M, N]⟩ : Shape).Idx) (q : D.contr.Idx) :
    (D.rhsIdx i q 0).val = (i 0).val := by
  unfold DotDims.rhsIdx
  rw [dif_pos (by rw [hb]; exact List.mem_singleton.mpr rfl)]
  simp only [Fin.val_cast]
  exact coord_of_eq i _ _ _ _ (by simp [hb])

/-- its kept axis — its third — the result's third. -/
theorem rhs_kept3 (hb : D.rhsBatch = [0]) (hlb : D.lhsBatch = [0]) (hln : D.lhsNonContracting = [1]) (hn : D.rhsNonContracting = [2])
    (i : (⟨3, ![G, M, N]⟩ : Shape).Idx) (q : D.contr.Idx) :
    (D.rhsIdx i q 2).val = (i 2).val := by
  unfold DotDims.rhsIdx
  rw [dif_neg (by rw [hb]; simp), dif_pos (by rw [hn]; exact List.mem_singleton.mpr rfl)]
  simp only [Fin.val_cast]
  exact coord_of_eq i _ _ _ _ (by simp [hn, hlb, hln])

theorem contr_rank3 (hc : D.lhsContracting = [2]) : D.contr.rank = 1 := by rw [D.rank_contr, hc]; rfl

theorem contr_size3 (hc : D.lhsContracting = [2]) : D.contr.size ⟨0, by rw [contr_rank3 D hc]; exact Nat.one_pos⟩ = K := by
  rw [D.size_contr 0 (by rw [hc]; exact Nat.one_pos)]
  simp [hc]

/-- THE HOST'S BATCHED PRODUCT AT AN ENTRY: in batch `g`, row `o` of the left operand against column `t` of the right. -/
theorem dotGeneral_batched_at {φ₁ φ₂ : FTy} (hlc : D.lhsContracting = [2]) (hrc : D.rhsContracting = [1]) (hlb : D.lhsBatch = [0])
    (hrb : D.rhsBatch = [0]) (hln : D.lhsNonContracting = [1]) (hrn : D.rhsNonContracting = [2])
    (prec : Option ContractPrecision) (A : FVec Ideal ⟨3, ![G, M, K]⟩ φ₁) (B : FVec Ideal ⟨3, ![G, K, N]⟩ φ₂)
    (g : Fin G) (o : Fin M) (t : Fin N) :
    Host.dotGeneral D prec A B (ix3 g o t) = ∑ c : Fin K, A (ix3 g o c) * B (ix3 g c t) := by
  show FloatOps.dotGeneral D prec .single A B (ix3 g o t) = _
  rw [Ideal.dotGeneral_apply, ← Equiv.sum_comp (contrEquiv1 D K (contr_rank3 D hlc) (contr_size3 D hlc)).symm]
  refine Finset.sum_congr rfl fun k _ => ?_
  have hk := contrEquiv1_symm_val D K (contr_rank3 D hlc) (contr_size3 D hlc) k
  have el : D.lhsIdx (ix3 g o t) ((contrEquiv1 D K (contr_rank3 D hlc) (contr_size3 D hlc)).symm k) = ix3 g o k :=
    funext fun a => Fin.ext (by
      match a with
      | ⟨0, _⟩ => exact lhs_batch D hlb _ _
      | ⟨1, _⟩ => exact lhs_kept3 D hlb hln _ _
      | ⟨2, _⟩ => exact (D.lhsIdx_val_of_single hlc _ _).trans hk)
  have er : D.rhsIdx (ix3 g o t) ((contrEquiv1 D K (contr_rank3 D hlc) (contr_size3 D hlc)).symm k) = ix3 g k t :=
    funext fun a => Fin.ext (by
      match a with
      | ⟨0, _⟩ => exact rhs_batch D hrb _ _
      | ⟨1, _⟩ => exact (D.rhsIdx_val_of_single hrc _ _).trans hk
      | ⟨2, _⟩ => exact rhs_kept3 D hrb hlb hln hrn _ _)
  rw [el, er]

end Batched

end Cert.LibDotAt

end
-- ==== Proof.KGraph1.lean ====
/-
  The four nodes' first-round values in the kernel's block, read at a row.

  At row `p` of the block and output feature `q`, node `n`'s value is the tanh of: the messages of the edges entering `n`
  (the source node's two features at row `p` times the edge's 2×4 matrix, plus the edge's bias), added in edge order from
  zero, plus the node's bias, plus the node's own two features times its loop matrix. The block's matrix products
  contract the feature axis; changes of float format are the identity on extended reals.
-/
import proofs.«124978_j13331578487072_1_alg».proof.Proof.KTerms
import proofs.«124978_j13331578487072_1_alg».proof.Proof.LibDotAt
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert

/-! ## Slabs of the parameter stacks -/

/-- Slab `n` of a stack of matrices, read as a matrix: entry `(i, j)` is the stack's entry `(n, i, j)`. -/
private theorem slab3 {α : Type} {G a b : ℕ} (W : (⟨3, ![G, a, b]⟩ : Shape).Idx → α) (n : ℕ) (hn : n < G)
    (h : (⟨3, ![G, a, b]⟩ : Shape).Slices ![n, 0, 0] ⟨3, ![1, a, b]⟩)
    (h' : (⟨3, ![1, a, b]⟩ : Shape).ShapeCasts ⟨2, ![a, b]⟩) (i : Fin a) (j : Fin b) :
    shapeCast ⟨2, ![a, b]⟩ (extractStridedSlice ⟨3, ![1, a, b]⟩ ![n, 0, 0] W h) h' (ix2 i j) = W (ix3 ⟨n, hn⟩ i j) := by
  refine (shapeCast_1ab_ab_apply _ h' i j).trans ?_
  refine extractStridedSlice_apply _ _ _ _ _ fun ax => ?_
  match ax with
  | ⟨0, _⟩ => rfl
  | ⟨1, _⟩ => exact (Nat.zero_add _).symm
  | ⟨2, _⟩ => exact (Nat.zero_add _).symm

/-- A block of rows times slab `n` of a stack of 2×4 matrices, at row `p`, column `q`: the row's two features against the
    slab's column. -/
private theorem prodSlab {G : ℕ} (A : FVec Ideal S8192x2 .f32) (W : (⟨3, ![G, 2, 4]⟩ : Shape).Idx → EReal) (n : ℕ) (hn : n < G)
    (h : (⟨3, ![G, 2, 4]⟩ : Shape).Slices ![n, 0, 0] S1x2x4) (h' : S1x2x4.ShapeCasts S2x4)
    (hb : FTy.bits .bf16 < FTy.bits .f32) (p : Fin 8192) (q : Fin 4) :
    matmul dot_S8192x2_S2x4_S8192x4_1_0_0_1_n_n none (truncf .bf16 A hb)
        (truncf .bf16 (shapeCast S2x4 (extractStridedSlice (α := Ideal .f32) S1x2x4 ![n, 0, 0] W h) h') hb)
        (constant S8192x4 .f32 0x00000000#32) (ix2 p q)
      = ∑ i : Fin 2, A (ix2 p i) * W (ix3 ⟨n, hn⟩ i q) := by
  refine (Cert.LibDotAt.matmul_zero_at dot_S8192x2_S2x4_S8192x4_1_0_0_1_n_n rfl rfl rfl rfl rfl rfl none _ _ p q).trans ?_
  refine Finset.sum_congr rfl fun i _ => ?_
  exact congrArg (fun w => A (ix2 p i) * w) (slab3 W n hn h h' i q)

/-- Slab `n` of a stack of one-row matrices, its row laid over every row of the block: at `(p, q)` the stack's entry
    `(n, 0, q)`. -/
private theorem biasSlab {G : ℕ} (B : (⟨3, ![G, 1, 4]⟩ : Shape).Idx → EReal) (n : ℕ) (hn : n < G)
    (h : (⟨3, ![G, 1, 4]⟩ : Shape).Slices ![n, 0, 0] S1x1x4) (h' : S1x1x4.ShapeCasts S1x4)
    (hbr : S1x4.Broadcasts S8192x4) (p : Fin 8192) (q : Fin 4) :
    broadcastTo S8192x4 (shapeCast S1x4 (extractStridedSlice (α := Ideal .f32) S1x1x4 ![n, 0, 0] B h) h') hbr (ix2 p q)
      = B (ix3 ⟨n, hn⟩ (0 : Fin 1) q) :=
  (broadcastTo_1b_ab_apply _ hbr p q).trans (slab3 B n hn h h' (0 : Fin 1) q)

/-- An edge's message over the block: the product with the edge's matrix plus the edge's bias. -/
private theorem msgSlab (W : Vec Ideal S6x2x4 .f32) (B : Vec Ideal S6x1x4 .f32) (A : FVec Ideal S8192x2 .f32)
    (n : ℕ) (hn : n < 6) (h1 : S6x2x4.Slices ![n, 0, 0] S1x2x4) (h2 : S1x2x4.ShapeCasts S2x4)
    (hb : FTy.bits .bf16 < FTy.bits .f32) (h3 : S6x1x4.Slices ![n, 0, 0] S1x1x4) (h4 : S1x1x4.ShapeCasts S1x4)
    (h5 : S1x4.Broadcasts S8192x4) (p : Fin 8192) (q : Fin 4) :
    addf (matmul dot_S8192x2_S2x4_S8192x4_1_0_0_1_n_n none (truncf .bf16 A hb)
          (truncf .bf16 (shapeCast S2x4 (extractStridedSlice (α := Ideal .f32) S1x2x4 ![n, 0, 0] W h1) h2) hb)
          (constant S8192x4 .f32 0x00000000#32))
        (broadcastTo S8192x4 (shapeCast S1x4 (extractStridedSlice (α := Ideal .f32) S1x1x4 ![n, 0, 0] B h3) h4) h5) (ix2 p q)
      = (∑ i : Fin 2, A (ix2 p i) * W (ix3 ⟨n, hn⟩ i q)) + B (ix3 ⟨n, hn⟩ (0 : Fin 1) q) :=
  congrArg₂ (· + ·) (prodSlab A W n hn h1 h2 hb p q) (biasSlab B n hn h3 h4 h5 p q)

variable (x0 : Vec Ideal S8192x8 .f32) (x1 : Vec Ideal S8192x2 .f32) (x2 : Vec Ideal S8192x2 .f32) (x3 : Vec Ideal S4x2x4 .f32) (x4 : Vec Ideal S6x2x4 .f32) (x5 : Vec Ideal S6x1x4 .f32) (x6 : Vec Ideal S4x1x4 .f32) (p : Fin 8192)

/-- Row `p`'s four nodes, read off the three batch blocks. -/
abbrev ndRow (x0 : Vec Ideal S8192x8 .f32) (x1 x2 : Vec Ideal S8192x2 .f32) (p : Fin 8192) : Fin 4 → Fin 2 → EReal :=
  Spec.nodeRow (Spec.row2 x0 p) (Spec.row2 x1 p) (Spec.row2 x2 p)

/-! ## The four nodes' features in the block -/

/-- Node 0: the observation's columns 6 and 7. -/
private theorem nd0 (i : Fin 2) : k0_pay3 (F := Ideal) x0 (ix2 p i) = ndRow x0 x1 x2 p 0 i :=
  slice2_axis1_eq 6 x0 Facts₀.slices_S8192x8_o0_6_S8192x2 p i

/-- Node 3: the observation's columns 0 and 1. -/
private theorem nd3 (h : S8192x8.Slices ![0, 0] S8192x2) (i : Fin 2) :
    extractStridedSlice (α := Ideal .f32) S8192x2 ![0, 0] x0 h (ix2 p i) = ndRow x0 x1 x2 p 3 i :=
  slice2_axis1_apply 0 x0 h p i ⟨i.val, by omega⟩ (Nat.zero_add _).symm

/-! ## Loop terms and messages against the specification -/

/-- A node's features against its loop matrix is the specification's loop term. -/
private theorem loop_of (A : FVec Ideal S8192x2 .f32) (n : Fin 4) (hA : ∀ i, A (ix2 p i) = ndRow x0 x1 x2 p n i) (q : Fin 4) :
    ∑ i : Fin 2, A (ix2 p i) * x3 (ix3 n i q) = Spec.loop x3 (ndRow x0 x1 x2 p) n q := by
  unfold Spec.loop
  exact Finset.sum_congr rfl fun i _ => congrArg (· * x3 (ix3 n i q)) (hA i)

/-- An edge's source features against the edge's matrix, plus the edge's bias, is the specification's message. -/
private theorem msg_of (A : FVec Ideal S8192x2 .f32) (e : Fin 6) (hA : ∀ i, A (ix2 p i) = ndRow x0 x1 x2 p (Spec.src e) i)
    (q : Fin 4) :
    (∑ i : Fin 2, A (ix2 p i) * x4 (ix3 e i q)) + x5 (ix3 e (0 : Fin 1) q) = Spec.msg x4 x5 (ndRow x0 x1 x2 p) e q := by
  unfold Spec.msg
  exact congrArg (· + x5 (ix3 e (0 : Fin 1) q))
    (Finset.sum_congr rfl fun i _ => congrArg (· * x4 (ix3 e i q)) (hA i))

private theorem loop0_at (q : Fin 4) : k0_pay4 (F := Ideal) x0 x3 (ix2 p q) = Spec.loop x3 (ndRow x0 x1 x2 p) 0 q :=
  (prodSlab (k0_pay3 x0) x3 0 (by decide) _ _ _ p q).trans (loop_of x0 x1 x2 x3 p _ 0 (nd0 x0 x1 x2 p) q)

private theorem loop1_at (q : Fin 4) : k0_pay5 (F := Ideal) x1 x3 (ix2 p q) = Spec.loop x3 (ndRow x0 x1 x2 p) 1 q :=
  (prodSlab x1 x3 1 (by decide) _ _ _ p q).trans (loop_of x0 x1 x2 x3 p _ 1 (fun _ => rfl) q)

private theorem loop2_at (q : Fin 4) : k0_pay6 (F := Ideal) x2 x3 (ix2 p q) = Spec.loop x3 (ndRow x0 x1 x2 p) 2 q :=
  (prodSlab x2 x3 2 (by decide) _ _ _ p q).trans (loop_of x0 x1 x2 x3 p _ 2 (fun _ => rfl) q)

private theorem loop3_at (q : Fin 4) : k0_pay7 (F := Ideal) x0 x3 (ix2 p q) = Spec.loop x3 (ndRow x0 x1 x2 p) 3 q :=
  (prodSlab _ x3 3 (by decide) _ _ _ p q).trans (loop_of x0 x1 x2 x3 p _ 3 (nd3 x0 x1 x2 p _) q)

private theorem msg0_at (q : Fin 4) :
    k0_pay10 (F := Ideal) (k0_pay8 x0 x4) (k0_pay9 x5) (ix2 p q) = Spec.msg x4 x5 (ndRow x0 x1 x2 p) 0 q :=
  (msgSlab x4 x5 (k0_pay3 x0) 0 (by decide) _ _ _ _ _ _ p q).trans (msg_of x0 x1 x2 x4 x5 p _ 0 (nd0 x0 x1 x2 p) q)

private theorem msg1_at (q : Fin 4) :
    k0_pay11 (F := Ideal) (k0_pay3 x0) x4 x5 (ix2 p q) = Spec.msg x4 x5 (ndRow x0 x1 x2 p) 1 q :=
  (msgSlab x4 x5 (k0_pay3 x0) 1 (by decide) _ _ _ _ _ _ p q).trans (msg_of x0 x1 x2 x4 x5 p _ 1 (nd0 x0 x1 x2 p) q)

private theorem msg2_at (q : Fin 4) :
    k0_pay12 (F := Ideal) (k0_pay3 x0) x4 x5 (ix2 p q) = Spec.msg x4 x5 (ndRow x0 x1 x2 p) 2 q :=
  (msgSlab x4 x5 (k0_pay3 x0) 2 (by decide) _ _ _ _ _ _ p q).trans (msg_of x0 x1 x2 x4 x5 p _ 2 (nd0 x0 x1 x2 p) q)

private theorem msg3_at (q : Fin 4) :
    k0_pay13 (F := Ideal) x1 x4 x5 (ix2 p q) = Spec.msg x4 x5 (ndRow x0 x1 x2 p) 3 q :=
  (msgSlab x4 x5 x1 3 (by decide) _ _ _ _ _ _ p q).trans (msg_of x0 x1 x2 x4 x5 p _ 3 (fun _ => rfl) q)

private theorem msg4_at (q : Fin 4) :
    k0_pay14 (F := Ideal) x1 x4 x5 (ix2 p q) = Spec.msg x4 x5 (ndRow x0 x1 x2 p) 4 q :=
  (msgSlab x4 x5 x1 4 (by decide) _ _ _ _ _ _ p q).trans (msg_of x0 x1 x2 x4 x5 p _ 4 (fun _ => rfl) q)

private theorem msg5_at (q : Fin 4) :
    k0_pay15 (F := Ideal) x2 x4 x5 (ix2 p q) = Spec.msg x4 x5 (ndRow x0 x1 x2 p) 5 q :=
  (msgSlab x4 x5 x2 5 (by decide) _ _ _ _ _ _ p q).trans (msg_of x0 x1 x2 x4 x5 p _ 5 (fun _ => rfl) q)

/-! ## The sums, the biases and the tanh -/

/-- Node 0's sum: zero, its bias, its loop term. -/
private theorem pay20_at (L Z : FVec Ideal S8192x4 .f32) (q : Fin 4) :
    k0_pay20 (F := Ideal) x6 L Z (ix2 p q)
      = Ideal.tanh ((Z (ix2 p q) + x6 (ix3 (0 : Fin 4) (0 : Fin 1) q)) + L (ix2 p q)) :=
  congrArg (fun b => Ideal.tanh ((Z (ix2 p q) + b) + L (ix2 p q))) (biasSlab x6 0 (by decide) _ _ _ p q)

/-- Node 1's sum: zero, one message, its bias, its loop term. -/
private theorem pay21_at (L M Z : FVec Ideal S8192x4 .f32) (q : Fin 4) :
    k0_pay21 (F := Ideal) x6 L M Z (ix2 p q)
      = Ideal.tanh (((Z (ix2 p q) + M (ix2 p q)) + x6 (ix3 (1 : Fin 4) (0 : Fin 1) q)) + L (ix2 p q)) :=
  congrArg (fun b => Ideal.tanh (((Z (ix2 p q) + M (ix2 p q)) + b) + L (ix2 p q))) (biasSlab x6 1 (by decide) _ _ _ p q)

/-- Node 2's sum: zero, two messages, its bias, its loop term. -/
private theorem pay22_at (L M1 M2 Z : FVec Ideal S8192x4 .f32) (q : Fin 4) :
    k0_pay22 (F := Ideal) x6 L M1 M2 Z (ix2 p q)
      = Ideal.tanh ((((Z (ix2 p q) + M1 (ix2 p q)) + M2 (ix2 p q)) + x6 (ix3 (2 : Fin 4) (0 : Fin 1) q)) + L (ix2 p q)) :=
  congrArg (fun b => Ideal.tanh ((((Z (ix2 p q) + M1 (ix2 p q)) + M2 (ix2 p q)) + b) + L (ix2 p q)))
    (biasSlab x6 2 (by decide) _ _ _ p q)

/-- Node 3's sum: zero, three messages, its bias, its loop term. -/
private theorem pay23_at (L M1 M2 M3 Z : FVec Ideal S8192x4 .f32) (q : Fin 4) :
    k0_pay23 (F := Ideal) x6 L M1 M2 M3 Z (ix2 p q)
      = Ideal.tanh (((((Z (ix2 p q) + M1 (ix2 p q)) + M2 (ix2 p q)) + M3 (ix2 p q)) + x6 (ix3 (3 : Fin 4) (0 : Fin 1) q))
          + L (ix2 p q)) :=
  congrArg (fun b => Ideal.tanh (((((Z (ix2 p q) + M1 (ix2 p q)) + M2 (ix2 p q)) + M3 (ix2 p q)) + b) + L (ix2 p q)))
    (biasSlab x6 3 (by decide) _ _ _ p q)

/-- The accumulators start from zero. -/
private theorem pay16_at (q : Fin 4) : k0_pay16 (F := Ideal) (ix2 p q) = 0 := Ideal.ofBits_zero_f32
private theorem pay17_at (q : Fin 4) : k0_pay17 (F := Ideal) (ix2 p q) = 0 := Ideal.ofBits_zero_f32
private theorem pay18_at (q : Fin 4) : k0_pay18 (F := Ideal) (ix2 p q) = 0 := Ideal.ofBits_zero_f32
private theorem pay19_at (q : Fin 4) : k0_pay19 (F := Ideal) (ix2 p q) = 0 := Ideal.ofBits_zero_f32

/-! ## The edges entering each node -/

/-- No edge enters node 0. -/
private theorem sum_dst0 (f : Fin 6 → EReal) : ∑ e ∈ Finset.univ.filter (fun e : Fin 6 => Spec.dst e = 0), f e = 0 := by
  rw [Finset.sum_filter, Fin.sum_univ_six,
    if_neg (by decide : ¬ Spec.dst 0 = 0), if_neg (by decide : ¬ Spec.dst 1 = 0), if_neg (by decide : ¬ Spec.dst 2 = 0),
    if_neg (by decide : ¬ Spec.dst 3 = 0), if_neg (by decide : ¬ Spec.dst 4 = 0), if_neg (by decide : ¬ Spec.dst 5 = 0)]
  simp only [add_zero]

/-- Edge 0 enters node 1. -/
private theorem sum_dst1 (f : Fin 6 → EReal) : ∑ e ∈ Finset.univ.filter (fun e : Fin 6 => Spec.dst e = 1), f e = f 0 := by
  rw [Finset.sum_filter, Fin.sum_univ_six,
    if_pos (by decide : Spec.dst 0 = 1), if_neg (by decide : ¬ Spec.dst 1 = 1), if_neg (by decide : ¬ Spec.dst 2 = 1),
    if_neg (by decide : ¬ Spec.dst 3 = 1), if_neg (by decide : ¬ Spec.dst 4 = 1), if_neg (by decide : ¬ Spec.dst 5 = 1)]
  simp only [add_zero]

/-- Edges 1 and 3 enter node 2. -/
private theorem sum_dst2 (f : Fin 6 → EReal) :
    ∑ e ∈ Finset.univ.filter (fun e : Fin 6 => Spec.dst e = 2), f e = f 1 + f 3 := by
  rw [Finset.sum_filter, Fin.sum_univ_six,
    if_neg (by decide : ¬ Spec.dst 0 = 2), if_pos (by decide : Spec.dst 1 = 2), if_neg (by decide : ¬ Spec.dst 2 = 2),
    if_pos (by decide : Spec.dst 3 = 2), if_neg (by decide : ¬ Spec.dst 4 = 2), if_neg (by decide : ¬ Spec.dst 5 = 2)]
  simp only [add_zero, zero_add]

/-- Edges 2, 4 and 5 enter node 3. -/
private theorem sum_dst3 (f : Fin 6 → EReal) :
    ∑ e ∈ Finset.univ.filter (fun e : Fin 6 => Spec.dst e = 3), f e = (f 2 + f 4) + f 5 := by
  rw [Finset.sum_filter, Fin.sum_univ_six,
    if_neg (by decide : ¬ Spec.dst 0 = 3), if_neg (by decide : ¬ Spec.dst 1 = 3), if_pos (by decide : Spec.dst 2 = 3),
    if_neg (by decide : ¬ Spec.dst 3 = 3), if_pos (by decide : Spec.dst 4 = 3), if_pos (by decide : Spec.dst 5 = 3)]
  simp only [add_zero, zero_add]

/-! ## The four nodes -/

theorem xT0_at (q : Fin 4) :
    xT0 (F := Ideal) x0 x3 x6 (ix2 p q) = Ideal.tanh (Spec.gnn x3 x4 x5 x6 (ndRow x0 x1 x2 p) 0 q) := by
  unfold xT0
  refine (pay20_at x6 p _ _ q).trans (congrArg Ideal.tanh ?_)
  rw [pay16_at, loop0_at x0 x1 x2 x3 p q]
  unfold Spec.gnn
  rw [sum_dst0 (fun e => Spec.msg x4 x5 (ndRow x0 x1 x2 p) e q)]

theorem xT1_at (q : Fin 4) :
    xT1 (F := Ideal) x0 x1 x3 x4 x5 x6 (ix2 p q) = Ideal.tanh (Spec.gnn x3 x4 x5 x6 (ndRow x0 x1 x2 p) 1 q) := by
  unfold xT1
  refine (pay21_at x6 p _ _ _ q).trans (congrArg Ideal.tanh ?_)
  rw [pay17_at, zero_add, loop1_at x0 x1 x2 x3 p q, msg0_at x0 x1 x2 x4 x5 p q]
  unfold Spec.gnn
  rw [sum_dst1 (fun e => Spec.msg x4 x5 (ndRow x0 x1 x2 p) e q)]

theorem xT2_at (q : Fin 4) :
    xT2 (F := Ideal) x0 x1 x2 x3 x4 x5 x6 (ix2 p q) = Ideal.tanh (Spec.gnn x3 x4 x5 x6 (ndRow x0 x1 x2 p) 2 q) := by
  unfold xT2
  refine (pay22_at x6 p _ _ _ _ q).trans (congrArg Ideal.tanh ?_)
  rw [pay18_at, zero_add, loop2_at x0 x1 x2 x3 p q, msg1_at x0 x1 x2 x4 x5 p q, msg3_at x0 x1 x2 x4 x5 p q]
  unfold Spec.gnn
  rw [sum_dst2 (fun e => Spec.msg x4 x5 (ndRow x0 x1 x2 p) e q)]

theorem xT3_at (q : Fin 4) :
    xT3 (F := Ideal) x0 x1 x2 x3 x4 x5 x6 (ix2 p q) = Ideal.tanh (Spec.gnn x3 x4 x5 x6 (ndRow x0 x1 x2 p) 3 q) := by
  unfold xT3
  refine (pay23_at x6 p _ _ _ _ _ q).trans (congrArg Ideal.tanh ?_)
  rw [pay19_at, zero_add, loop3_at x0 x1 x2 x3 p q, msg2_at x0 x1 x2 x4 x5 p q, msg4_at x0 x1 x2 x4 x5 p q,
    msg5_at x0 x1 x2 x4 x5 p q]
  unfold Spec.gnn
  rw [sum_dst3 (fun e => Spec.msg x4 x5 (ndRow x0 x1 x2 p) e q)]

end Cert.KernelIdeal.Rows

end
-- ==== Proof.KGraph2.lean ====
/-
  The second round of message passing in the kernel's block and the product with the feature matrix, read at a row.

  Given the four nodes' first-round values at row `p` (`Xs n i`), node `n`'s second-round value at that row is the tanh
  of the incoming edges' messages (the source's four features times the edge's 4×1 matrix, plus the edge's bias), added
  in edge order from zero, plus the node's bias, plus the node's own features times its loop matrix; the four values,
  laid side by side, are multiplied by the 4×4 feature matrix.
-/
import proofs.«124978_j13331578487072_1_alg».proof.Proof.KTerms
import proofs.«124978_j13331578487072_1_alg».proof.Proof.LibDotAt
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert

section Helpers

/-- Row `n` of a stack of matrices, cut out and flattened, read at an entry. -/
private theorem sliceRow3 {α : Type} {G a b : ℕ} (W : (⟨3, ![G, a, b]⟩ : Shape).Idx → α) (o : ℕ) (n : Fin G) (hn : n.val = o)
    (h : (⟨3, ![G, a, b]⟩ : Shape).Slices ![o, 0, 0] ⟨3, ![1, a, b]⟩)
    (h' : (⟨3, ![1, a, b]⟩ : Shape).ShapeCasts ⟨2, ![a, b]⟩) (i : Fin a) (j : Fin b) :
    shapeCast ⟨2, ![a, b]⟩ (extractStridedSlice ⟨3, ![1, a, b]⟩ ![o, 0, 0] W h) h' (ix2 i j) = W (ix3 n i j) := by
  refine (shapeCast_1ab_ab_apply _ h' i j).trans ?_
  refine extractStridedSlice_apply _ W h _ (ix3 n i j) fun ax => ?_
  match ax with
  | ⟨0, _⟩ => exact hn.trans (Nat.add_zero o).symm
  | ⟨1, _⟩ => exact (Nat.zero_add _).symm
  | ⟨2, _⟩ => exact (Nat.zero_add _).symm

variable (p : Fin 8192)

/-- A row of a four-column matrix against row `n` of a stack of 4×1 matrices. -/
private theorem prodRow {G : ℕ} (V : FVec Ideal S8192x4 .f32) (W : Vec Ideal ⟨3, ![G, 4, 1]⟩ .f32) (o : ℕ) (n : Fin G) (hn : n.val = o)
    (h : (⟨3, ![G, 4, 1]⟩ : Shape).Slices ![o, 0, 0] S1x4x1) (h' : S1x4x1.ShapeCasts S4x1) (X : Fin 4 → EReal)
    (hV : ∀ i, V (ix2 p i) = X i) :
    matmul dot_S8192x4_S4x1_S8192x1_1_0_0_1_n_n none (truncf .bf16 V bitsLt_bf16_f32)
      (truncf .bf16 (shapeCast S4x1 (extractStridedSlice S1x4x1 ![o, 0, 0] W h) h') bitsLt_bf16_f32)
      (constant S8192x1 .f32 0x00000000#32) (ix2 p (0 : Fin 1)) = ∑ c : Fin 4, X c * W (ix3 n c (0 : Fin 1)) := by
  refine (Cert.LibDotAt.matmul_zero_at dot_S8192x4_S4x1_S8192x1_1_0_0_1_n_n rfl rfl rfl rfl rfl rfl none _ _ p 0).trans ?_
  refine Finset.sum_congr rfl fun c _ => ?_
  exact congrArg₂ (· * ·) (hV c) (sliceRow3 W o n hn h h' c 0)

/-- Entry `n` of a stack of 1×1 matrices, spread down a column. -/
private theorem biasRow {G : ℕ} (B : Vec Ideal ⟨3, ![G, 1, 1]⟩ .f32) (o : ℕ) (n : Fin G) (hn : n.val = o)
    (h : (⟨3, ![G, 1, 1]⟩ : Shape).Slices ![o, 0, 0] S1x1x1) (h' : S1x1x1.ShapeCasts S1x1) (h'' : S1x1.Broadcasts S8192x1) :
    broadcastTo S8192x1 (shapeCast S1x1 (extractStridedSlice S1x1x1 ![o, 0, 0] B h) h') h'' (ix2 p (0 : Fin 1))
      = B (ix3 n (0 : Fin 1) (0 : Fin 1)) := by
  refine (broadcastTo_1b_ab_apply _ h'' p 0).trans ?_
  exact sliceRow3 B o n hn h h' 0 0

variable (x7 : Vec Ideal S4x4x1 .f32) (x8 : Vec Ideal S6x4x1 .f32) (x9 : Vec Ideal S6x1x1 .f32) (x10 : Vec Ideal S4x1x1 .f32) (x11 : Vec Ideal S4x4 .f32)

/-- An edge's message from a source whose row is `X`: the product with the edge's matrix plus the edge's bias. -/
private theorem pay29_at (V : FVec Ideal S8192x4 .f32) (X : Fin 4 → EReal) (hV : ∀ i, V (ix2 p i) = X i) :
    k0_pay29 (F := Ideal) V x8 x9 (ix2 p (0 : Fin 1))
      = (∑ c : Fin 4, X c * x8 (ix3 (0 : Fin 6) c (0 : Fin 1))) + x9 (ix3 (0 : Fin 6) (0 : Fin 1) (0 : Fin 1)) := by
  unfold k0_pay29
  exact congrArg₂ (· + ·) (prodRow p V x8 0 0 rfl _ _ X hV) (biasRow p x9 0 0 rfl _ _ _)

private theorem pay30_at (V : FVec Ideal S8192x4 .f32) (X : Fin 4 → EReal) (hV : ∀ i, V (ix2 p i) = X i) :
    k0_pay30 (F := Ideal) V x8 x9 (ix2 p (0 : Fin 1))
      = (∑ c : Fin 4, X c * x8 (ix3 (1 : Fin 6) c (0 : Fin 1))) + x9 (ix3 (1 : Fin 6) (0 : Fin 1) (0 : Fin 1)) := by
  unfold k0_pay30
  exact congrArg₂ (· + ·) (prodRow p V x8 1 1 rfl _ _ X hV) (biasRow p x9 1 1 rfl _ _ _)

private theorem pay31_at (V : FVec Ideal S8192x4 .f32) (X : Fin 4 → EReal) (hV : ∀ i, V (ix2 p i) = X i) :
    k0_pay31 (F := Ideal) V x8 x9 (ix2 p (0 : Fin 1))
      = (∑ c : Fin 4, X c * x8 (ix3 (2 : Fin 6) c (0 : Fin 1))) + x9 (ix3 (2 : Fin 6) (0 : Fin 1) (0 : Fin 1)) := by
  unfold k0_pay31
  exact congrArg₂ (· + ·) (prodRow p V x8 2 2 rfl _ _ X hV) (biasRow p x9 2 2 rfl _ _ _)

private theorem pay32_at (V : FVec Ideal S8192x4 .f32) (X : Fin 4 → EReal) (hV : ∀ i, V (ix2 p i) = X i) :
    k0_pay32 (F := Ideal) V x8 x9 (ix2 p (0 : Fin 1))
      = (∑ c : Fin 4, X c * x8 (ix3 (3 : Fin 6) c (0 : Fin 1))) + x9 (ix3 (3 : Fin 6) (0 : Fin 1) (0 : Fin 1)) := by
  unfold k0_pay32
  exact congrArg₂ (· + ·) (prodRow p V x8 3 3 rfl _ _ X hV) (biasRow p x9 3 3 rfl _ _ _)

private theorem pay33_at (V : FVec Ideal S8192x4 .f32) (X : Fin 4 → EReal) (hV : ∀ i, V (ix2 p i) = X i) :
    k0_pay33 (F := Ideal) V x8 x9 (ix2 p (0 : Fin 1))
      = (∑ c : Fin 4, X c * x8 (ix3 (4 : Fin 6) c (0 : Fin 1))) + x9 (ix3 (4 : Fin 6) (0 : Fin 1) (0 : Fin 1)) := by
  unfold k0_pay33
  exact congrArg₂ (· + ·) (prodRow p V x8 4 4 rfl _ _ X hV) (biasRow p x9 4 4 rfl _ _ _)

/-- A node's loop product from its row `X`. -/
private theorem pay24_at (v8 : Vec Ideal S4x1x4 .f32) (v13 v83 : FVec Ideal S8192x4 .f32) (X : Fin 4 → EReal)
    (hV : ∀ i, k0_pay20 (F := Ideal) v8 v13 v83 (ix2 p i) = X i) :
    k0_pay24 (F := Ideal) v8 v13 v83 x7 (ix2 p (0 : Fin 1)) = ∑ c : Fin 4, X c * x7 (ix3 (0 : Fin 4) c (0 : Fin 1)) := by
  unfold k0_pay24
  exact prodRow p _ x7 0 0 rfl _ _ X hV

private theorem pay25_at (v8 : Vec Ideal S4x1x4 .f32) (v18 v37 v84 : FVec Ideal S8192x4 .f32) (X : Fin 4 → EReal)
    (hV : ∀ i, k0_pay21 (F := Ideal) v8 v18 v37 v84 (ix2 p i) = X i) :
    k0_pay25 (F := Ideal) v8 v18 v37 v84 x7 (ix2 p (0 : Fin 1)) = ∑ c : Fin 4, X c * x7 (ix3 (1 : Fin 4) c (0 : Fin 1)) := by
  unfold k0_pay25
  exact prodRow p _ x7 1 1 rfl _ _ X hV

private theorem pay27_at (V : FVec Ideal S8192x4 .f32) (X : Fin 4 → EReal) (hV : ∀ i, V (ix2 p i) = X i) :
    k0_pay27 (F := Ideal) V (k0_pay26 (F := Ideal) x7) (ix2 p (0 : Fin 1)) = ∑ c : Fin 4, X c * x7 (ix3 (2 : Fin 4) c (0 : Fin 1)) := by
  unfold k0_pay27 k0_pay26
  exact prodRow p V x7 2 2 rfl _ _ X hV

private theorem pay28_at (V : FVec Ideal S8192x4 .f32) (X : Fin 4 → EReal) (hV : ∀ i, V (ix2 p i) = X i) :
    k0_pay28 (F := Ideal) V x7 (ix2 p (0 : Fin 1)) = ∑ c : Fin 4, X c * x7 (ix3 (3 : Fin 4) c (0 : Fin 1)) := by
  unfold k0_pay28
  exact prodRow p V x7 3 3 rfl _ _ X hV

/-- Column `k` of four one-column blocks laid side by side is block `k`. -/
private theorem concat4_at {α : Type} (c0 c1 c2 c3 : S8192x1.Idx → α)
    (h : Shape.Concatenates (([⟨S8192x1, c0⟩, ⟨S8192x1, c1⟩, ⟨S8192x1, c2⟩, ⟨S8192x1, c3⟩] : List ((s : Shape) × (s.Idx → α))).map (·.1)) S8192x4 1) :
    concatenate S8192x4 1 [⟨S8192x1, c0⟩, ⟨S8192x1, c1⟩, ⟨S8192x1, c2⟩, ⟨S8192x1, c3⟩] h (ix2 p (0 : Fin 4)) = c0 (ix2 p (0 : Fin 1))
    ∧ concatenate S8192x4 1 [⟨S8192x1, c0⟩, ⟨S8192x1, c1⟩, ⟨S8192x1, c2⟩, ⟨S8192x1, c3⟩] h (ix2 p (1 : Fin 4)) = c1 (ix2 p (0 : Fin 1))
    ∧ concatenate S8192x4 1 [⟨S8192x1, c0⟩, ⟨S8192x1, c1⟩, ⟨S8192x1, c2⟩, ⟨S8192x1, c3⟩] h (ix2 p (2 : Fin 4)) = c2 (ix2 p (0 : Fin 1))
    ∧ concatenate S8192x4 1 [⟨S8192x1, c0⟩, ⟨S8192x1, c1⟩, ⟨S8192x1, c2⟩, ⟨S8192x1, c3⟩] h (ix2 p (3 : Fin 4)) = c3 (ix2 p (0 : Fin 1)) := by
  have hi : ∀ (k : Fin 4) (b : Fin S8192x1.rank), b.cast (rfl : S8192x1.rank = S8192x4.rank) ≠ (1 : Fin S8192x4.rank) →
      ((ix2 p (0 : Fin 1) : S8192x1.Idx) b).val = ((ix2 p k : S8192x4.Idx) (b.cast rfl)).val := fun k b =>
    match b with
    | ⟨0, _⟩ => fun _ => rfl
    | ⟨1, _⟩ => fun hb => absurd rfl hb
  refine ⟨?_, ?_, ?_, ?_⟩
  · exact concatenate_apply_piece 1 _ h (ix2 p 0) 0 (show (0 : ℕ) < 4 by decide) S8192x1 c0 rfl rfl 0 rfl (ix2 p 0) (hi 0) rfl
  · exact concatenate_apply_piece 1 _ h (ix2 p 1) 1 (show (1 : ℕ) < 4 by decide) S8192x1 c1 rfl rfl 1 rfl (ix2 p 0) (hi 1) rfl
  · exact concatenate_apply_piece 1 _ h (ix2 p 2) 2 (show (2 : ℕ) < 4 by decide) S8192x1 c2 rfl rfl 2 rfl (ix2 p 0) (hi 2) rfl
  · exact concatenate_apply_piece 1 _ h (ix2 p 3) 3 (show (3 : ℕ) < 4 by decide) S8192x1 c3 rfl rfl 3 rfl (ix2 p 0) (hi 3) rfl

/-- The zero column the incoming messages are added to. -/
private theorem zeroCol_at :
    broadcast S8192x1 (Scalar.ofBits (F := Ideal) .f32 0x00000000#32) (ix2 p (0 : Fin 1)) = (0 : EReal) :=
  Ideal.ofBits_zero_f32

/-- The four second-round values through tanh, side by side, times the feature matrix: each value is the node's incoming
    messages added from zero in edge order, plus the node's bias, plus the node's loop product. -/
private theorem pay34_at (V : FVec Ideal S8192x4 .f32) (v125 v130 v135 v140 v149 v158 v167 v176 v185 : FVec Ideal S8192x1 .f32)
    (X : Fin 4 → EReal) (hV : ∀ i, V (ix2 p i) = X i) (q : Fin 4) :
    k0_pay34 (F := Ideal) V x8 x9 x10 v125 v130 v135 v140 v149 v158 v167 v176 v185 x11 (ix2 p q)
      = Ideal.tanh (((0 : EReal) + x10 (ix3 (0 : Fin 4) (0 : Fin 1) (0 : Fin 1))) + v125 (ix2 p (0 : Fin 1))) * x11 (ix2 (0 : Fin 4) q)
      + Ideal.tanh ((((0 : EReal) + v149 (ix2 p (0 : Fin 1))) + x10 (ix3 (1 : Fin 4) (0 : Fin 1) (0 : Fin 1))) + v130 (ix2 p (0 : Fin 1))) * x11 (ix2 (1 : Fin 4) q)
      + Ideal.tanh (((((0 : EReal) + v158 (ix2 p (0 : Fin 1))) + v176 (ix2 p (0 : Fin 1))) + x10 (ix3 (2 : Fin 4) (0 : Fin 1) (0 : Fin 1))) + v135 (ix2 p (0 : Fin 1))) * x11 (ix2 (2 : Fin 4) q)
      + Ideal.tanh ((((((0 : EReal) + v167 (ix2 p (0 : Fin 1))) + v185 (ix2 p (0 : Fin 1)))
            + ((∑ c : Fin 4, X c * x8 (ix3 (5 : Fin 6) c (0 : Fin 1))) + x9 (ix3 (5 : Fin 6) (0 : Fin 1) (0 : Fin 1))))
          + x10 (ix3 (3 : Fin 4) (0 : Fin 1) (0 : Fin 1))) + v140 (ix2 p (0 : Fin 1))) * x11 (ix2 (3 : Fin 4) q) := by
  unfold k0_pay34
  refine (Cert.LibDotAt.matmul_zero_at dot_S8192x4_S4x4_S8192x4_1_0_0_1_n_n rfl rfl rfl rfl rfl rfl none _ _ p q).trans ?_
  refine (Fin.sum_univ_four _).trans ?_
  refine congrArg₂ (· + ·) (congrArg₂ (· + ·) (congrArg₂ (· + ·) ?_ ?_) ?_) ?_
  · refine congrArg₂ (· * ·) ?_ rfl
    refine (truncf_apply (φ := .f32) (ψ := .bf16) _ _ _).trans ?_
    refine (concat4_at p _ _ _ _ _).1.trans ?_
    refine congrArg Ideal.tanh ?_
    exact congrArg₂ (· + ·) (congrArg₂ (· + ·) (zeroCol_at p) (biasRow p x10 0 0 rfl _ _ _)) rfl
  · refine congrArg₂ (· * ·) ?_ rfl
    refine (truncf_apply (φ := .f32) (ψ := .bf16) _ _ _).trans ?_
    refine (concat4_at p _ _ _ _ _).2.1.trans ?_
    refine congrArg Ideal.tanh ?_
    exact congrArg₂ (· + ·) (congrArg₂ (· + ·) (congrArg₂ (· + ·) (zeroCol_at p) rfl) (biasRow p x10 1 1 rfl _ _ _)) rfl
  · refine congrArg₂ (· * ·) ?_ rfl
    refine (truncf_apply (φ := .f32) (ψ := .bf16) _ _ _).trans ?_
    refine (concat4_at p _ _ _ _ _).2.2.1.trans ?_
    refine congrArg Ideal.tanh ?_
    exact congrArg₂ (· + ·) (congrArg₂ (· + ·) (congrArg₂ (· + ·) (congrArg₂ (· + ·) (zeroCol_at p) rfl) rfl)
      (biasRow p x10 2 2 rfl _ _ _)) rfl
  · refine congrArg₂ (· * ·) ?_ rfl
    refine (truncf_apply (φ := .f32) (ψ := .bf16) _ _ _).trans ?_
    refine (concat4_at p _ _ _ _ _).2.2.2.trans ?_
    refine congrArg Ideal.tanh ?_
    exact congrArg₂ (· + ·) (congrArg₂ (· + ·) (congrArg₂ (· + ·) (congrArg₂ (· + ·) (congrArg₂ (· + ·) (zeroCol_at p) rfl) rfl)
      (congrArg₂ (· + ·) (prodRow p V x8 5 5 rfl _ _ X hV) (biasRow p x9 5 5 rfl _ _ _)))
      (biasRow p x10 3 3 rfl _ _ _)) rfl

/-- The edges entering each node, in edge order: none enter node 0; edge 0 enters node 1; edges 1 and 3 node 2; edges 2, 4 and 5 node 3. -/
private theorem sum_dst0 (f : Fin 6 → EReal) :
    ∑ e ∈ Finset.univ.filter (fun e : Fin 6 => Spec.dst e = (0 : Fin 4)), f e = 0 := by
  rw [Finset.sum_filter, Fin.sum_univ_six]
  simp [Spec.dst]

private theorem sum_dst1 (f : Fin 6 → EReal) :
    ∑ e ∈ Finset.univ.filter (fun e : Fin 6 => Spec.dst e = (1 : Fin 4)), f e = 0 + f 0 := by
  rw [Finset.sum_filter, Fin.sum_univ_six, zero_add]
  simp [Spec.dst]

private theorem sum_dst2 (f : Fin 6 → EReal) :
    ∑ e ∈ Finset.univ.filter (fun e : Fin 6 => Spec.dst e = (2 : Fin 4)), f e = (0 + f 1) + f 3 := by
  rw [Finset.sum_filter, Fin.sum_univ_six, zero_add]
  simp [Spec.dst]

private theorem sum_dst3 (f : Fin 6 → EReal) :
    ∑ e ∈ Finset.univ.filter (fun e : Fin 6 => Spec.dst e = (3 : Fin 4)), f e = ((0 + f 2) + f 4) + f 5 := by
  rw [Finset.sum_filter, Fin.sum_univ_six, zero_add]
  simp [Spec.dst]

end Helpers

variable (x0 : Vec Ideal S8192x8 .f32) (x1 : Vec Ideal S8192x2 .f32) (x2 : Vec Ideal S8192x2 .f32) (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (p : Fin 8192)

theorem graphT_at_of (Xs : Fin 4 → Fin 4 → EReal)
    (h0 : ∀ i : Fin 4, xT0 (F := Ideal) x0 x3 x6 (ix2 p i) = Xs 0 i)
    (h1 : ∀ i : Fin 4, xT1 (F := Ideal) x0 x1 x3 x4 x5 x6 (ix2 p i) = Xs 1 i)
    (h2 : ∀ i : Fin 4, xT2 (F := Ideal) x0 x1 x2 x3 x4 x5 x6 (ix2 p i) = Xs 2 i)
    (h3 : ∀ i : Fin 4, xT3 (F := Ideal) x0 x1 x2 x3 x4 x5 x6 (ix2 p i) = Xs 3 i) (q : Fin 4) :
    graphT (F := Ideal) x0 x1 x2 x3 x4 x5 x6 x7 x8 x9 x10 x11 (ix2 p q)
      = ∑ n : Fin 4, Ideal.tanh (Spec.gnn x7 x8 x9 x10 Xs n (0 : Fin 1)) * x11 (ix2 n q) := by
  unfold graphT
  refine (pay34_at p x8 x9 x10 x11 _ _ _ _ _ _ _ _ _ _ (Xs 2) h2 q).trans ?_
  refine Eq.trans ?_ (Fin.sum_univ_four _).symm
  refine congrArg₂ (· + ·) (congrArg₂ (· + ·) (congrArg₂ (· + ·) ?_ ?_) ?_) ?_
  · refine congrArg₂ (· * ·) (congrArg Ideal.tanh ?_) rfl
    unfold Spec.gnn Spec.loop
    rw [sum_dst0]
    exact congrArg₂ (· + ·) rfl (pay24_at p x7 x6 _ _ (Xs 0) h0)
  · refine congrArg₂ (· * ·) (congrArg Ideal.tanh ?_) rfl
    unfold Spec.gnn Spec.loop
    rw [sum_dst1]
    exact congrArg₂ (· + ·) (congrArg₂ (· + ·) (congrArg₂ (· + ·) rfl (pay29_at p x8 x9 _ (Xs 0) h0)) rfl)
      (pay25_at p x7 x6 _ _ _ (Xs 1) h1)
  · refine congrArg₂ (· * ·) (congrArg Ideal.tanh ?_) rfl
    unfold Spec.gnn Spec.loop
    rw [sum_dst2]
    exact congrArg₂ (· + ·) (congrArg₂ (· + ·) (congrArg₂ (· + ·) (congrArg₂ (· + ·) rfl (pay30_at p x8 x9 _ (Xs 0) h0))
      (pay32_at p x8 x9 _ (Xs 1) h1)) rfl) (pay27_at p x7 _ (Xs 2) h2)
  · refine congrArg₂ (· * ·) (congrArg Ideal.tanh ?_) rfl
    unfold Spec.gnn Spec.loop
    rw [sum_dst3]
    exact congrArg₂ (· + ·) (congrArg₂ (· + ·) (congrArg₂ (· + ·) (congrArg₂ (· + ·) (congrArg₂ (· + ·) rfl
      (pay31_at p x8 x9 _ (Xs 0) h0)) (pay33_at p x8 x9 _ (Xs 1) h1)) rfl) rfl) (pay28_at p x7 _ (Xs 3) h3)

end Cert.KernelIdeal.Rows

end
-- ==== Proof.KHeads.lean ====
/-
  The kernel's three stored values, read at a row, from the graph product at that row.

  With `ys` the four second-round values of row `p` (so that the graph product at `(p, q)` is `∑ n, ys n · fe_w[n, q]`):
  the latent features are tanh of that plus the bias; with observation columns 2–5 they feed the shared 64-wide tanh
  layer; the actor's and the critic's 64-wide tanh layers and their output layers follow. The log-probability is, over
  the two actions, `-1/2 · (0 / exp s)² - s - c` summed: the kernel writes the deviation as the constant zero.
-/
import proofs.«124978_j13331578487072_1_alg».proof.Proof.KTerms
import proofs.«124978_j13331578487072_1_alg».proof.Proof.LibDotAt
import Idealize.ShloMosaic.Lib.ValueLayout
import Idealize.ShloMosaic.Lib.Pipeline.Value
import Idealize.ShloMosaic.PureOps.Ideal.Laws

noncomputable section

open scoped BigOperators

namespace Cert.KernelIdeal.Rows

open Cert.KernelIdeal Cert.KernelIdeal.Gen Idealize.ShloMosaic Idealize.ShloMosaic.ValueIdx Cert

/-- A dense layer at an entry: row `p` of the input against column `j` of the weights, plus the bias at `j`. -/
private theorem dense_at {M K N : ℕ} (D : DotDims ⟨2, ![M, K]⟩ ⟨2, ![K, N]⟩ ⟨2, ![M, N]⟩)
    (hlc : D.lhsContracting = [1]) (hrc : D.rhsContracting = [0]) (hlb : D.lhsBatch = []) (hrb : D.rhsBatch = [])
    (hln : D.lhsNonContracting = [0]) (hrn : D.rhsNonContracting = [1])
    (x : FVec Ideal ⟨2, ![M, K]⟩ .f32) (w : Vec Ideal ⟨2, ![K, N]⟩ .f32) (b : Vec Ideal ⟨1, ![N]⟩ .f32)
    (hs : (⟨1, ![N]⟩ : Shape).ShapeCasts ⟨2, ![1, N]⟩) (hb : (⟨2, ![1, N]⟩ : Shape).Broadcasts ⟨2, ![M, N]⟩)
    (p : Fin M) (j : Fin N) :
    addf (matmul D none (truncf .bf16 x bitsLt_bf16_f32) (truncf .bf16 w bitsLt_bf16_f32) (constant ⟨2, ![M, N]⟩ .f32 0x00000000#32))
        (broadcastTo ⟨2, ![M, N]⟩ (shapeCast ⟨2, ![1, N]⟩ b hs) hb) (ix2 p j)
      = Spec.dense w b (fun k => x (ix2 p k)) j := by
  refine (addf_apply _ _ _).trans ?_
  rw [Cert.LibDotAt.matmul_zero_at D hlc hrc hlb hrb hln hrn none _ _ p j, broadcastTo_1b_ab_apply, shapeCast_a_1a_apply]
  rfl

variable (x0 : Vec Ideal S8192x8 .f32) (x1 : Vec Ideal S8192x2 .f32) (x2 : Vec Ideal S8192x2 .f32) (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (x12 : Vec Ideal S4 .f32) (x13 : Vec Ideal S8x64 .f32) (x14 : Vec Ideal S64 .f32) (x15 : Vec Ideal S64x64 .f32) (x16 : Vec Ideal S64 .f32) (x17 : Vec Ideal S64x2 .f32) (x18 : Vec Ideal S2 .f32) (x19 : Vec Ideal S2 .f32) (x20 : Vec Ideal S64x64 .f32) (x21 : Vec Ideal S64 .f32) (x22 : Vec Ideal S64x1 .f32) (x23 : Vec Ideal S1 .f32) (p : Fin 8192)

/-- The shared layer of a row whose four second-round values are `ys`. -/
abbrev sharedOf (x0 : Vec Ideal S8192x8 .f32) (x11 : Vec Ideal S4x4 .f32) (x12 : Vec Ideal S4 .f32) (x13 : Vec Ideal S8x64 .f32)
    (x14 : Vec Ideal S64 .f32) (p : Fin 8192) (ys : Fin 4 → EReal) (j : Fin 64) : EReal :=
  Ideal.tanh (Spec.dense x13 x14 (Spec.feat (fun q => Ideal.tanh (Spec.dense x11 x12 ys q)) (Spec.midRow (Spec.row2 x0 p))) j)

/-- A bias broadcast over the rows reads, at `(p, q)`, the bias at `q`. -/
private theorem bias_at {M N : ℕ} (b : Vec Ideal ⟨1, ![N]⟩ .f32)
    (hs : (⟨1, ![N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hs) hb (ix2 p q) = b (ix1 q) :=
  (broadcastTo_1b_ab_apply _ _ p q).trans (shapeCast_a_1a_apply _ _ _ _)

/-- The eight inputs of the shared layer at row `p`: the four latent features, then observation columns 2–5. -/
private theorem feat_at (gl : FVec Ideal S8192x4 .f32) (k : Fin 8) :
    concatenate S8192x8 1 [⟨S8192x4, gl⟩, ⟨S8192x4, extractStridedSlice S8192x4 ![0, 2] x0 slices_S8192x8_o0_2_S8192x4⟩]
        concatenates_S8192x4_S8192x4_S8192x8_d1 (ix2 p k)
      = Spec.feat (fun q => gl (ix2 p q)) (Spec.midRow (Spec.row2 x0 p)) k := by
  unfold Spec.feat
  split
  · next h =>
    refine (concatenate_pair_apply_left (t := S8192x8) (s₁ := S8192x4) (s₂ := S8192x4) _ _ _ _ (ix2 p k) rfl
      (ix2 p (⟨k.val, h⟩ : Fin 4)) ?_).trans rfl
    intro b
    match b with
    | ⟨0, _⟩ => rfl
    | ⟨1, _⟩ => rfl
  · next h =>
    refine (concatenate_pair_apply_right (t := S8192x8) (s₁ := S8192x4) (s₂ := S8192x4) _ _ _ _ (ix2 p k) rfl rfl
      (ix2 p (⟨k.val - 4, by omega⟩ : Fin 4)) ?_ ?_).trans ?_
    · intro b hb
      match b, hb with
      | ⟨0, _⟩, _ => rfl
      | ⟨1, _⟩, hb => exact absurd rfl hb
    · show (k.val - 4) + 4 = k.val
      omega
    · exact (slice2_axis1_apply 2 x0 _ p _ ⟨2 + (k.val - 4), by omega⟩ rfl).trans rfl

/-- The shared layer at row `p`, from the graph product at that row. -/
private theorem shared_at (ys : Fin 4 → EReal)
    (hg : ∀ q : Fin 4, graphT (F := Ideal) x0 x1 x2 x3 x4 x5 x6 x7 x8 x9 x10 x11 (ix2 p q) = ∑ n : Fin 4, ys n * x11 (ix2 n q)) (j : Fin 64) :
    k0_pay36 (F := Ideal) x0 (graphT x0 x1 x2 x3 x4 x5 x6 x7 x8 x9 x10 x11) (k0_pay35 x12) x13 x14 (ix2 p j)
      = sharedOf x0 x11 x12 x13 x14 p ys j := by
  unfold k0_pay36
  show Ideal.tanh _ = Ideal.tanh _
  refine congrArg Ideal.tanh ?_
  refine (dense_at dot_S8192x8_S8x64_S8192x64_1_0_0_1_n_n rfl rfl rfl rfl rfl rfl _ x13 x14 _ _ p j).trans ?_
  refine congrArg (fun f => Spec.dense x13 x14 f j) (funext fun k => ?_)
  refine (feat_at x0 p _ k).trans ?_
  refine congrArg (fun g => Spec.feat g (Spec.midRow (Spec.row2 x0 p)) k) (funext fun q => ?_)
  show Ideal.tanh (graphT (F := Ideal) x0 x1 x2 x3 x4 x5 x6 x7 x8 x9 x10 x11 (ix2 p q) + k0_pay35 (F := Ideal) x12 (ix2 p q)) = _
  rw [hg q]
  unfold k0_pay35
  rw [bias_at]
  rfl

theorem act_at_of (ys : Fin 4 → EReal)
    (hg : ∀ q : Fin 4, graphT (F := Ideal) x0 x1 x2 x3 x4 x5 x6 x7 x8 x9 x10 x11 (ix2 p q) = ∑ n : Fin 4, ys n * x11 (ix2 n q)) (a : Fin 2) :
    k0_pay37 (F := Ideal) x0 (graphT x0 x1 x2 x3 x4 x5 x6 x7 x8 x9 x10 x11) (k0_pay35 x12) x13 x14 x15 x16 x17 x18 (ix2 p a)
      = Spec.dense x17 x18 (fun j => Ideal.tanh (Spec.dense x15 x16 (sharedOf x0 x11 x12 x13 x14 p ys) j)) a := by
  unfold k0_pay37
  refine (dense_at dot_S8192x64_S64x2_S8192x2_1_0_0_1_n_n rfl rfl rfl rfl rfl rfl _ x17 x18 _ _ p a).trans ?_
  refine congrArg (fun f => Spec.dense x17 x18 f a) (funext fun j => ?_)
  show Ideal.tanh _ = Ideal.tanh _
  refine congrArg Ideal.tanh ?_
  refine (dense_at dot_S8192x64_S64x64_S8192x64_1_0_0_1_n_n rfl rfl rfl rfl rfl rfl _ x15 x16 _ _ p j).trans ?_
  refine congrArg (fun f => Spec.dense x15 x16 f j) (funext fun k => ?_)
  exact shared_at x0 x1 x2 x3 x4 x5 x6 x7 x8 x9 x10 x11 x12 x13 x14 p ys hg k

theorem val_at_of (ys : Fin 4 → EReal)
    (hg : ∀ q : Fin 4, graphT (F := Ideal) x0 x1 x2 x3 x4 x5 x6 x7 x8 x9 x10 x11 (ix2 p q) = ∑ n : Fin 4, ys n * x11 (ix2 n q)) (u : Fin 1) :
    k0_pay2 (F := Ideal) (sharedT x0 x1 x2 x3 x4 x5 x6 x7 x8 x9 x10 x11 x12 x13 x14) x20 x21 x22 x23 (ix2 p u)
      = Spec.dense x22 x23 (fun j => Ideal.tanh (Spec.dense x20 x21 (sharedOf x0 x11 x12 x13 x14 p ys) j)) (0 : Fin 1) := by
  obtain rfl : u = 0 := Subsingleton.elim _ _
  unfold k0_pay2
  refine (dense_at dot_S8192x64_S64x1_S8192x1_1_0_0_1_n_n rfl rfl rfl rfl rfl rfl _ x22 x23 _ _ p 0).trans ?_
  refine congrArg (fun f => Spec.dense x22 x23 f (0 : Fin 1)) (funext fun j => ?_)
  show Ideal.tanh _ = Ideal.tanh _
  refine congrArg Ideal.tanh ?_
  refine (dense_at dot_S8192x64_S64x64_S8192x64_1_0_0_1_n_n rfl rfl rfl rfl rfl rfl _ x20 x21 _ _ p j).trans ?_
  refine congrArg (fun f => Spec.dense x20 x21 f j) (funext fun k => ?_)
  unfold sharedT
  exact shared_at x0 x1 x2 x3 x4 x5 x6 x7 x8 x9 x10 x11 x12 x13 x14 p ys hg k

/-- The squared-deviation term at `(p, a)`: the deviation is the constant zero over `exp` of the log standard deviation. -/
private theorem quad_at (a : Fin 2) :
    k0_pay38 (F := Ideal) x19 (ix2 p a)
      = Ideal.ofBits .f32 0xBF000000#32 * (Ideal.div 0 (Ideal.exp (x19 (ix1 a))) * Ideal.div 0 (Ideal.exp (x19 (ix1 a)))) := by
  unfold k0_pay38
  show Ideal.ofBits .f32 0xBF000000#32
      * (Ideal.div (Ideal.ofBits .f32 0x00000000#32)
            (broadcastTo S8192x2 (shapeCast S1x2 _ shapeCasts_S2_S1x2) broadcasts_S1x2_S8192x2 (ix2 p a))
          * Ideal.div (Ideal.ofBits .f32 0x00000000#32)
            (broadcastTo S8192x2 (shapeCast S1x2 _ shapeCasts_S2_S1x2) broadcasts_S1x2_S8192x2 (ix2 p a))) = _
  rw [bias_at, Ideal.ofBits_zero_f32]
  rfl

/-- One action's term of the log-probability at row `p`. -/
private theorem term_at (a : Fin 2) :
    (k0_pay38 (F := Ideal) x19 (ix2 p a) - k0_pay39 (F := Ideal) x19 (ix2 p a)) - Ideal.ofBits .f32 0x3F6B3F8E#32
      = (Ideal.ofBits .f32 0xBF000000#32 * (Ideal.div 0 (Ideal.exp (x19 (ix1 a))) * Ideal.div 0 (Ideal.exp (x19 (ix1 a))))
          - x19 (ix1 a)) - Ideal.ofBits .f32 0x3F6B3F8E#32 := by
  rw [quad_at]
  unfold k0_pay39
  rw [bias_at]

theorem logp_at :
    k0_pay1 (F := Ideal) (k0_pay38 x19) (k0_pay39 x19) (ix1 p) = Spec.logpOf x19 := by
  unfold k0_pay1
  refine (Ideal.multiReduction_add_single (φ := .f32) _ _ reduces_S8192x2_S8192 (.inl rfl) rfl (ix1 p)).trans ?_
  unfold Spec.logpOf
  refine Finset.sum_congr rfl fun a _ => ?_
  have hl : reduces_S8192x2_S8192.lift (ix1 p) a = ix2 p a := funext fun d => Fin.ext (by
    match d with
    | ⟨0, _⟩ => rfl
    | ⟨1, _⟩ => rfl)
  show (k0_pay38 (F := Ideal) x19 (reduces_S8192x2_S8192.lift (ix1 p) a)
      - k0_pay39 (F := Ideal) x19 (reduces_S8192x2_S8192.lift (ix1 p) a)) - Ideal.ofBits .f32 0x3F6B3F8E#32 = _
  rw [hl]
  exact term_at x19 p a

end Cert.KernelIdeal.Rows

end
-- ==== Proof.KRows.lean ====
/-
  What the kernel body leaves in its three output buffers, read at a row: the specification's row functions of the
  row's node features and observation columns.

  The four first-round values feed the second round and the feature product; the shared layer and the two heads follow.
-/
import proofs.«124978_j13331578487072_1_alg».proof.Proof.KGraph1
import proofs.«124978_j13331578487072_1_alg».proof.Proof.KGraph2
import proofs.«124978_j13331578487072_1_alg».proof.Proof.KHeads

noncomputable section

open scoped BigOperators

namespace Cert.KernelIdeal.Rows

open Cert.KernelIdeal Cert.KernelIdeal.Gen Idealize.ShloMosaic Idealize.ShloMosaic.ValueIdx Cert

variable (x0 : Vec Ideal S8192x8 .f32) (x1 : Vec Ideal S8192x2 .f32) (x2 : Vec Ideal S8192x2 .f32) (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (x12 : Vec Ideal S4 .f32) (x13 : Vec Ideal S8x64 .f32) (x14 : Vec Ideal S64 .f32) (x15 : Vec Ideal S64x64 .f32) (x16 : Vec Ideal S64 .f32) (x17 : Vec Ideal S64x2 .f32) (x18 : Vec Ideal S2 .f32) (x19 : Vec Ideal S2 .f32) (x20 : Vec Ideal S64x64 .f32) (x21 : Vec Ideal S64 .f32) (x22 : Vec Ideal S64x1 .f32) (x23 : Vec Ideal S1 .f32) (p : Fin 8192)

/-- The parameters, from the blocks of the twenty-one parameter windows (each window's block is its whole array). -/
abbrev mkP (x3 : Vec Ideal S4x2x4 .f32) (x4 : Vec Ideal S6x2x4 .f32) (x5 : Vec Ideal S6x1x4 .f32) (x6 : Vec Ideal S4x1x4 .f32) (x7 : Vec Ideal S4x4x1 .f32) (x8 : Vec Ideal S6x4x1 .f32) (x9 : Vec Ideal S6x1x1 .f32) (x10 : Vec Ideal S4x1x1 .f32) (x11 : Vec Ideal S4x4 .f32) (x12 : Vec Ideal S4 .f32) (x13 : Vec Ideal S8x64 .f32) (x14 : Vec Ideal S64 .f32) (x15 : Vec Ideal S64x64 .f32) (x16 : Vec Ideal S64 .f32) (x17 : Vec Ideal S64x2 .f32) (x18 : Vec Ideal S2 .f32) (x19 : Vec Ideal S2 .f32) (x20 : Vec Ideal S64x64 .f32) (x21 : Vec Ideal S64 .f32) (x22 : Vec Ideal S64x1 .f32) (x23 : Vec Ideal S1 .f32) : Spec.Params :=
  ⟨x3, x4, x5, x6, x7, x8, x9, x10, x11, x12, x13, x14, x15, x16, x17, x18, x19, x20, x21, x22, x23⟩

/-- The graph product at row `p`, over the specification's second-round values. -/
theorem graphT_at (q : Fin 4) :
    graphT (F := Ideal) x0 x1 x2 x3 x4 x5 x6 x7 x8 x9 x10 x11 (ix2 p q)
      = ∑ n : Fin 4, Spec.Y (mkP x3 x4 x5 x6 x7 x8 x9 x10 x11 x12 x13 x14 x15 x16 x17 x18 x19 x20 x21 x22 x23) (Spec.X (mkP x3 x4 x5 x6 x7 x8 x9 x10 x11 x12 x13 x14 x15 x16 x17 x18 x19 x20 x21 x22 x23) (ndRow x0 x1 x2 p)) n * x11 (ix2 n q) :=
  (graphT_at_of x0 x1 x2 x3 x4 x5 x6 x7 x8 x9 x10 x11 p (fun n i => Ideal.tanh (Spec.gnn x3 x4 x5 x6 (ndRow x0 x1 x2 p) n i))
    (xT0_at x0 x1 x2 x3 x4 x5 x6 p) (xT1_at x0 x1 x2 x3 x4 x5 x6 p) (xT2_at x0 x1 x2 x3 x4 x5 x6 p) (xT3_at x0 x1 x2 x3 x4 x5 x6 p) q).trans rfl

/-- The action means' buffer at `(p, a)`. -/
theorem out24_at (a : Fin 2) :
    out0_24 (F := Ideal) x0 x1 x2 x3 x4 x5 x6 x7 x8 x9 x10 x11 x12 x13 x14 x15 x16 x17 x18 x19 x20 x21 x22 x23 (ix2 p a)
      = Spec.actRow (mkP x3 x4 x5 x6 x7 x8 x9 x10 x11 x12 x13 x14 x15 x16 x17 x18 x19 x20 x21 x22 x23) (ndRow x0 x1 x2 p) (Spec.midRow (Spec.row2 x0 p)) a := by
  rw [out0_24_eq]
  exact (act_at_of x0 x1 x2 x3 x4 x5 x6 x7 x8 x9 x10 x11 x12 x13 x14 x15 x16 x17 x18 p _ (graphT_at x0 x1 x2 x3 x4 x5 x6 x7 x8 x9 x10 x11 x12 x13 x14 x15 x16 x17 x18 x19 x20 x21 x22 x23 p) a).trans rfl

/-- The value's buffer at `(p, u)`. -/
theorem out25_at (u : Fin 1) :
    out0_25 (F := Ideal) x0 x1 x2 x3 x4 x5 x6 x7 x8 x9 x10 x11 x12 x13 x14 x15 x16 x17 x18 x19 x20 x21 x22 x23 (ix2 p u)
      = Spec.valRow (mkP x3 x4 x5 x6 x7 x8 x9 x10 x11 x12 x13 x14 x15 x16 x17 x18 x19 x20 x21 x22 x23) (ndRow x0 x1 x2 p) (Spec.midRow (Spec.row2 x0 p)) := by
  rw [out0_25_eq]
  exact (val_at_of x0 x1 x2 x3 x4 x5 x6 x7 x8 x9 x10 x11 x12 x13 x14 x20 x21 x22 x23 p _ (graphT_at x0 x1 x2 x3 x4 x5 x6 x7 x8 x9 x10 x11 x12 x13 x14 x15 x16 x17 x18 x19 x20 x21 x22 x23 p) u).trans rfl

/-- The log-probability's buffer at `p`. -/
theorem out26_at :
    out0_26 (F := Ideal) x0 x1 x2 x3 x4 x5 x6 x7 x8 x9 x10 x11 x12 x13 x14 x15 x16 x17 x18 x19 x20 x21 x22 x23 (ix1 p) = Spec.logp (mkP x3 x4 x5 x6 x7 x8 x9 x10 x11 x12 x13 x14 x15 x16 x17 x18 x19 x20 x21 x22 x23) := by
  rw [out0_26_eq]
  exact (logp_at x19 p).trans rfl

end Cert.KernelIdeal.Rows

end
-- ==== Proof.KValue.lean ====
/-
  The kernel's three result arrays after its run, as functions of the argument arrays.

  The grid has 128 points; point `t` stages rows `8192·t … 8192·t + 8191` of the three batch arrays and the whole of every
  parameter array, and writes back the same rows of the three results. What the body leaves at row `p` of a block is the
  specification's row function of that row's inputs, so block `t` of a result is block `t` of the specification's
  whole-array function; the 128 blocks cover every row.
-/
import proofs.«124978_j13331578487072_1_alg».proof.Proof.Gen.KernelIdeal.Value
import proofs.«124978_j13331578487072_1_alg».proof.Proof.KRows
import Idealize.ShloMosaic.Lib.Pipeline.Value

set_option maxRecDepth 16384

noncomputable section

namespace Cert.KernelIdeal.RowValue

open Cert.KernelIdeal Cert.KernelIdeal.Gen Cert.KernelIdeal.Value Cert.KernelIdeal.Rows Idealize.ShloMosaic Idealize.ShloMosaic.TcCoe
  Idealize.ShloMosaic.ValueIdx Idealize.SL.Sem Cert
open Idealize.ShloMosaic.Pipeline (Dat)

variable (m : (ℓ : Loc nD τ sig) → Buf (Elt Ideal) ℓ) (ρ : Dev nD → PrngReg)

/-- The parameters as launched on device `c`. -/
abbrev Pm (c : Dev nD) : Spec.Params :=
  ⟨(m ((c.tc : Thread nD τ).loc main_arg3)), (m ((c.tc : Thread nD τ).loc main_arg4)), (m ((c.tc : Thread nD τ).loc main_arg5)), (m ((c.tc : Thread nD τ).loc main_arg6)), (m ((c.tc : Thread nD τ).loc main_arg7)), (m ((c.tc : Thread nD τ).loc main_arg8)), (m ((c.tc : Thread nD τ).loc main_arg9)), (m ((c.tc : Thread nD τ).loc main_arg10)), (m ((c.tc : Thread nD τ).loc main_arg11)), (m ((c.tc : Thread nD τ).loc main_arg12)), (m ((c.tc : Thread nD τ).loc main_arg13)), (m ((c.tc : Thread nD τ).loc main_arg14)), (m ((c.tc : Thread nD τ).loc main_arg15)), (m ((c.tc : Thread nD τ).loc main_arg16)), (m ((c.tc : Thread nD τ).loc main_arg17)), (m ((c.tc : Thread nD τ).loc main_arg18)), (m ((c.tc : Thread nD τ).loc main_arg19)), (m ((c.tc : Thread nD τ).loc main_arg20)), (m ((c.tc : Thread nD τ).loc main_arg21)), (m ((c.tc : Thread nD τ).loc main_arg22)), (m ((c.tc : Thread nD τ).loc main_arg23))⟩

/-- The action means of every row, from the arrays as launched. -/
abbrev GactM (c : Dev nD) : S1048576x2.Idx → EReal :=
  Spec.Gact (Pm m c) (m ((c.tc : Thread nD τ).loc main_arg0)) (m ((c.tc : Thread nD τ).loc main_arg1)) (m ((c.tc : Thread nD τ).loc main_arg2))
/-- The values. -/
abbrev GvalM (c : Dev nD) : S1048576x1.Idx → EReal :=
  Spec.Gval (Pm m c) (m ((c.tc : Thread nD τ).loc main_arg0)) (m ((c.tc : Thread nD τ).loc main_arg1)) (m ((c.tc : Thread nD τ).loc main_arg2))
/-- The log-probabilities. -/
abbrev GlogpM (c : Dev nD) : S1048576.Idx → EReal :=
  Spec.Glogp (Pm m c)

/-! ## The index maps at the grid's 128 points -/

/-- The three batch inputs and the three results move together along the rows, block `t` at block index at most 127;
    no window moves along any other axis. -/
theorem idx_facts : ∀ t : Fin cfg0.N,
    win0_0.index t (0 : Fin 2) = win0_24.index t (0 : Fin 2)
  ∧ win0_0.index t (1 : Fin 2) = 0
  ∧ win0_1.index t (0 : Fin 2) = win0_24.index t (0 : Fin 2)
  ∧ win0_1.index t (1 : Fin 2) = 0
  ∧ win0_2.index t (0 : Fin 2) = win0_24.index t (0 : Fin 2)
  ∧ win0_2.index t (1 : Fin 2) = 0
  ∧ win0_24.index t (1 : Fin 2) = 0
  ∧ win0_24.index t (0 : Fin 2) ≤ 127
  ∧ win0_25.index t (0 : Fin 2) = win0_24.index t (0 : Fin 2)
  ∧ win0_25.index t (1 : Fin 2) = 0
  ∧ win0_26.index t (0 : Fin 1) = win0_24.index t (0 : Fin 2) :=
  (by decide +kernel : ∀ t : Fin grid0.N, _)

/-- Every one of the 128 row blocks is some point's. -/
theorem idx_onto : ∀ q : Fin 128, ∃ t : Fin cfg0.N, win0_24.index t (0 : Fin 2) = q.val :=
  (by decide +kernel : ∀ q : Fin 128, ∃ t : Fin grid0.N, win0_24.index t (0 : Fin 2) = q.val)

/-! ## The parameter windows: each block is the whole array -/

theorem idx3 : ∀ t : Fin cfg0.N, ∀ a : Fin 3, win0_3.index t a = 0 :=
  (by decide +kernel : ∀ t : Fin grid0.N, ∀ a : Fin 3, win0_3.index t a = 0)

theorem pblk3 (c : Dev nD) (t : Fin cfg0.N) :
    (iblk m c 3 t : Vec Ideal S4x2x4 .f32) = m ((c.tc : Thread nD τ).loc main_arg3) := by
  funext y
  show V m c main_arg3 (((cfg0.win 3).blk t).view.emb y) = V m c main_arg3 y
  congr 1
  funext a; apply Fin.ext
  show win0_3.index t a * S4x2x4.size a + 1 * (y a).val = (y a).val
  rw [idx3 t a, Nat.zero_mul, Nat.one_mul, Nat.zero_add]

theorem idx4 : ∀ t : Fin cfg0.N, ∀ a : Fin 3, win0_4.index t a = 0 :=
  (by decide +kernel : ∀ t : Fin grid0.N, ∀ a : Fin 3, win0_4.index t a = 0)

theorem pblk4 (c : Dev nD) (t : Fin cfg0.N) :
    (iblk m c 4 t : Vec Ideal S6x2x4 .f32) = m ((c.tc : Thread nD τ).loc main_arg4) := by
  funext y
  show V m c main_arg4 (((cfg0.win 4).blk t).view.emb y) = V m c main_arg4 y
  congr 1
  funext a; apply Fin.ext
  show win0_4.index t a * S6x2x4.size a + 1 * (y a).val = (y a).val
  rw [idx4 t a, Nat.zero_mul, Nat.one_mul, Nat.zero_add]

theorem idx5 : ∀ t : Fin cfg0.N, ∀ a : Fin 3, win0_5.index t a = 0 :=
  (by decide +kernel : ∀ t : Fin grid0.N, ∀ a : Fin 3, win0_5.index t a = 0)

theorem pblk5 (c : Dev nD) (t : Fin cfg0.N) :
    (iblk m c 5 t : Vec Ideal S6x1x4 .f32) = m ((c.tc : Thread nD τ).loc main_arg5) := by
  funext y
  show V m c main_arg5 (((cfg0.win 5).blk t).view.emb y) = V m c main_arg5 y
  congr 1
  funext a; apply Fin.ext
  show win0_5.index t a * S6x1x4.size a + 1 * (y a).val = (y a).val
  rw [idx5 t a, Nat.zero_mul, Nat.one_mul, Nat.zero_add]

theorem idx6 : ∀ t : Fin cfg0.N, ∀ a : Fin 3, win0_6.index t a = 0 :=
  (by decide +kernel : ∀ t : Fin grid0.N, ∀ a : Fin 3, win0_6.index t a = 0)

theorem pblk6 (c : Dev nD) (t : Fin cfg0.N) :
    (iblk m c 6 t : Vec Ideal S4x1x4 .f32) = m ((c.tc : Thread nD τ).loc main_arg6) := by
  funext y
  show V m c main_arg6 (((cfg0.win 6).blk t).view.emb y) = V m c main_arg6 y
  congr 1
  funext a; apply Fin.ext
  show win0_6.index t a * S4x1x4.size a + 1 * (y a).val = (y a).val
  rw [idx6 t a, Nat.zero_mul, Nat.one_mul, Nat.zero_add]

theorem idx7 : ∀ t : Fin cfg0.N, ∀ a : Fin 3, win0_7.index t a = 0 :=
  (by decide +kernel : ∀ t : Fin grid0.N, ∀ a : Fin 3, win0_7.index t a = 0)

theorem pblk7 (c : Dev nD) (t : Fin cfg0.N) :
    (iblk m c 7 t : Vec Ideal S4x4x1 .f32) = m ((c.tc : Thread nD τ).loc main_arg7) := by
  funext y
  show V m c main_arg7 (((cfg0.win 7).blk t).view.emb y) = V m c main_arg7 y
  congr 1
  funext a; apply Fin.ext
  show win0_7.index t a * S4x4x1.size a + 1 * (y a).val = (y a).val
  rw [idx7 t a, Nat.zero_mul, Nat.one_mul, Nat.zero_add]

theorem idx8 : ∀ t : Fin cfg0.N, ∀ a : Fin 3, win0_8.index t a = 0 :=
  (by decide +kernel : ∀ t : Fin grid0.N, ∀ a : Fin 3, win0_8.index t a = 0)

theorem pblk8 (c : Dev nD) (t : Fin cfg0.N) :
    (iblk m c 8 t : Vec Ideal S6x4x1 .f32) = m ((c.tc : Thread nD τ).loc main_arg8) := by
  funext y
  show V m c main_arg8 (((cfg0.win 8).blk t).view.emb y) = V m c main_arg8 y
  congr 1
  funext a; apply Fin.ext
  show win0_8.index t a * S6x4x1.size a + 1 * (y a).val = (y a).val
  rw [idx8 t a, Nat.zero_mul, Nat.one_mul, Nat.zero_add]

theorem idx9 : ∀ t : Fin cfg0.N, ∀ a : Fin 3, win0_9.index t a = 0 :=
  (by decide +kernel : ∀ t : Fin grid0.N, ∀ a : Fin 3, win0_9.index t a = 0)

theorem pblk9 (c : Dev nD) (t : Fin cfg0.N) :
    (iblk m c 9 t : Vec Ideal S6x1x1 .f32) = m ((c.tc : Thread nD τ).loc main_arg9) := by
  funext y
  show V m c main_arg9 (((cfg0.win 9).blk t).view.emb y) = V m c main_arg9 y
  congr 1
  funext a; apply Fin.ext
  show win0_9.index t a * S6x1x1.size a + 1 * (y a).val = (y a).val
  rw [idx9 t a, Nat.zero_mul, Nat.one_mul, Nat.zero_add]

theorem idx10 : ∀ t : Fin cfg0.N, ∀ a : Fin 3, win0_10.index t a = 0 :=
  (by decide +kernel : ∀ t : Fin grid0.N, ∀ a : Fin 3, win0_10.index t a = 0)

theorem pblk10 (c : Dev nD) (t : Fin cfg0.N) :
    (iblk m c 10 t : Vec Ideal S4x1x1 .f32) = m ((c.tc : Thread nD τ).loc main_arg10) := by
  funext y
  show V m c main_arg10 (((cfg0.win 10).blk t).view.emb y) = V m c main_arg10 y
  congr 1
  funext a; apply Fin.ext
  show win0_10.index t a * S4x1x1.size a + 1 * (y a).val = (y a).val
  rw [idx10 t a, Nat.zero_mul, Nat.one_mul, Nat.zero_add]

theorem idx11 : ∀ t : Fin cfg0.N, ∀ a : Fin 2, win0_11.index t a = 0 :=
  (by decide +kernel : ∀ t : Fin grid0.N, ∀ a : Fin 2, win0_11.index t a = 0)

theorem pblk11 (c : Dev nD) (t : Fin cfg0.N) :
    (iblk m c 11 t : Vec Ideal S4x4 .f32) = m ((c.tc : Thread nD τ).loc main_arg11) := by
  funext y
  show V m c main_arg11 (((cfg0.win 11).blk t).view.emb y) = V m c main_arg11 y
  congr 1
  funext a; apply Fin.ext
  show win0_11.index t a * S4x4.size a + 1 * (y a).val = (y a).val
  rw [idx11 t a, Nat.zero_mul, Nat.one_mul, Nat.zero_add]

theorem idx12 : ∀ t : Fin cfg0.N, ∀ a : Fin 1, win0_12.index t a = 0 :=
  (by decide +kernel : ∀ t : Fin grid0.N, ∀ a : Fin 1, win0_12.index t a = 0)

theorem pblk12 (c : Dev nD) (t : Fin cfg0.N) :
    (iblk m c 12 t : Vec Ideal S4 .f32) = m ((c.tc : Thread nD τ).loc main_arg12) := by
  funext y
  show V m c main_arg12 (((cfg0.win 12).blk t).view.emb y) = V m c main_arg12 y
  congr 1
  funext a; apply Fin.ext
  show win0_12.index t a * S4.size a + 1 * (y a).val = (y a).val
  rw [idx12 t a, Nat.zero_mul, Nat.one_mul, Nat.zero_add]

theorem idx13 : ∀ t : Fin cfg0.N, ∀ a : Fin 2, win0_13.index t a = 0 :=
  (by decide +kernel : ∀ t : Fin grid0.N, ∀ a : Fin 2, win0_13.index t a = 0)

theorem pblk13 (c : Dev nD) (t : Fin cfg0.N) :
    (iblk m c 13 t : Vec Ideal S8x64 .f32) = m ((c.tc : Thread nD τ).loc main_arg13) := by
  funext y
  show V m c main_arg13 (((cfg0.win 13).blk t).view.emb y) = V m c main_arg13 y
  congr 1
  funext a; apply Fin.ext
  show win0_13.index t a * S8x64.size a + 1 * (y a).val = (y a).val
  rw [idx13 t a, Nat.zero_mul, Nat.one_mul, Nat.zero_add]

theorem idx14 : ∀ t : Fin cfg0.N, ∀ a : Fin 1, win0_14.index t a = 0 :=
  (by decide +kernel : ∀ t : Fin grid0.N, ∀ a : Fin 1, win0_14.index t a = 0)

theorem pblk14 (c : Dev nD) (t : Fin cfg0.N) :
    (iblk m c 14 t : Vec Ideal S64 .f32) = m ((c.tc : Thread nD τ).loc main_arg14) := by
  funext y
  show V m c main_arg14 (((cfg0.win 14).blk t).view.emb y) = V m c main_arg14 y
  congr 1
  funext a; apply Fin.ext
  show win0_14.index t a * S64.size a + 1 * (y a).val = (y a).val
  rw [idx14 t a, Nat.zero_mul, Nat.one_mul, Nat.zero_add]

theorem idx15 : ∀ t : Fin cfg0.N, ∀ a : Fin 2, win0_15.index t a = 0 :=
  (by decide +kernel : ∀ t : Fin grid0.N, ∀ a : Fin 2, win0_15.index t a = 0)

theorem pblk15 (c : Dev nD) (t : Fin cfg0.N) :
    (iblk m c 15 t : Vec Ideal S64x64 .f32) = m ((c.tc : Thread nD τ).loc main_arg15) := by
  funext y
  show V m c main_arg15 (((cfg0.win 15).blk t).view.emb y) = V m c main_arg15 y
  congr 1
  funext a; apply Fin.ext
  show win0_15.index t a * S64x64.size a + 1 * (y a).val = (y a).val
  rw [idx15 t a, Nat.zero_mul, Nat.one_mul, Nat.zero_add]

theorem idx16 : ∀ t : Fin cfg0.N, ∀ a : Fin 1, win0_16.index t a = 0 :=
  (by decide +kernel : ∀ t : Fin grid0.N, ∀ a : Fin 1, win0_16.index t a = 0)

theorem pblk16 (c : Dev nD) (t : Fin cfg0.N) :
    (iblk m c 16 t : Vec Ideal S64 .f32) = m ((c.tc : Thread nD τ).loc main_arg16) := by
  funext y
  show V m c main_arg16 (((cfg0.win 16).blk t).view.emb y) = V m c main_arg16 y
  congr 1
  funext a; apply Fin.ext
  show win0_16.index t a * S64.size a + 1 * (y a).val = (y a).val
  rw [idx16 t a, Nat.zero_mul, Nat.one_mul, Nat.zero_add]

theorem idx17 : ∀ t : Fin cfg0.N, ∀ a : Fin 2, win0_17.index t a = 0 :=
  (by decide +kernel : ∀ t : Fin grid0.N, ∀ a : Fin 2, win0_17.index t a = 0)

theorem pblk17 (c : Dev nD) (t : Fin cfg0.N) :
    (iblk m c 17 t : Vec Ideal S64x2 .f32) = m ((c.tc : Thread nD τ).loc main_arg17) := by
  funext y
  show V m c main_arg17 (((cfg0.win 17).blk t).view.emb y) = V m c main_arg17 y
  congr 1
  funext a; apply Fin.ext
  show win0_17.index t a * S64x2.size a + 1 * (y a).val = (y a).val
  rw [idx17 t a, Nat.zero_mul, Nat.one_mul, Nat.zero_add]

theorem idx18 : ∀ t : Fin cfg0.N, ∀ a : Fin 1, win0_18.index t a = 0 :=
  (by decide +kernel : ∀ t : Fin grid0.N, ∀ a : Fin 1, win0_18.index t a = 0)

theorem pblk18 (c : Dev nD) (t : Fin cfg0.N) :
    (iblk m c 18 t : Vec Ideal S2 .f32) = m ((c.tc : Thread nD τ).loc main_arg18) := by
  funext y
  show V m c main_arg18 (((cfg0.win 18).blk t).view.emb y) = V m c main_arg18 y
  congr 1
  funext a; apply Fin.ext
  show win0_18.index t a * S2.size a + 1 * (y a).val = (y a).val
  rw [idx18 t a, Nat.zero_mul, Nat.one_mul, Nat.zero_add]

theorem idx19 : ∀ t : Fin cfg0.N, ∀ a : Fin 1, win0_19.index t a = 0 :=
  (by decide +kernel : ∀ t : Fin grid0.N, ∀ a : Fin 1, win0_19.index t a = 0)

theorem pblk19 (c : Dev nD) (t : Fin cfg0.N) :
    (iblk m c 19 t : Vec Ideal S2 .f32) = m ((c.tc : Thread nD τ).loc main_arg19) := by
  funext y
  show V m c main_arg19 (((cfg0.win 19).blk t).view.emb y) = V m c main_arg19 y
  congr 1
  funext a; apply Fin.ext
  show win0_19.index t a * S2.size a + 1 * (y a).val = (y a).val
  rw [idx19 t a, Nat.zero_mul, Nat.one_mul, Nat.zero_add]

theorem idx20 : ∀ t : Fin cfg0.N, ∀ a : Fin 2, win0_20.index t a = 0 :=
  (by decide +kernel : ∀ t : Fin grid0.N, ∀ a : Fin 2, win0_20.index t a = 0)

theorem pblk20 (c : Dev nD) (t : Fin cfg0.N) :
    (iblk m c 20 t : Vec Ideal S64x64 .f32) = m ((c.tc : Thread nD τ).loc main_arg20) := by
  funext y
  show V m c main_arg20 (((cfg0.win 20).blk t).view.emb y) = V m c main_arg20 y
  congr 1
  funext a; apply Fin.ext
  show win0_20.index t a * S64x64.size a + 1 * (y a).val = (y a).val
  rw [idx20 t a, Nat.zero_mul, Nat.one_mul, Nat.zero_add]

theorem idx21 : ∀ t : Fin cfg0.N, ∀ a : Fin 1, win0_21.index t a = 0 :=
  (by decide +kernel : ∀ t : Fin grid0.N, ∀ a : Fin 1, win0_21.index t a = 0)

theorem pblk21 (c : Dev nD) (t : Fin cfg0.N) :
    (iblk m c 21 t : Vec Ideal S64 .f32) = m ((c.tc : Thread nD τ).loc main_arg21) := by
  funext y
  show V m c main_arg21 (((cfg0.win 21).blk t).view.emb y) = V m c main_arg21 y
  congr 1
  funext a; apply Fin.ext
  show win0_21.index t a * S64.size a + 1 * (y a).val = (y a).val
  rw [idx21 t a, Nat.zero_mul, Nat.one_mul, Nat.zero_add]

theorem idx22 : ∀ t : Fin cfg0.N, ∀ a : Fin 2, win0_22.index t a = 0 :=
  (by decide +kernel : ∀ t : Fin grid0.N, ∀ a : Fin 2, win0_22.index t a = 0)

theorem pblk22 (c : Dev nD) (t : Fin cfg0.N) :
    (iblk m c 22 t : Vec Ideal S64x1 .f32) = m ((c.tc : Thread nD τ).loc main_arg22) := by
  funext y
  show V m c main_arg22 (((cfg0.win 22).blk t).view.emb y) = V m c main_arg22 y
  congr 1
  funext a; apply Fin.ext
  show win0_22.index t a * S64x1.size a + 1 * (y a).val = (y a).val
  rw [idx22 t a, Nat.zero_mul, Nat.one_mul, Nat.zero_add]

theorem idx23 : ∀ t : Fin cfg0.N, ∀ a : Fin 1, win0_23.index t a = 0 :=
  (by decide +kernel : ∀ t : Fin grid0.N, ∀ a : Fin 1, win0_23.index t a = 0)

theorem pblk23 (c : Dev nD) (t : Fin cfg0.N) :
    (iblk m c 23 t : Vec Ideal S1 .f32) = m ((c.tc : Thread nD τ).loc main_arg23) := by
  funext y
  show V m c main_arg23 (((cfg0.win 23).blk t).view.emb y) = V m c main_arg23 y
  congr 1
  funext a; apply Fin.ext
  show win0_23.index t a * S1.size a + 1 * (y a).val = (y a).val
  rw [idx23 t a, Nat.zero_mul, Nat.one_mul, Nat.zero_add]

/-- So the parameters the body sees at any point are the parameters as launched. -/
theorem mkP_eq (c : Dev nD) (t : Fin cfg0.N) :
    mkP (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) = Pm m c := by
  rw [pblk3 m c t, pblk4 m c t, pblk5 m c t, pblk6 m c t, pblk7 m c t, pblk8 m c t, pblk9 m c t, pblk10 m c t, pblk11 m c t, pblk12 m c t, pblk13 m c t, pblk14 m c t, pblk15 m c t, pblk16 m c t, pblk17 m c t, pblk18 m c t, pblk19 m c t, pblk20 m c t, pblk21 m c t, pblk22 m c t, pblk23 m c t]

/-! ## The batch windows: a block's row is a row of the array -/

/-- Row `p` of the block of batch array 0 at point `t` is row `index · 8192 + p` of the array. -/
theorem blk0_row (c : Dev nD) (t : Fin cfg0.N) (p : Fin 8192) (r : Fin 1048576)
    (hr : r.val = win0_24.index t (0 : Fin 2) * 8192 + p.val) :
    Spec.row2 (iblk m c 0 t : Vec Ideal S8192x8 .f32) p = Spec.row2 (m ((c.tc : Thread nD τ).loc main_arg0)) r := by
  obtain ⟨e0, e1, e2, e3, e4, e5, -⟩ := idx_facts t
  funext k
  show V m c main_arg0 (((cfg0.win 0).blk t).view.emb (ix2 p k)) = V m c main_arg0 (ix2 r k)
  congr 1
  funext a; apply Fin.ext
  match a with
  | ⟨0, _⟩ => show win0_0.index t (0 : Fin 2) * 8192 + 1 * p.val = r.val; omega
  | ⟨1, _⟩ => show win0_0.index t (1 : Fin 2) * 8 + 1 * k.val = k.val; omega

/-- Row `p` of the block of batch array 1 at point `t` is row `index · 8192 + p` of the array. -/
theorem blk1_row (c : Dev nD) (t : Fin cfg0.N) (p : Fin 8192) (r : Fin 1048576)
    (hr : r.val = win0_24.index t (0 : Fin 2) * 8192 + p.val) :
    Spec.row2 (iblk m c 1 t : Vec Ideal S8192x2 .f32) p = Spec.row2 (m ((c.tc : Thread nD τ).loc main_arg1)) r := by
  obtain ⟨e0, e1, e2, e3, e4, e5, -⟩ := idx_facts t
  funext k
  show V m c main_arg1 (((cfg0.win 1).blk t).view.emb (ix2 p k)) = V m c main_arg1 (ix2 r k)
  congr 1
  funext a; apply Fin.ext
  match a with
  | ⟨0, _⟩ => show win0_1.index t (0 : Fin 2) * 8192 + 1 * p.val = r.val; omega
  | ⟨1, _⟩ => show win0_1.index t (1 : Fin 2) * 2 + 1 * k.val = k.val; omega

/-- Row `p` of the block of batch array 2 at point `t` is row `index · 8192 + p` of the array. -/
theorem blk2_row (c : Dev nD) (t : Fin cfg0.N) (p : Fin 8192) (r : Fin 1048576)
    (hr : r.val = win0_24.index t (0 : Fin 2) * 8192 + p.val) :
    Spec.row2 (iblk m c 2 t : Vec Ideal S8192x2 .f32) p = Spec.row2 (m ((c.tc : Thread nD τ).loc main_arg2)) r := by
  obtain ⟨e0, e1, e2, e3, e4, e5, -⟩ := idx_facts t
  funext k
  show V m c main_arg2 (((cfg0.win 2).blk t).view.emb (ix2 p k)) = V m c main_arg2 (ix2 r k)
  congr 1
  funext a; apply Fin.ext
  match a with
  | ⟨0, _⟩ => show win0_2.index t (0 : Fin 2) * 8192 + 1 * p.val = r.val; omega
  | ⟨1, _⟩ => show win0_2.index t (1 : Fin 2) * 2 + 1 * k.val = k.val; omega

/-! ## The action means -/

/-- The row function of a block's row is the whole-array function at the array's row, when the rows' inputs agree. -/
theorem act_of (P : Spec.Params) (obs : Spec.Arr2 1048576 8) (t1 t2 : Spec.Arr2 1048576 2)
    (x0 : Vec Ideal S8192x8 .f32) (x1 x2 : Vec Ideal S8192x2 .f32) (p : Fin 8192) (a : Fin 2) (i : S1048576x2.Idx)
    (h0 : Spec.row2 x0 p = Spec.row2 obs (i 0)) (h1 : Spec.row2 x1 p = Spec.row2 t1 (i 0))
    (h2 : Spec.row2 x2 p = Spec.row2 t2 (i 0)) (ha : a = i 1) :
    Spec.actRow P (ndRow x0 x1 x2 p) (Spec.midRow (Spec.row2 x0 p)) a = Spec.Gact P obs t1 t2 i := by
  show Spec.actRow P (Spec.nodeRow (Spec.row2 x0 p) (Spec.row2 x1 p) (Spec.row2 x2 p)) (Spec.midRow (Spec.row2 x0 p)) a
    = Spec.actRow P (Spec.nodeRow (Spec.row2 obs (i 0)) (Spec.row2 t1 (i 0)) (Spec.row2 t2 (i 0))) (Spec.midRow (Spec.row2 obs (i 0))) (i 1)
  rw [h0, h1, h2, ← ha]

/-- What point `t` writes back is block `t` of the specification's action means. -/
theorem flushed24_eq (c : Dev nD) (t : Fin cfg0.N) :
    (dats m 0 c).flushed 24 t = ((cfg0.win 24).blk t).view.read (Elt Ideal) (GactM m c) := by
  rw [flushed24]
  obtain ⟨e0, e1, e2, e3, e4, e5, e6, e7, -⟩ := idx_facts t
  funext j
  obtain ⟨p, a, rfl⟩ : ∃ (p : Fin 8192) (a : Fin 2), j = ix2 p a := ⟨j 0, j 1, eq_ix2 j⟩
  show out0_24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 p a) = GactM m c (((cfg0.win 24).blk t).view.emb (ix2 p a))
  rw [out24_at, mkP_eq m c t]
  have hr : ((((cfg0.win 24).blk t).view.emb (ix2 p a)) 0).val = win0_24.index t (0 : Fin 2) * 8192 + p.val := by
    show win0_24.index t (0 : Fin 2) * 8192 + 1 * p.val = _; omega
  have ha : a = (((cfg0.win 24).blk t).view.emb (ix2 p a)) 1 := by
    apply Fin.ext
    show a.val = win0_24.index t (1 : Fin 2) * 2 + 1 * a.val; omega
  exact act_of (Pm m c) _ _ _ _ _ _ p a _ (blk0_row m c t p _ hr) (blk1_row m c t p _ hr) (blk2_row m c t p _ hr) ha

/-- An index of the array is in point `t`'s block iff each coordinate is in the block's range on its axis. -/
theorem mem_blk24 (t : Fin cfg0.N) (i : S1048576x2.Idx) :
    i ∈ ((cfg0.win 24).blk t).view.set ↔ ∀ a : Fin 2, win0_24.index t a * S8192x2.size a ≤ (i a).val ∧ (i a).val < win0_24.index t a * S8192x2.size a + S8192x2.size a := by
  show i ∈ ((View.whole main_v0_0).slice (win0_24.rect t)).set ↔ _
  rw [View.set_slice_whole, Rect.mem_set_unit]
  exact Iff.rfl

/-- Row `r` is in the block of the point whose block index is `r / 8192`. -/
theorem cover24 (i : S1048576x2.Idx) :
    ∃ t : Fin cfg0.N, (cfg0.win 24).flush t = true ∧ i ∈ ((cfg0.win 24).blk t).view.set := by
  have hi0 : (i 0).val < 1048576 := (i 0).isLt
  have hi1 : (i 1).val < 2 := (i 1).isLt
  obtain ⟨t, ht⟩ := idx_onto ⟨(i 0).val / 8192, by omega⟩
  have q0 : win0_24.index t (0 : Fin 2) = (i 0).val / 8192 := ht
  obtain ⟨-, -, -, -, -, -, e6, -⟩ := idx_facts t
  refine ⟨t, flush0_24 t, ?_⟩
  rw [mem_blk24]
  intro a
  match a with
  | ⟨0, _⟩ => show win0_24.index t (0 : Fin 2) * 8192 ≤ (i 0).val ∧ (i 0).val < win0_24.index t (0 : Fin 2) * 8192 + 8192; omega
  | ⟨1, _⟩ => show win0_24.index t (1 : Fin 2) * 2 ≤ (i 1).val ∧ (i 1).val < win0_24.index t (1 : Fin 2) * 2 + 2; omega

/-- After the run the action means' array is the specification's. -/
theorem final24 (c : Dev nD) : (dats m 0 c).arrAt 24 cfg0.N = GactM m c := by
  exact (dats m 0 c).arrAt_eq_of_cover 24 (GactM m c) (fun t _ => flushed24_eq m c t) cover24

/-! ## The values -/

/-- The row function of a block's row is the whole-array function at the array's row, when the rows' inputs agree. -/
theorem val_of (P : Spec.Params) (obs : Spec.Arr2 1048576 8) (t1 t2 : Spec.Arr2 1048576 2)
    (x0 : Vec Ideal S8192x8 .f32) (x1 x2 : Vec Ideal S8192x2 .f32) (p : Fin 8192) (i : S1048576x1.Idx)
    (h0 : Spec.row2 x0 p = Spec.row2 obs (i 0)) (h1 : Spec.row2 x1 p = Spec.row2 t1 (i 0))
    (h2 : Spec.row2 x2 p = Spec.row2 t2 (i 0)) :
    Spec.valRow P (ndRow x0 x1 x2 p) (Spec.midRow (Spec.row2 x0 p)) = Spec.Gval P obs t1 t2 i := by
  show Spec.valRow P (Spec.nodeRow (Spec.row2 x0 p) (Spec.row2 x1 p) (Spec.row2 x2 p)) (Spec.midRow (Spec.row2 x0 p))
    = Spec.valRow P (Spec.nodeRow (Spec.row2 obs (i 0)) (Spec.row2 t1 (i 0)) (Spec.row2 t2 (i 0))) (Spec.midRow (Spec.row2 obs (i 0)))
  rw [h0, h1, h2]

/-- What point `t` writes back is block `t` of the specification's values. -/
theorem flushed25_eq (c : Dev nD) (t : Fin cfg0.N) :
    (dats m 0 c).flushed 25 t = ((cfg0.win 25).blk t).view.read (Elt Ideal) (GvalM m c) := by
  rw [flushed25]
  obtain ⟨-, -, -, -, -, -, -, e7, e8, e9, -⟩ := idx_facts t
  funext j
  obtain ⟨p, u, rfl⟩ : ∃ (p : Fin 8192) (u : Fin 1), j = ix2 p u := ⟨j 0, j 1, eq_ix2 j⟩
  show out0_25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix2 p u) = GvalM m c (((cfg0.win 25).blk t).view.emb (ix2 p u))
  rw [out25_at, mkP_eq m c t]
  have hr : ((((cfg0.win 25).blk t).view.emb (ix2 p u)) 0).val = win0_24.index t (0 : Fin 2) * 8192 + p.val := by
    show win0_25.index t (0 : Fin 2) * 8192 + 1 * p.val = _; omega
  exact val_of (Pm m c) _ _ _ _ _ _ p _ (blk0_row m c t p _ hr) (blk1_row m c t p _ hr) (blk2_row m c t p _ hr)

/-- An index of the array is in point `t`'s block iff each coordinate is in the block's range on its axis. -/
theorem mem_blk25 (t : Fin cfg0.N) (i : S1048576x1.Idx) :
    i ∈ ((cfg0.win 25).blk t).view.set ↔ ∀ a : Fin 2, win0_25.index t a * S8192x1.size a ≤ (i a).val ∧ (i a).val < win0_25.index t a * S8192x1.size a + S8192x1.size a := by
  show i ∈ ((View.whole main_v0_1).slice (win0_25.rect t)).set ↔ _
  rw [View.set_slice_whole, Rect.mem_set_unit]
  exact Iff.rfl

/-- Row `r` is in the block of the point whose block index is `r / 8192`. -/
theorem cover25 (i : S1048576x1.Idx) :
    ∃ t : Fin cfg0.N, (cfg0.win 25).flush t = true ∧ i ∈ ((cfg0.win 25).blk t).view.set := by
  have hi0 : (i 0).val < 1048576 := (i 0).isLt
  have hi1 : (i 1).val < 1 := (i 1).isLt
  obtain ⟨t, ht⟩ := idx_onto ⟨(i 0).val / 8192, by omega⟩
  have q0 : win0_24.index t (0 : Fin 2) = (i 0).val / 8192 := ht
  obtain ⟨-, -, -, -, -, -, -, -, e8, e9, -⟩ := idx_facts t
  refine ⟨t, flush0_25 t, ?_⟩
  rw [mem_blk25]
  intro a
  match a with
  | ⟨0, _⟩ => show win0_25.index t (0 : Fin 2) * 8192 ≤ (i 0).val ∧ (i 0).val < win0_25.index t (0 : Fin 2) * 8192 + 8192; omega
  | ⟨1, _⟩ => show win0_25.index t (1 : Fin 2) * 1 ≤ (i 1).val ∧ (i 1).val < win0_25.index t (1 : Fin 2) * 1 + 1; omega

/-- After the run the values' array is the specification's. -/
theorem final25 (c : Dev nD) : (dats m 0 c).arrAt 25 cfg0.N = GvalM m c := by
  exact (dats m 0 c).arrAt_eq_of_cover 25 (GvalM m c) (fun t _ => flushed25_eq m c t) cover25

/-! ## The log-probabilities -/

/-- What point `t` writes back is block `t` of the specification's log-probabilities: the same number in every row. -/
theorem flushed26_eq (c : Dev nD) (t : Fin cfg0.N) :
    (dats m 0 c).flushed 26 t = ((cfg0.win 26).blk t).view.read (Elt Ideal) (GlogpM m c) := by
  rw [flushed26]
  funext j
  obtain ⟨p, rfl⟩ : ∃ (p : Fin 8192), j = ix1 p := ⟨j 0, eq_ix1 j⟩
  show out0_26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (ix1 p) = GlogpM m c (((cfg0.win 26).blk t).view.emb (ix1 p))
  rw [out26_at, mkP_eq m c t]
  rfl

/-- An index of the array is in point `t`'s block iff its coordinate is in the block's range. -/
theorem mem_blk26 (t : Fin cfg0.N) (i : S1048576.Idx) :
    i ∈ ((cfg0.win 26).blk t).view.set ↔ ∀ a : Fin 1, win0_26.index t a * S8192.size a ≤ (i a).val ∧ (i a).val < win0_26.index t a * S8192.size a + S8192.size a := by
  show i ∈ ((View.whole main_v0_2).slice (win0_26.rect t)).set ↔ _
  rw [View.set_slice_whole, Rect.mem_set_unit]
  exact Iff.rfl

/-- Row `r` is in the block of the point whose block index is `r / 8192`. -/
theorem cover26 (i : S1048576.Idx) :
    ∃ t : Fin cfg0.N, (cfg0.win 26).flush t = true ∧ i ∈ ((cfg0.win 26).blk t).view.set := by
  have hi0 : (i 0).val < 1048576 := (i 0).isLt
  obtain ⟨t, ht⟩ := idx_onto ⟨(i 0).val / 8192, by omega⟩
  have q0 : win0_24.index t (0 : Fin 2) = (i 0).val / 8192 := ht
  obtain ⟨-, -, -, -, -, -, -, -, -, -, e10⟩ := idx_facts t
  refine ⟨t, flush0_26 t, ?_⟩
  rw [mem_blk26]
  intro a
  match a with
  | ⟨0, _⟩ => show win0_26.index t (0 : Fin 1) * 8192 ≤ (i 0).val ∧ (i 0).val < win0_26.index t (0 : Fin 1) * 8192 + 8192; omega

/-- After the run the log-probabilities' array is the specification's. -/
theorem final26 (c : Dev nD) : (dats m 0 c).arrAt 26 cfg0.N = GlogpM m c := by
  exact (dats m 0 c).arrAt_eq_of_cover 26 (GlogpM m c) (fun t _ => flushed26_eq m c t) cover26

end Cert.KernelIdeal.RowValue

end
-- ==== Proof.RefOps.lean ====
/- `hlo rfl (StableHlo.<op>) (fun _ => .ret ⟨⟩)` of the windows main_part0 and main_part1, in order, as `<op>`), and the
   builders' facts that each operation touches TensorCore buffers only, in the same order; then the same list in eight consecutive
   windows with the buffers each writes. A table, copied; no argument. -/
import proofs.«124978_j13331578487072_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 100 operations, in order. -/
abbrev ops : List (HloOp τ sig (Elt F)) :=
  [ nullary main_c (fun i => lit0 (S6.rowMajor i)),
    nullary main_c_0 (fun i => lit1 (S6.rowMajor i)),
    unary main_arg0 main_v0 ((extractStridedSlice S1048576x2 ![0, 6] · slices_S1048576x8_S1048576x2_0_6) : (⟨S1048576x8, .f32⟩ : BufTy).Contents (Elt F) → (⟨S1048576x2, .f32⟩ : BufTy).Contents (Elt F)),
    unary main_arg0 main_v1 ((extractStridedSlice S1048576x2 ![0, 0] · slices_S1048576x8_S1048576x2_0_0) : (⟨S1048576x8, .f32⟩ : BufTy).Contents (Elt F) → (⟨S1048576x2, .f32⟩ : BufTy).Contents (Elt F)),
    unary main_v0 main_v2 (broadcastInDim S1x1048576x2 ![1, 2] bcast_S1048576x2_S1x1048576x2_1_2 : (⟨S1048576x2, .f32⟩ : BufTy).Contents (Elt F) → (⟨S1x1048576x2, .f32⟩ : BufTy).Contents (Elt F)),
    unary main_arg1 main_v3 (broadcastInDim S1x1048576x2 ![1, 2] bcast_S1048576x2_S1x1048576x2_1_2 : (⟨S1048576x2, .f32⟩ : BufTy).Contents (Elt F) → (⟨S1x1048576x2, .f32⟩ : BufTy).Contents (Elt F)),
    unary main_arg2 main_v4 (broadcastInDim S1x1048576x2 ![1, 2] bcast_S1048576x2_S1x1048576x2_1_2 : (⟨S1048576x2, .f32⟩ : BufTy).Contents (Elt F) → (⟨S1x1048576x2, .f32⟩ : BufTy).Contents (Elt F)),
    unary main_v1 main_v5 (broadcastInDim S1x1048576x2 ![1, 2] bcast_S1048576x2_S1x1048576x2_1_2 : (⟨S1048576x2, .f32⟩ : BufTy).Contents (Elt F) → (⟨S1x1048576x2, .f32⟩ : BufTy).Contents (Elt F)),
    nary ![main_v2, main_v3, main_v4, main_v5] main_v6 (fun u => concatenate S4x1048576x2 0 [⟨S1x1048576x2, u 0⟩, ⟨S1x1048576x2, u 1⟩, ⟨S1x1048576x2, u 2⟩, ⟨S1x1048576x2, u 3⟩] concatenates_S1x1048576x2_S1x1048576x2_S1x1048576x2_S1x1048576x2_S4x1048576x2_d0),
    binary main_v6 main_arg3 main_v7 ((fun l r => Host.dotGeneral dot_S4x1048576x2_S4x2x4_S4x1048576x4_2_1_1_2_0_0 none l r) : (⟨S4x1048576x2, .f32⟩ : BufTy).Contents (Elt F) → (⟨S4x2x4, .f32⟩ : BufTy).Contents (Elt F) → (⟨S4x1048576x4, .f32⟩ : BufTy).Contents (Elt F)),
    nullary main_c_1 (constantI S_ 32 0#32),
    unary main_c_1 main_v8 (broadcastInDim S6 ![] bcast_S_S6 : (⟨S_, .i32⟩ : BufTy).Contents (Elt F) → (⟨S6, .i32⟩ : BufTy).Contents (Elt F)),
    binary main_c main_v8 main_v9 (cmpi .slt : (⟨S6, .i32⟩ : BufTy).Contents (Elt F) → (⟨S6, .i32⟩ : BufTy).Contents (Elt F) → (⟨S6, .i1⟩ : BufTy).Contents (Elt F)),
    nullary main_c_2 (constantI S_ 32 4#32),
    unary main_c_2 main_v10 (broadcastInDim S6 ![] bcast_S_S6 : (⟨S_, .i32⟩ : BufTy).Contents (Elt F) → (⟨S6, .i32⟩ : BufTy).Contents (Elt F)),
    binary main_c main_v10 main_v11 (addi : (⟨S6, .i32⟩ : BufTy).Contents (Elt F) → (⟨S6, .i32⟩ : BufTy).Contents (Elt F) → (⟨S6, .i32⟩ : BufTy).Contents (Elt F)),
    ternary main_v9 main_v11 main_c main_v12 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v12 main_v13 (broadcastInDim S6x1 ![0] bcast_S6_S6x1_0 : (⟨S6, .i32⟩ : BufTy).Contents (Elt F) → (⟨S6x1, .i32⟩ : BufTy).Contents (Elt F)),
    binary main_v6 main_v13 main_v14 ((fun x i => Host.gather gather_S4x1048576x2_S6x1_S6x1048576x2_12_0_n_n_0_1_110485762 x i) : (⟨S4x1048576x2, .f32⟩ : BufTy).Contents (Elt F) → (⟨S6x1, .i32⟩ : BufTy).Contents (Elt F) → (⟨S6x1048576x2, .f32⟩ : BufTy).Contents (Elt F)),
    binary main_v14 main_arg4 main_v15 ((fun l r => Host.dotGeneral dot_S6x1048576x2_S6x2x4_S6x1048576x4_2_1_1_2_0_0 none l r) : (⟨S6x1048576x2, .f32⟩ : BufTy).Contents (Elt F) → (⟨S6x2x4, .f32⟩ : BufTy).Contents (Elt F) → (⟨S6x1048576x4, .f32⟩ : BufTy).Contents (Elt F)),
    unary main_arg5 main_v16 (broadcastInDim S6x1048576x4 ![0, 1, 2] bcast_S6x1x4_S6x1048576x4_0_1_2 : (⟨S6x1x4, .f32⟩ : BufTy).Contents (Elt F) → (⟨S6x1048576x4, .f32⟩ : BufTy).Contents (Elt F)),
    binary main_v15 main_v16 main_v17 (addf : (⟨S6x1048576x4, .f32⟩ : BufTy).Contents (Elt F) → (⟨S6x1048576x4, .f32⟩ : BufTy).Contents (Elt F) → (⟨S6x1048576x4, .f32⟩ : BufTy).Contents (Elt F)),
    nullary main_cst (constant S_ .f32 0x00000000#32),
    unary main_cst main_v18 (broadcastInDim S4x1048576x4 ![] bcast_S_S4x1048576x4 : (⟨S_, .f32⟩ : BufTy).Contents (Elt F) → (⟨S4x1048576x4, .f32⟩ : BufTy).Contents (Elt F)),
    unary main_c_0 main_v19 (broadcastInDim S6x1 ![0] bcast_S6_S6x1_0 : (⟨S6, .i32⟩ : BufTy).Contents (Elt F) → (⟨S6x1, .i32⟩ : BufTy).Contents (Elt F)),
    ternary main_v18 main_v19 main_v17 main_v20 ((fun x i u => Host.scatterAdd scatter_S4x1048576x4_S6x1_S6x1048576x4_12_0_0_1 x i u) : (⟨S4x1048576x4, .f32⟩ : BufTy).Contents (Elt F) → (⟨S6x1, .i32⟩ : BufTy).Contents (Elt F) → (⟨S6x1048576x4, .f32⟩ : BufTy).Contents (Elt F) → (⟨S4x1048576x4, .f32⟩ : BufTy).Contents (Elt F)),
    unary main_arg6 main_v21 (broadcastInDim S4x1048576x4 ![0, 1, 2] bcast_S4x1x4_S4x1048576x4_0_1_2 : (⟨S4x1x4, .f32⟩ : BufTy).Contents (Elt F) → (⟨S4x1048576x4, .f32⟩ : BufTy).Contents (Elt F)),
    binary main_v20 main_v21 main_v22 (addf : (⟨S4x1048576x4, .f32⟩ : BufTy).Contents (Elt F) → (⟨S4x1048576x4, .f32⟩ : BufTy).Contents (Elt F) → (⟨S4x1048576x4, .f32⟩ : BufTy).Contents (Elt F)),
    binary main_v22 main_v7 main_v23 (addf : (⟨S4x1048576x4, .f32⟩ : BufTy).Contents (Elt F) → (⟨S4x1048576x4, .f32⟩ : BufTy).Contents (Elt F) → (⟨S4x1048576x4, .f32⟩ : BufTy).Contents (Elt F)),
    unary main_v23 main_v24 (Host.tanh : (⟨S4x1048576x4, .f32⟩ : BufTy).Contents (Elt F) → (⟨S4x1048576x4, .f32⟩ : BufTy).Contents (Elt F)),
    binary main_v24 main_arg7 main_v25 ((fun l r => Host.dotGeneral dot_S4x1048576x4_S4x4x1_S4x1048576x1_2_1_1_2_0_0 none l r) : (⟨S4x1048576x4, .f32⟩ : BufTy).Contents (Elt F) → (⟨S4x4x1, .f32⟩ : BufTy).Contents (Elt F) → (⟨S4x1048576x1, .f32⟩ : BufTy).Contents (Elt F)),
    nullary main_c_3 (constantI S_ 32 0#32),
    unary main_c_3 main_v26 (broadcastInDim S6 ![] bcast_S_S6 : (⟨S_, .i32⟩ : BufTy).Contents (Elt F) → (⟨S6, .i32⟩ : BufTy).Contents (Elt F)),
    binary main_c main_v26 main_v27 (cmpi .slt : (⟨S6, .i32⟩ : BufTy).Contents (Elt F) → (⟨S6, .i32⟩ : BufTy).Contents (Elt F) → (⟨S6, .i1⟩ : BufTy).Contents (Elt F)),
    nullary main_c_4 (constantI S_ 32 4#32),
    unary main_c_4 main_v28 (broadcastInDim S6 ![] bcast_S_S6 : (⟨S_, .i32⟩ : BufTy).Contents (Elt F) → (⟨S6, .i32⟩ : BufTy).Contents (Elt F)),
    binary main_c main_v28 main_v29 (addi : (⟨S6, .i32⟩ : BufTy).Contents (Elt F) → (⟨S6, .i32⟩ : BufTy).Contents (Elt F) → (⟨S6, .i32⟩ : BufTy).Contents (Elt F)),
    ternary main_v27 main_v29 main_c main_v30 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v30 main_v31 (broadcastInDim S6x1 ![0] bcast_S6_S6x1_0 : (⟨S6, .i32⟩ : BufTy).Contents (Elt F) → (⟨S6x1, .i32⟩ : BufTy).Contents (Elt F)),
    binary main_v24 main_v31 main_v32 ((fun x i => Host.gather gather_S4x1048576x4_S6x1_S6x1048576x4_12_0_n_n_0_1_110485764 x i) : (⟨S4x1048576x4, .f32⟩ : BufTy).Contents (Elt F) → (⟨S6x1, .i32⟩ : BufTy).Contents (Elt F) → (⟨S6x1048576x4, .f32⟩ : BufTy).Contents (Elt F)),
    binary main_v32 main_arg8 main_v33 ((fun l r => Host.dotGeneral dot_S6x1048576x4_S6x4x1_S6x1048576x1_2_1_1_2_0_0 none l r) : (⟨S6x1048576x4, .f32⟩ : BufTy).Contents (Elt F) → (⟨S6x4x1, .f32⟩ : BufTy).Contents (Elt F) → (⟨S6x1048576x1, .f32⟩ : BufTy).Contents (Elt F)),
    unary main_arg9 main_v34 (broadcastInDim S6x1048576x1 ![0, 1, 2] bcast_S6x1x1_S6x1048576x1_0_1_2 : (⟨S6x1x1, .f32⟩ : BufTy).Contents (Elt F) → (⟨S6x1048576x1, .f32⟩ : BufTy).Contents (Elt F)),
    binary main_v33 main_v34 main_v35 (addf : (⟨S6x1048576x1, .f32⟩ : BufTy).Contents (Elt F) → (⟨S6x1048576x1, .f32⟩ : BufTy).Contents (Elt F) → (⟨S6x1048576x1, .f32⟩ : BufTy).Contents (Elt F)),
    nullary main_cst_5 (constant S_ .f32 0x00000000#32),
    unary main_cst_5 main_v36 (broadcastInDim S4x1048576x1 ![] bcast_S_S4x1048576x1 : (⟨S_, .f32⟩ : BufTy).Contents (Elt F) → (⟨S4x1048576x1, .f32⟩ : BufTy).Contents (Elt F)),
    unary main_c_0 main_v37 (broadcastInDim S6x1 ![0] bcast_S6_S6x1_0 : (⟨S6, .i32⟩ : BufTy).Contents (Elt F) → (⟨S6x1, .i32⟩ : BufTy).Contents (Elt F)),
    ternary main_v36 main_v37 main_v35 main_v38 ((fun x i u => Host.scatterAdd scatter_S4x1048576x1_S6x1_S6x1048576x1_12_0_0_1 x i u) : (⟨S4x1048576x1, .f32⟩ : BufTy).Contents (Elt F) → (⟨S6x1, .i32⟩ : BufTy).Contents (Elt F) → (⟨S6x1048576x1, .f32⟩ : BufTy).Contents (Elt F) → (⟨S4x1048576x1, .f32⟩ : BufTy).Contents (Elt F)),
    unary main_arg10 main_v39 (broadcastInDim S4x1048576x1 ![0, 1, 2] bcast_S4x1x1_S4x1048576x1_0_1_2 : (⟨S4x1x1, .f32⟩ : BufTy).Contents (Elt F) → (⟨S4x1048576x1, .f32⟩ : BufTy).Contents (Elt F)),
    binary main_v38 main_v39 main_v40 (addf : (⟨S4x1048576x1, .f32⟩ : BufTy).Contents (Elt F) → (⟨S4x1048576x1, .f32⟩ : BufTy).Contents (Elt F) → (⟨S4x1048576x1, .f32⟩ : BufTy).Contents (Elt F)),
    binary main_v40 main_v25 main_v41 (addf : (⟨S4x1048576x1, .f32⟩ : BufTy).Contents (Elt F) → (⟨S4x1048576x1, .f32⟩ : BufTy).Contents (Elt F) → (⟨S4x1048576x1, .f32⟩ : BufTy).Contents (Elt F)),
    reshape main_v41 main_v42 rfl shapeCasts_S4x1048576x1_S4x1048576,
    unary main_v42 main_v43 (Host.tanh : (⟨S4x1048576, .f32⟩ : BufTy).Contents (Elt F) → (⟨S4x1048576, .f32⟩ : BufTy).Contents (Elt F)),
    unary main_v43 main_v44 ((transpose S1048576x4 [1, 0] · transposes_S4x1048576_S1048576x4_1_0) : (⟨S4x1048576, .f32⟩ : BufTy).Contents (Elt F) → (⟨S1048576x4, .f32⟩ : BufTy).Contents (Elt F)),
    binary main_v44 main_arg11 main_v45 ((fun l r => Host.dotGeneral dot_S1048576x4_S4x4_S1048576x4_1_0_0_1_n_n none l r) : (⟨S1048576x4, .f32⟩ : BufTy).Contents (Elt F) → (⟨S4x4, .f32⟩ : BufTy).Contents (Elt F) → (⟨S1048576x4, .f32⟩ : BufTy).Contents (Elt F)),
    unary main_arg12 main_v46 (broadcastInDim S1x4 ![1] bcast_S4_S1x4_1 : (⟨S4, .f32⟩ : BufTy).Contents (Elt F) → (⟨S1x4, .f32⟩ : BufTy).Contents (Elt F)),
    unary main_v46 main_v47 (broadcastInDim S1048576x4 ![0, 1] bcast_S1x4_S1048576x4_0_1 : (⟨S1x4, .f32⟩ : BufTy).Contents (Elt F) → (⟨S1048576x4, .f32⟩ : BufTy).Contents (Elt F)),
    binary main_v45 main_v47 main_v48 (addf : (⟨S1048576x4, .f32⟩ : BufTy).Contents (Elt F) → (⟨S1048576x4, .f32⟩ : BufTy).Contents (Elt F) → (⟨S1048576x4, .f32⟩ : BufTy).Contents (Elt F)),
    unary main_v48 main_v49 (Host.tanh : (⟨S1048576x4, .f32⟩ : BufTy).Contents (Elt F) → (⟨S1048576x4, .f32⟩ : BufTy).Contents (Elt F)),
    unary main_arg0 main_v50 ((extractStridedSlice S1048576x4 ![0, 2] · slices_S1048576x8_S1048576x4_0_2) : (⟨S1048576x8, .f32⟩ : BufTy).Contents (Elt F) → (⟨S1048576x4, .f32⟩ : BufTy).Contents (Elt F)),
    binary main_v49 main_v50 main_v51 ((fun a b => concatenate S1048576x8 1 [⟨S1048576x4, a⟩, ⟨S1048576x4, b⟩] concatenates_S1048576x4_S1048576x4_S1048576x8_d1) : (⟨S1048576x4, .f32⟩ : BufTy).Contents (Elt F) → (⟨S1048576x4, .f32⟩ : BufTy).Contents (Elt F) → (⟨S1048576x8, .f32⟩ : BufTy).Contents (Elt F)),
    binary main_v51 main_arg13 main_v52 ((fun l r => Host.dotGeneral dot_S1048576x8_S8x64_S1048576x64_1_0_0_1_n_n none l r) : (⟨S1048576x8, .f32⟩ : BufTy).Contents (Elt F) → (⟨S8x64, .f32⟩ : BufTy).Contents (Elt F) → (⟨S1048576x64, .f32⟩ : BufTy).Contents (Elt F)),
    unary main_arg14 main_v53 (broadcastInDim S1x64 ![1] bcast_S64_S1x64_1 : (⟨S64, .f32⟩ : BufTy).Contents (Elt F) → (⟨S1x64, .f32⟩ : BufTy).Contents (Elt F)),
    unary main_v53 main_v54 (broadcastInDim S1048576x64 ![0, 1] bcast_S1x64_S1048576x64_0_1 : (⟨S1x64, .f32⟩ : BufTy).Contents (Elt F) → (⟨S1048576x64, .f32⟩ : BufTy).Contents (Elt F)),
    binary main_v52 main_v54 main_v55 (addf : (⟨S1048576x64, .f32⟩ : BufTy).Contents (Elt F) → (⟨S1048576x64, .f32⟩ : BufTy).Contents (Elt F) → (⟨S1048576x64, .f32⟩ : BufTy).Contents (Elt F)),
    unary main_v55 main_v56 (Host.tanh : (⟨S1048576x64, .f32⟩ : BufTy).Contents (Elt F) → (⟨S1048576x64, .f32⟩ : BufTy).Contents (Elt F)),
    binary main_v56 main_arg15 main_v57 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg16 main_v58 (broadcastInDim S1x64 ![1] bcast_S64_S1x64_1 : (⟨S64, .f32⟩ : BufTy).Contents (Elt F) → (⟨S1x64, .f32⟩ : BufTy).Contents (Elt F)),
    unary main_v58 main_v59 (broadcastInDim S1048576x64 ![0, 1] bcast_S1x64_S1048576x64_0_1 : (⟨S1x64, .f32⟩ : BufTy).Contents (Elt F) → (⟨S1048576x64, .f32⟩ : BufTy).Contents (Elt F)),
    binary main_v57 main_v59 main_v60 (addf : (⟨S1048576x64, .f32⟩ : BufTy).Contents (Elt F) → (⟨S1048576x64, .f32⟩ : BufTy).Contents (Elt F) → (⟨S1048576x64, .f32⟩ : BufTy).Contents (Elt F)),
    unary main_v60 main_v61 (Host.tanh : (⟨S1048576x64, .f32⟩ : BufTy).Contents (Elt F) → (⟨S1048576x64, .f32⟩ : BufTy).Contents (Elt F)),
    binary main_v61 main_arg17 main_v62 ((fun l r => Host.dotGeneral dot_S1048576x64_S64x2_S1048576x2_1_0_0_1_n_n none l r) : (⟨S1048576x64, .f32⟩ : BufTy).Contents (Elt F) → (⟨S64x2, .f32⟩ : BufTy).Contents (Elt F) → (⟨S1048576x2, .f32⟩ : BufTy).Contents (Elt F)),
    unary main_arg18 main_v63 (broadcastInDim S1x2 ![1] bcast_S2_S1x2_1 : (⟨S2, .f32⟩ : BufTy).Contents (Elt F) → (⟨S1x2, .f32⟩ : BufTy).Contents (Elt F)),
    unary main_v63 main_v64 (broadcastInDim S1048576x2 ![0, 1] bcast_S1x2_S1048576x2_0_1 : (⟨S1x2, .f32⟩ : BufTy).Contents (Elt F) → (⟨S1048576x2, .f32⟩ : BufTy).Contents (Elt F)),
    binary main_v62 main_v64 main_v65 (addf : (⟨S1048576x2, .f32⟩ : BufTy).Contents (Elt F) → (⟨S1048576x2, .f32⟩ : BufTy).Contents (Elt F) → (⟨S1048576x2, .f32⟩ : BufTy).Contents (Elt F)),
    unary main_arg19 main_v66 (Host.exp : (⟨S2, .f32⟩ : BufTy).Contents (Elt F) → (⟨S2, .f32⟩ : BufTy).Contents (Elt F)),
    binary main_v65 main_v65 main_v67 (subf : (⟨S1048576x2, .f32⟩ : BufTy).Contents (Elt F) → (⟨S1048576x2, .f32⟩ : BufTy).Contents (Elt F) → (⟨S1048576x2, .f32⟩ : BufTy).Contents (Elt F)),
    unary main_v66 main_v68 (broadcastInDim S1x2 ![1] bcast_S2_S1x2_1 : (⟨S2, .f32⟩ : BufTy).Contents (Elt F) → (⟨S1x2, .f32⟩ : BufTy).Contents (Elt F)),
    unary main_v68 main_v69 (broadcastInDim S1048576x2 ![0, 1] bcast_S1x2_S1048576x2_0_1 : (⟨S1x2, .f32⟩ : BufTy).Contents (Elt F) → (⟨S1048576x2, .f32⟩ : BufTy).Contents (Elt F)),
    binary main_v67 main_v69 main_v70 (Host.divf : (⟨S1048576x2, .f32⟩ : BufTy).Contents (Elt F) → (⟨S1048576x2, .f32⟩ : BufTy).Contents (Elt F) → (⟨S1048576x2, .f32⟩ : BufTy).Contents (Elt F)),
    binary main_v70 main_v70 main_v71 (mulf : (⟨S1048576x2, .f32⟩ : BufTy).Contents (Elt F) → (⟨S1048576x2, .f32⟩ : BufTy).Contents (Elt F) → (⟨S1048576x2, .f32⟩ : BufTy).Contents (Elt F)),
    nullary main_cst_6 (constant S_ .f32 0xBF000000#32),
    unary main_cst_6 main_v72 (broadcastInDim S1048576x2 ![] bcast_S_S1048576x2 : (⟨S_, .f32⟩ : BufTy).Contents (Elt F) → (⟨S1048576x2, .f32⟩ : BufTy).Contents (Elt F)),
    binary main_v72 main_v71 main_v73 (mulf : (⟨S1048576x2, .f32⟩ : BufTy).Contents (Elt F) → (⟨S1048576x2, .f32⟩ : BufTy).Contents (Elt F) → (⟨S1048576x2, .f32⟩ : BufTy).Contents (Elt F)),
    unary main_arg19 main_v74 (broadcastInDim S1x2 ![1] bcast_S2_S1x2_1 : (⟨S2, .f32⟩ : BufTy).Contents (Elt F) → (⟨S1x2, .f32⟩ : BufTy).Contents (Elt F)),
    unary main_v74 main_v75 (broadcastInDim S1048576x2 ![0, 1] bcast_S1x2_S1048576x2_0_1 : (⟨S1x2, .f32⟩ : BufTy).Contents (Elt F) → (⟨S1048576x2, .f32⟩ : BufTy).Contents (Elt F)),
    binary main_v73 main_v75 main_v76 (subf : (⟨S1048576x2, .f32⟩ : BufTy).Contents (Elt F) → (⟨S1048576x2, .f32⟩ : BufTy).Contents (Elt F) → (⟨S1048576x2, .f32⟩ : BufTy).Contents (Elt F)),
    nullary main_cst_7 (constant S_ .f32 0x3F6B3F8E#32),
    unary main_cst_7 main_v77 (broadcastInDim S1048576x2 ![] bcast_S_S1048576x2 : (⟨S_, .f32⟩ : BufTy).Contents (Elt F) → (⟨S1048576x2, .f32⟩ : BufTy).Contents (Elt F)),
    binary main_v76 main_v77 main_v78 (subf : (⟨S1048576x2, .f32⟩ : BufTy).Contents (Elt F) → (⟨S1048576x2, .f32⟩ : BufTy).Contents (Elt F) → (⟨S1048576x2, .f32⟩ : BufTy).Contents (Elt F)),
    nullary main_cst_8 (constant S_ .f32 0x00000000#32),
    binary main_v78 main_cst_8 main_v79 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F)),
    binary main_v56 main_arg20 main_v80 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg21 main_v81 (broadcastInDim S1x64 ![1] bcast_S64_S1x64_1 : (⟨S64, .f32⟩ : BufTy).Contents (Elt F) → (⟨S1x64, .f32⟩ : BufTy).Contents (Elt F)),
    unary main_v81 main_v82 (broadcastInDim S1048576x64 ![0, 1] bcast_S1x64_S1048576x64_0_1 : (⟨S1x64, .f32⟩ : BufTy).Contents (Elt F) → (⟨S1048576x64, .f32⟩ : BufTy).Contents (Elt F)),
    binary main_v80 main_v82 main_v83 (addf : (⟨S1048576x64, .f32⟩ : BufTy).Contents (Elt F) → (⟨S1048576x64, .f32⟩ : BufTy).Contents (Elt F) → (⟨S1048576x64, .f32⟩ : BufTy).Contents (Elt F)),
    unary main_v83 main_v84 (Host.tanh : (⟨S1048576x64, .f32⟩ : BufTy).Contents (Elt F) → (⟨S1048576x64, .f32⟩ : BufTy).Contents (Elt F)),
    binary main_v84 main_arg22 main_v85 ((fun l r => Host.dotGeneral dot_S1048576x64_S64x1_S1048576x1_1_0_0_1_n_n none l r) : (⟨S1048576x64, .f32⟩ : BufTy).Contents (Elt F) → (⟨S64x1, .f32⟩ : BufTy).Contents (Elt F) → (⟨S1048576x1, .f32⟩ : BufTy).Contents (Elt F)),
    unary main_arg23 main_v86 (broadcastInDim S1x1 ![1] bcast_S1_S1x1_1 : (⟨S1, .f32⟩ : BufTy).Contents (Elt F) → (⟨S1x1, .f32⟩ : BufTy).Contents (Elt F)),
    unary main_v86 main_v87 (broadcastInDim S1048576x1 ![0, 1] bcast_S1x1_S1048576x1_0_1 : (⟨S1x1, .f32⟩ : BufTy).Contents (Elt F) → (⟨S1048576x1, .f32⟩ : BufTy).Contents (Elt F)),
    binary main_v85 main_v87 main_v88 (addf : (⟨S1048576x1, .f32⟩ : BufTy).Contents (Elt F) → (⟨S1048576x1, .f32⟩ : BufTy).Contents (Elt F) → (⟨S1048576x1, .f32⟩ : BufTy).Contents (Elt F)) ]

set_option maxRecDepth 8192 in
/-- Every operation touches TensorCore buffers only. -/
theorem ops_sub : (ops : List (HloOp τ sig (Elt F))).Forall fun op => op.bufs ⊆ tcRefs τ sig :=
  ⟨nullary_bufs_sub .., nullary_bufs_sub .., unary_bufs_sub .., unary_bufs_sub .., unary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., unary_bufs_sub .., binary_bufs_sub .., binary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., binary_bufs_sub .., nullary_bufs_sub .., unary_bufs_sub .., unary_bufs_sub .., ternary_bufs_sub .., unary_bufs_sub .., binary_bufs_sub .., binary_bufs_sub .., reshape_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., unary_bufs_sub .., unary_bufs_sub .., binary_bufs_sub .., binary_bufs_sub .., nullary_bufs_sub .., unary_bufs_sub .., binary_bufs_sub .., unary_bufs_sub .., unary_bufs_sub .., binary_bufs_sub .., nullary_bufs_sub .., unary_bufs_sub .., binary_bufs_sub .., nullary_bufs_sub .., binary_bufs_sub .., binary_bufs_sub .., unary_bufs_sub .., unary_bufs_sub .., binary_bufs_sub .., unary_bufs_sub .., binary_bufs_sub .., unary_bufs_sub .., unary_bufs_sub .., binary_bufs_sub ..⟩

/-- @main's operations 1 … 9. -/
def wA : List (HloOp τ sig (Elt F)) :=
  [ nullary main_c (fun i => lit0 (S6.rowMajor i)),
    nullary main_c_0 (fun i => lit1 (S6.rowMajor i)),
    unary main_arg0 main_v0 ((extractStridedSlice S1048576x2 ![0, 6] · slices_S1048576x8_S1048576x2_0_6) : (⟨S1048576x8, .f32⟩ : BufTy).Contents (Elt F) → (⟨S1048576x2, .f32⟩ : BufTy).Contents (Elt F)),
    unary main_arg0 main_v1 ((extractStridedSlice S1048576x2 ![0, 0] · slices_S1048576x8_S1048576x2_0_0) : (⟨S1048576x8, .f32⟩ : BufTy).Contents (Elt F) → (⟨S1048576x2, .f32⟩ : BufTy).Contents (Elt F)),
    unary main_v0 main_v2 (broadcastInDim S1x1048576x2 ![1, 2] bcast_S1048576x2_S1x1048576x2_1_2 : (⟨S1048576x2, .f32⟩ : BufTy).Contents (Elt F) → (⟨S1x1048576x2, .f32⟩ : BufTy).Contents (Elt F)),
    unary main_arg1 main_v3 (broadcastInDim S1x1048576x2 ![1, 2] bcast_S1048576x2_S1x1048576x2_1_2 : (⟨S1048576x2, .f32⟩ : BufTy).Contents (Elt F) → (⟨S1x1048576x2, .f32⟩ : BufTy).Contents (Elt F)),
    unary main_arg2 main_v4 (broadcastInDim S1x1048576x2 ![1, 2] bcast_S1048576x2_S1x1048576x2_1_2 : (⟨S1048576x2, .f32⟩ : BufTy).Contents (Elt F) → (⟨S1x1048576x2, .f32⟩ : BufTy).Contents (Elt F)),
    unary main_v1 main_v5 (broadcastInDim S1x1048576x2 ![1, 2] bcast_S1048576x2_S1x1048576x2_1_2 : (⟨S1048576x2, .f32⟩ : BufTy).Contents (Elt F) → (⟨S1x1048576x2, .f32⟩ : BufTy).Contents (Elt F)),
    nary ![main_v2, main_v3, main_v4, main_v5] main_v6 (fun u => concatenate S4x1048576x2 0 [⟨S1x1048576x2, u 0⟩, ⟨S1x1048576x2, u 1⟩, ⟨S1x1048576x2, u 2⟩, ⟨S1x1048576x2, u 3⟩] concatenates_S1x1048576x2_S1x1048576x2_S1x1048576x2_S1x1048576x2_S4x1048576x2_d0) ]
/-- The buffers those operations write. -/
abbrev wA_W : List (Ref sig .tc) := [main_c, main_c_0, main_v0, main_v1, main_v2, main_v3, main_v4, main_v5, main_v6]
set_option maxRecDepth 8192 in
theorem wA_writes : (wA : List (HloOp τ sig (Elt F))).Forall fun op => op.writes ⊆ (wA_W.map (Proc.devRef (τ := τ) .tc)).toFinset := by
  unfold wA
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 10 … 30. -/
def wB : List (HloOp τ sig (Elt F)) :=
  [ binary main_v6 main_arg3 main_v7 ((fun l r => Host.dotGeneral dot_S4x1048576x2_S4x2x4_S4x1048576x4_2_1_1_2_0_0 none l r) : (⟨S4x1048576x2, .f32⟩ : BufTy).Contents (Elt F) → (⟨S4x2x4, .f32⟩ : BufTy).Contents (Elt F) → (⟨S4x1048576x4, .f32⟩ : BufTy).Contents (Elt F)),
    nullary main_c_1 (constantI S_ 32 0#32),
    unary main_c_1 main_v8 (broadcastInDim S6 ![] bcast_S_S6 : (⟨S_, .i32⟩ : BufTy).Contents (Elt F) → (⟨S6, .i32⟩ : BufTy).Contents (Elt F)),
    binary main_c main_v8 main_v9 (cmpi .slt : (⟨S6, .i32⟩ : BufTy).Contents (Elt F) → (⟨S6, .i32⟩ : BufTy).Contents (Elt F) → (⟨S6, .i1⟩ : BufTy).Contents (Elt F)),
    nullary main_c_2 (constantI S_ 32 4#32),
    unary main_c_2 main_v10 (broadcastInDim S6 ![] bcast_S_S6 : (⟨S_, .i32⟩ : BufTy).Contents (Elt F) → (⟨S6, .i32⟩ : BufTy).Contents (Elt F)),
    binary main_c main_v10 main_v11 (addi : (⟨S6, .i32⟩ : BufTy).Contents (Elt F) → (⟨S6, .i32⟩ : BufTy).Contents (Elt F) → (⟨S6, .i32⟩ : BufTy).Contents (Elt F)),
    ternary main_v9 main_v11 main_c main_v12 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v12 main_v13 (broadcastInDim S6x1 ![0] bcast_S6_S6x1_0 : (⟨S6, .i32⟩ : BufTy).Contents (Elt F) → (⟨S6x1, .i32⟩ : BufTy).Contents (Elt F)),
    binary main_v6 main_v13 main_v14 ((fun x i => Host.gather gather_S4x1048576x2_S6x1_S6x1048576x2_12_0_n_n_0_1_110485762 x i) : (⟨S4x1048576x2, .f32⟩ : BufTy).Contents (Elt F) → (⟨S6x1, .i32⟩ : BufTy).Contents (Elt F) → (⟨S6x1048576x2, .f32⟩ : BufTy).Contents (Elt F)),
    binary main_v14 main_arg4 main_v15 ((fun l r => Host.dotGeneral dot_S6x1048576x2_S6x2x4_S6x1048576x4_2_1_1_2_0_0 none l r) : (⟨S6x1048576x2, .f32⟩ : BufTy).Contents (Elt F) → (⟨S6x2x4, .f32⟩ : BufTy).Contents (Elt F) → (⟨S6x1048576x4, .f32⟩ : BufTy).Contents (Elt F)),
    unary main_arg5 main_v16 (broadcastInDim S6x1048576x4 ![0, 1, 2] bcast_S6x1x4_S6x1048576x4_0_1_2 : (⟨S6x1x4, .f32⟩ : BufTy).Contents (Elt F) → (⟨S6x1048576x4, .f32⟩ : BufTy).Contents (Elt F)),
    binary main_v15 main_v16 main_v17 (addf : (⟨S6x1048576x4, .f32⟩ : BufTy).Contents (Elt F) → (⟨S6x1048576x4, .f32⟩ : BufTy).Contents (Elt F) → (⟨S6x1048576x4, .f32⟩ : BufTy).Contents (Elt F)),
    nullary main_cst (constant S_ .f32 0x00000000#32),
    unary main_cst main_v18 (broadcastInDim S4x1048576x4 ![] bcast_S_S4x1048576x4 : (⟨S_, .f32⟩ : BufTy).Contents (Elt F) → (⟨S4x1048576x4, .f32⟩ : BufTy).Contents (Elt F)),
    unary main_c_0 main_v19 (broadcastInDim S6x1 ![0] bcast_S6_S6x1_0 : (⟨S6, .i32⟩ : BufTy).Contents (Elt F) → (⟨S6x1, .i32⟩ : BufTy).Contents (Elt F)),
    ternary main_v18 main_v19 main_v17 main_v20 ((fun x i u => Host.scatterAdd scatter_S4x1048576x4_S6x1_S6x1048576x4_12_0_0_1 x i u) : (⟨S4x1048576x4, .f32⟩ : BufTy).Contents (Elt F) → (⟨S6x1, .i32⟩ : BufTy).Contents (Elt F) → (⟨S6x1048576x4, .f32⟩ : BufTy).Contents (Elt F) → (⟨S4x1048576x4, .f32⟩ : BufTy).Contents (Elt F)),
    unary main_arg6 main_v21 (broadcastInDim S4x1048576x4 ![0, 1, 2] bcast_S4x1x4_S4x1048576x4_0_1_2 : (⟨S4x1x4, .f32⟩ : BufTy).Contents (Elt F) → (⟨S4x1048576x4, .f32⟩ : BufTy).Contents (Elt F)),
    binary main_v20 main_v21 main_v22 (addf : (⟨S4x1048576x4, .f32⟩ : BufTy).Contents (Elt F) → (⟨S4x1048576x4, .f32⟩ : BufTy).Contents (Elt F) → (⟨S4x1048576x4, .f32⟩ : BufTy).Contents (Elt F)),
    binary main_v22 main_v7 main_v23 (addf : (⟨S4x1048576x4, .f32⟩ : BufTy).Contents (Elt F) → (⟨S4x1048576x4, .f32⟩ : BufTy).Contents (Elt F) → (⟨S4x1048576x4, .f32⟩ : BufTy).Contents (Elt F)),
    unary main_v23 main_v24 (Host.tanh : (⟨S4x1048576x4, .f32⟩ : BufTy).Contents (Elt F) → (⟨S4x1048576x4, .f32⟩ : BufTy).Contents (Elt F)) ]
/-- The buffers those operations write. -/
abbrev wB_W : List (Ref sig .tc) := [main_v7, main_c_1, main_v8, main_v9, main_c_2, main_v10, main_v11, main_v12, main_v13, main_v14, main_v15, main_v16, main_v17, main_cst, main_v18, main_v19, main_v20, main_v21, main_v22, main_v23, main_v24]
set_option maxRecDepth 8192 in
theorem wB_writes : (wB : List (HloOp τ sig (Elt F))).Forall fun op => op.writes ⊆ (wB_W.map (Proc.devRef (τ := τ) .tc)).toFinset := by
  unfold wB
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 31 … 53. -/
def wC : List (HloOp τ sig (Elt F)) :=
  [ binary main_v24 main_arg7 main_v25 ((fun l r => Host.dotGeneral dot_S4x1048576x4_S4x4x1_S4x1048576x1_2_1_1_2_0_0 none l r) : (⟨S4x1048576x4, .f32⟩ : BufTy).Contents (Elt F) → (⟨S4x4x1, .f32⟩ : BufTy).Contents (Elt F) → (⟨S4x1048576x1, .f32⟩ : BufTy).Contents (Elt F)),
    nullary main_c_3 (constantI S_ 32 0#32),
    unary main_c_3 main_v26 (broadcastInDim S6 ![] bcast_S_S6 : (⟨S_, .i32⟩ : BufTy).Contents (Elt F) → (⟨S6, .i32⟩ : BufTy).Contents (Elt F)),
    binary main_c main_v26 main_v27 (cmpi .slt : (⟨S6, .i32⟩ : BufTy).Contents (Elt F) → (⟨S6, .i32⟩ : BufTy).Contents (Elt F) → (⟨S6, .i1⟩ : BufTy).Contents (Elt F)),
    nullary main_c_4 (constantI S_ 32 4#32),
    unary main_c_4 main_v28 (broadcastInDim S6 ![] bcast_S_S6 : (⟨S_, .i32⟩ : BufTy).Contents (Elt F) → (⟨S6, .i32⟩ : BufTy).Contents (Elt F)),
    binary main_c main_v28 main_v29 (addi : (⟨S6, .i32⟩ : BufTy).Contents (Elt F) → (⟨S6, .i32⟩ : BufTy).Contents (Elt F) → (⟨S6, .i32⟩ : BufTy).Contents (Elt F)),
    ternary main_v27 main_v29 main_c main_v30 (select : (⟨S6, .i1⟩ : BufTy).Contents (Elt F) → (⟨S6, .i32⟩ : BufTy).Contents (Elt F) → (⟨S6, .i32⟩ : BufTy).Contents (Elt F) → (⟨S6, .i32⟩ : BufTy).Contents (Elt F)),
    unary main_v30 main_v31 (broadcastInDim S6x1 ![0] bcast_S6_S6x1_0 : (⟨S6, .i32⟩ : BufTy).Contents (Elt F) → (⟨S6x1, .i32⟩ : BufTy).Contents (Elt F)),
    binary main_v24 main_v31 main_v32 ((fun x i => Host.gather gather_S4x1048576x4_S6x1_S6x1048576x4_12_0_n_n_0_1_110485764 x i) : (⟨S4x1048576x4, .f32⟩ : BufTy).Contents (Elt F) → (⟨S6x1, .i32⟩ : BufTy).Contents (Elt F) → (⟨S6x1048576x4, .f32⟩ : BufTy).Contents (Elt F)),
    binary main_v32 main_arg8 main_v33 ((fun l r => Host.dotGeneral dot_S6x1048576x4_S6x4x1_S6x1048576x1_2_1_1_2_0_0 none l r) : (⟨S6x1048576x4, .f32⟩ : BufTy).Contents (Elt F) → (⟨S6x4x1, .f32⟩ : BufTy).Contents (Elt F) → (⟨S6x1048576x1, .f32⟩ : BufTy).Contents (Elt F)),
    unary main_arg9 main_v34 (broadcastInDim S6x1048576x1 ![0, 1, 2] bcast_S6x1x1_S6x1048576x1_0_1_2 : (⟨S6x1x1, .f32⟩ : BufTy).Contents (Elt F) → (⟨S6x1048576x1, .f32⟩ : BufTy).Contents (Elt F)),
    binary main_v33 main_v34 main_v35 (addf : (⟨S6x1048576x1, .f32⟩ : BufTy).Contents (Elt F) → (⟨S6x1048576x1, .f32⟩ : BufTy).Contents (Elt F) → (⟨S6x1048576x1, .f32⟩ : BufTy).Contents (Elt F)),
    nullary main_cst_5 (constant S_ .f32 0x00000000#32),
    unary main_cst_5 main_v36 (broadcastInDim S4x1048576x1 ![] bcast_S_S4x1048576x1 : (⟨S_, .f32⟩ : BufTy).Contents (Elt F) → (⟨S4x1048576x1, .f32⟩ : BufTy).Contents (Elt F)),
    unary main_c_0 main_v37 (broadcastInDim S6x1 ![0] bcast_S6_S6x1_0 : (⟨S6, .i32⟩ : BufTy).Contents (Elt F) → (⟨S6x1, .i32⟩ : BufTy).Contents (Elt F)),
    ternary main_v36 main_v37 main_v35 main_v38 ((fun x i u => Host.scatterAdd scatter_S4x1048576x1_S6x1_S6x1048576x1_12_0_0_1 x i u) : (⟨S4x1048576x1, .f32⟩ : BufTy).Contents (Elt F) → (⟨S6x1, .i32⟩ : BufTy).Contents (Elt F) → (⟨S6x1048576x1, .f32⟩ : BufTy).Contents (Elt F) → (⟨S4x1048576x1, .f32⟩ : BufTy).Contents (Elt F)),
    unary main_arg10 main_v39 (broadcastInDim S4x1048576x1 ![0, 1, 2] bcast_S4x1x1_S4x1048576x1_0_1_2 : (⟨S4x1x1, .f32⟩ : BufTy).Contents (Elt F) → (⟨S4x1048576x1, .f32⟩ : BufTy).Contents (Elt F)),
    binary main_v38 main_v39 main_v40 (addf : (⟨S4x1048576x1, .f32⟩ : BufTy).Contents (Elt F) → (⟨S4x1048576x1, .f32⟩ : BufTy).Contents (Elt F) → (⟨S4x1048576x1, .f32⟩ : BufTy).Contents (Elt F)),
    binary main_v40 main_v25 main_v41 (addf : (⟨S4x1048576x1, .f32⟩ : BufTy).Contents (Elt F) → (⟨S4x1048576x1, .f32⟩ : BufTy).Contents (Elt F) → (⟨S4x1048576x1, .f32⟩ : BufTy).Contents (Elt F)),
    reshape main_v41 main_v42 rfl shapeCasts_S4x1048576x1_S4x1048576,
    unary main_v42 main_v43 (Host.tanh : (⟨S4x1048576, .f32⟩ : BufTy).Contents (Elt F) → (⟨S4x1048576, .f32⟩ : BufTy).Contents (Elt F)),
    unary main_v43 main_v44 ((transpose S1048576x4 [1, 0] · transposes_S4x1048576_S1048576x4_1_0) : (⟨S4x1048576, .f32⟩ : BufTy).Contents (Elt F) → (⟨S1048576x4, .f32⟩ : BufTy).Contents (Elt F)) ]
/-- The buffers those operations write. -/
abbrev wC_W : List (Ref sig .tc) := [main_v25, main_c_3, main_v26, main_v27, main_c_4, main_v28, main_v29, main_v30, main_v31, main_v32, main_v33, main_v34, main_v35, main_cst_5, main_v36, main_v37, main_v38, main_v39, main_v40, main_v41, main_v42, main_v43, main_v44]
set_option maxRecDepth 8192 in
theorem wC_writes : (wC : List (HloOp τ sig (Elt F))).Forall fun op => op.writes ⊆ (wC_W.map (Proc.devRef (τ := τ) .tc)).toFinset := by
  unfold wC
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 54 … 60. -/
def wD : List (HloOp τ sig (Elt F)) :=
  [ binary main_v44 main_arg11 main_v45 ((fun l r => Host.dotGeneral dot_S1048576x4_S4x4_S1048576x4_1_0_0_1_n_n none l r) : (⟨S1048576x4, .f32⟩ : BufTy).Contents (Elt F) → (⟨S4x4, .f32⟩ : BufTy).Contents (Elt F) → (⟨S1048576x4, .f32⟩ : BufTy).Contents (Elt F)),
    unary main_arg12 main_v46 (broadcastInDim S1x4 ![1] bcast_S4_S1x4_1 : (⟨S4, .f32⟩ : BufTy).Contents (Elt F) → (⟨S1x4, .f32⟩ : BufTy).Contents (Elt F)),
    unary main_v46 main_v47 (broadcastInDim S1048576x4 ![0, 1] bcast_S1x4_S1048576x4_0_1 : (⟨S1x4, .f32⟩ : BufTy).Contents (Elt F) → (⟨S1048576x4, .f32⟩ : BufTy).Contents (Elt F)),
    binary main_v45 main_v47 main_v48 (addf : (⟨S1048576x4, .f32⟩ : BufTy).Contents (Elt F) → (⟨S1048576x4, .f32⟩ : BufTy).Contents (Elt F) → (⟨S1048576x4, .f32⟩ : BufTy).Contents (Elt F)),
    unary main_v48 main_v49 (Host.tanh : (⟨S1048576x4, .f32⟩ : BufTy).Contents (Elt F) → (⟨S1048576x4, .f32⟩ : BufTy).Contents (Elt F)),
    unary main_arg0 main_v50 ((extractStridedSlice S1048576x4 ![0, 2] · slices_S1048576x8_S1048576x4_0_2) : (⟨S1048576x8, .f32⟩ : BufTy).Contents (Elt F) → (⟨S1048576x4, .f32⟩ : BufTy).Contents (Elt F)),
    binary main_v49 main_v50 main_v51 ((fun a b => concatenate S1048576x8 1 [⟨S1048576x4, a⟩, ⟨S1048576x4, b⟩] concatenates_S1048576x4_S1048576x4_S1048576x8_d1) : (⟨S1048576x4, .f32⟩ : BufTy).Contents (Elt F) → (⟨S1048576x4, .f32⟩ : BufTy).Contents (Elt F) → (⟨S1048576x8, .f32⟩ : BufTy).Contents (Elt F)) ]
/-- The buffers those operations write. -/
abbrev wD_W : List (Ref sig .tc) := [main_v45, main_v46, main_v47, main_v48, main_v49, main_v50, main_v51]
set_option maxRecDepth 8192 in
theorem wD_writes : (wD : List (HloOp τ sig (Elt F))).Forall fun op => op.writes ⊆ (wD_W.map (Proc.devRef (τ := τ) .tc)).toFinset := by
  unfold wD
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 61 … 65. -/
def wE : List (HloOp τ sig (Elt F)) :=
  [ binary main_v51 main_arg13 main_v52 ((fun l r => Host.dotGeneral dot_S1048576x8_S8x64_S1048576x64_1_0_0_1_n_n none l r) : (⟨S1048576x8, .f32⟩ : BufTy).Contents (Elt F) → (⟨S8x64, .f32⟩ : BufTy).Contents (Elt F) → (⟨S1048576x64, .f32⟩ : BufTy).Contents (Elt F)),
    unary main_arg14 main_v53 (broadcastInDim S1x64 ![1] bcast_S64_S1x64_1 : (⟨S64, .f32⟩ : BufTy).Contents (Elt F) → (⟨S1x64, .f32⟩ : BufTy).Contents (Elt F)),
    unary main_v53 main_v54 (broadcastInDim S1048576x64 ![0, 1] bcast_S1x64_S1048576x64_0_1 : (⟨S1x64, .f32⟩ : BufTy).Contents (Elt F) → (⟨S1048576x64, .f32⟩ : BufTy).Contents (Elt F)),
    binary main_v52 main_v54 main_v55 (addf : (⟨S1048576x64, .f32⟩ : BufTy).Contents (Elt F) → (⟨S1048576x64, .f32⟩ : BufTy).Contents (Elt F) → (⟨S1048576x64, .f32⟩ : BufTy).Contents (Elt F)),
    unary main_v55 main_v56 (Host.tanh : (⟨S1048576x64, .f32⟩ : BufTy).Contents (Elt F) → (⟨S1048576x64, .f32⟩ : BufTy).Contents (Elt F)) ]
/-- The buffers those operations write. -/
abbrev wE_W : List (Ref sig .tc) := [main_v52, main_v53, main_v54, main_v55, main_v56]
set_option maxRecDepth 8192 in
theorem wE_writes : (wE : List (HloOp τ sig (Elt F))).Forall fun op => op.writes ⊆ (wE_W.map (Proc.devRef (τ := τ) .tc)).toFinset := by
  unfold wE
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 66 … 74. -/
def wF : List (HloOp τ sig (Elt F)) :=
  [ binary main_v56 main_arg15 main_v57 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg16 main_v58 (broadcastInDim S1x64 ![1] bcast_S64_S1x64_1 : (⟨S64, .f32⟩ : BufTy).Contents (Elt F) → (⟨S1x64, .f32⟩ : BufTy).Contents (Elt F)),
    unary main_v58 main_v59 (broadcastInDim S1048576x64 ![0, 1] bcast_S1x64_S1048576x64_0_1 : (⟨S1x64, .f32⟩ : BufTy).Contents (Elt F) → (⟨S1048576x64, .f32⟩ : BufTy).Contents (Elt F)),
    binary main_v57 main_v59 main_v60 (addf : (⟨S1048576x64, .f32⟩ : BufTy).Contents (Elt F) → (⟨S1048576x64, .f32⟩ : BufTy).Contents (Elt F) → (⟨S1048576x64, .f32⟩ : BufTy).Contents (Elt F)),
    unary main_v60 main_v61 (Host.tanh : (⟨S1048576x64, .f32⟩ : BufTy).Contents (Elt F) → (⟨S1048576x64, .f32⟩ : BufTy).Contents (Elt F)),
    binary main_v61 main_arg17 main_v62 ((fun l r => Host.dotGeneral dot_S1048576x64_S64x2_S1048576x2_1_0_0_1_n_n none l r) : (⟨S1048576x64, .f32⟩ : BufTy).Contents (Elt F) → (⟨S64x2, .f32⟩ : BufTy).Contents (Elt F) → (⟨S1048576x2, .f32⟩ : BufTy).Contents (Elt F)),
    unary main_arg18 main_v63 (broadcastInDim S1x2 ![1] bcast_S2_S1x2_1 : (⟨S2, .f32⟩ : BufTy).Contents (Elt F) → (⟨S1x2, .f32⟩ : BufTy).Contents (Elt F)),
    unary main_v63 main_v64 (broadcastInDim S1048576x2 ![0, 1] bcast_S1x2_S1048576x2_0_1 : (⟨S1x2, .f32⟩ : BufTy).Contents (Elt F) → (⟨S1048576x2, .f32⟩ : BufTy).Contents (Elt F)),
    binary main_v62 main_v64 main_v65 (addf : (⟨S1048576x2, .f32⟩ : BufTy).Contents (Elt F) → (⟨S1048576x2, .f32⟩ : BufTy).Contents (Elt F) → (⟨S1048576x2, .f32⟩ : BufTy).Contents (Elt F)) ]
/-- The buffers those operations write. -/
abbrev wF_W : List (Ref sig .tc) := [main_v57, main_v58, main_v59, main_v60, main_v61, main_v62, main_v63, main_v64, main_v65]
set_option maxRecDepth 8192 in
theorem wF_writes : (wF : List (HloOp τ sig (Elt F))).Forall fun op => op.writes ⊆ (wF_W.map (Proc.devRef (τ := τ) .tc)).toFinset := by
  unfold wF
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 75 … 91. -/
def wG : List (HloOp τ sig (Elt F)) :=
  [ unary main_arg19 main_v66 (Host.exp : (⟨S2, .f32⟩ : BufTy).Contents (Elt F) → (⟨S2, .f32⟩ : BufTy).Contents (Elt F)),
    binary main_v65 main_v65 main_v67 (subf : (⟨S1048576x2, .f32⟩ : BufTy).Contents (Elt F) → (⟨S1048576x2, .f32⟩ : BufTy).Contents (Elt F) → (⟨S1048576x2, .f32⟩ : BufTy).Contents (Elt F)),
    unary main_v66 main_v68 (broadcastInDim S1x2 ![1] bcast_S2_S1x2_1 : (⟨S2, .f32⟩ : BufTy).Contents (Elt F) → (⟨S1x2, .f32⟩ : BufTy).Contents (Elt F)),
    unary main_v68 main_v69 (broadcastInDim S1048576x2 ![0, 1] bcast_S1x2_S1048576x2_0_1 : (⟨S1x2, .f32⟩ : BufTy).Contents (Elt F) → (⟨S1048576x2, .f32⟩ : BufTy).Contents (Elt F)),
    binary main_v67 main_v69 main_v70 (Host.divf : (⟨S1048576x2, .f32⟩ : BufTy).Contents (Elt F) → (⟨S1048576x2, .f32⟩ : BufTy).Contents (Elt F) → (⟨S1048576x2, .f32⟩ : BufTy).Contents (Elt F)),
    binary main_v70 main_v70 main_v71 (mulf : (⟨S1048576x2, .f32⟩ : BufTy).Contents (Elt F) → (⟨S1048576x2, .f32⟩ : BufTy).Contents (Elt F) → (⟨S1048576x2, .f32⟩ : BufTy).Contents (Elt F)),
    nullary main_cst_6 (constant S_ .f32 0xBF000000#32),
    unary main_cst_6 main_v72 (broadcastInDim S1048576x2 ![] bcast_S_S1048576x2 : (⟨S_, .f32⟩ : BufTy).Contents (Elt F) → (⟨S1048576x2, .f32⟩ : BufTy).Contents (Elt F)),
    binary main_v72 main_v71 main_v73 (mulf : (⟨S1048576x2, .f32⟩ : BufTy).Contents (Elt F) → (⟨S1048576x2, .f32⟩ : BufTy).Contents (Elt F) → (⟨S1048576x2, .f32⟩ : BufTy).Contents (Elt F)),
    unary main_arg19 main_v74 (broadcastInDim S1x2 ![1] bcast_S2_S1x2_1 : (⟨S2, .f32⟩ : BufTy).Contents (Elt F) → (⟨S1x2, .f32⟩ : BufTy).Contents (Elt F)),
    unary main_v74 main_v75 (broadcastInDim S1048576x2 ![0, 1] bcast_S1x2_S1048576x2_0_1 : (⟨S1x2, .f32⟩ : BufTy).Contents (Elt F) → (⟨S1048576x2, .f32⟩ : BufTy).Contents (Elt F)),
    binary main_v73 main_v75 main_v76 (subf : (⟨S1048576x2, .f32⟩ : BufTy).Contents (Elt F) → (⟨S1048576x2, .f32⟩ : BufTy).Contents (Elt F) → (⟨S1048576x2, .f32⟩ : BufTy).Contents (Elt F)),
    nullary main_cst_7 (constant S_ .f32 0x3F6B3F8E#32),
    unary main_cst_7 main_v77 (broadcastInDim S1048576x2 ![] bcast_S_S1048576x2 : (⟨S_, .f32⟩ : BufTy).Contents (Elt F) → (⟨S1048576x2, .f32⟩ : BufTy).Contents (Elt F)),
    binary main_v76 main_v77 main_v78 (subf : (⟨S1048576x2, .f32⟩ : BufTy).Contents (Elt F) → (⟨S1048576x2, .f32⟩ : BufTy).Contents (Elt F) → (⟨S1048576x2, .f32⟩ : BufTy).Contents (Elt F)),
    nullary main_cst_8 (constant S_ .f32 0x00000000#32),
    binary main_v78 main_cst_8 main_v79 ((fun x v => Host.reduceAdd x v reducesTo_S1048576x2_S1048576_d1 h_S_) : (⟨S1048576x2, .f32⟩ : BufTy).Contents (Elt F) → (⟨S_, .f32⟩ : BufTy).Contents (Elt F) → (⟨S1048576, .f32⟩ : BufTy).Contents (Elt F)) ]
/-- The buffers those operations write. -/
abbrev wG_W : List (Ref sig .tc) := [main_v66, main_v67, main_v68, main_v69, main_v70, main_v71, main_cst_6, main_v72, main_v73, main_v74, main_v75, main_v76, main_cst_7, main_v77, main_v78, main_cst_8, main_v79]
set_option maxRecDepth 8192 in
theorem wG_writes : (wG : List (HloOp τ sig (Elt F))).Forall fun op => op.writes ⊆ (wG_W.map (Proc.devRef (τ := τ) .tc)).toFinset := by
  unfold wG
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 92 … 100. -/
def wH : List (HloOp τ sig (Elt F)) :=
  [ binary main_v56 main_arg20 main_v80 ((fun l r => Host.dotGeneral dot_S1048576x64_S64x64_S1048576x64_1_0_0_1_n_n none l r) : (⟨S1048576x64, .f32⟩ : BufTy).Contents (Elt F) → (⟨S64x64, .f32⟩ : BufTy).Contents (Elt F) → (⟨S1048576x64, .f32⟩ : BufTy).Contents (Elt F)),
    unary main_arg21 main_v81 (broadcastInDim S1x64 ![1] bcast_S64_S1x64_1 : (⟨S64, .f32⟩ : BufTy).Contents (Elt F) → (⟨S1x64, .f32⟩ : BufTy).Contents (Elt F)),
    unary main_v81 main_v82 (broadcastInDim S1048576x64 ![0, 1] bcast_S1x64_S1048576x64_0_1 : (⟨S1x64, .f32⟩ : BufTy).Contents (Elt F) → (⟨S1048576x64, .f32⟩ : BufTy).Contents (Elt F)),
    binary main_v80 main_v82 main_v83 (addf : (⟨S1048576x64, .f32⟩ : BufTy).Contents (Elt F) → (⟨S1048576x64, .f32⟩ : BufTy).Contents (Elt F) → (⟨S1048576x64, .f32⟩ : BufTy).Contents (Elt F)),
    unary main_v83 main_v84 (Host.tanh : (⟨S1048576x64, .f32⟩ : BufTy).Contents (Elt F) → (⟨S1048576x64, .f32⟩ : BufTy).Contents (Elt F)),
    binary main_v84 main_arg22 main_v85 ((fun l r => Host.dotGeneral dot_S1048576x64_S64x1_S1048576x1_1_0_0_1_n_n none l r) : (⟨S1048576x64, .f32⟩ : BufTy).Contents (Elt F) → (⟨S64x1, .f32⟩ : BufTy).Contents (Elt F) → (⟨S1048576x1, .f32⟩ : BufTy).Contents (Elt F)),
    unary main_arg23 main_v86 (broadcastInDim S1x1 ![1] bcast_S1_S1x1_1 : (⟨S1, .f32⟩ : BufTy).Contents (Elt F) → (⟨S1x1, .f32⟩ : BufTy).Contents (Elt F)),
    unary main_v86 main_v87 (broadcastInDim S1048576x1 ![0, 1] bcast_S1x1_S1048576x1_0_1 : (⟨S1x1, .f32⟩ : BufTy).Contents (Elt F) → (⟨S1048576x1, .f32⟩ : BufTy).Contents (Elt F)),
    binary main_v85 main_v87 main_v88 (addf : (⟨S1048576x1, .f32⟩ : BufTy).Contents (Elt F) → (⟨S1048576x1, .f32⟩ : BufTy).Contents (Elt F) → (⟨S1048576x1, .f32⟩ : BufTy).Contents (Elt F)) ]
/-- The buffers those operations write. -/
abbrev wH_W : List (Ref sig .tc) := [main_v80, main_v81, main_v82, main_v83, main_v84, main_v85, main_v86, main_v87, main_v88]
set_option maxRecDepth 8192 in
theorem wH_writes : (wH : List (HloOp τ sig (Elt F))).Forall fun op => op.writes ⊆ (wH_W.map (Proc.devRef (τ := τ) .tc)).toFinset := by
  unfold wH
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩

set_option maxRecDepth 8192 in
/-- The list is its windows in order. -/
theorem ops_eq : (ops : List (HloOp τ sig (Elt F))) = wA ++ (wB ++ (wC ++ (wD ++ (wE ++ (wF ++ (wG ++ (wH))))))) := rfl

end Cert.ReferenceIdeal.HandRun

end
-- ==== Proof.RefTerms.lean ====
/-
  The reference program's values, named.

  The reference stacks the four nodes' features of every batch row into one `[4, B, 2]` array, runs a round of message
  passing on it as three array operations — a gather of the edges' source nodes, a batched matrix product with the
  edges' matrices, a scatter-add onto the edges' target nodes — plus the nodes' biases and the batched loop product,
  applies tanh, runs the second round the same way, and then the dense layers of the two heads. The definitions below
  are the composed terms of those operations, one name a stage.
-/
import proofs.«124978_j13331578487072_1_alg».proof.Proof.Gen.ReferenceIdeal

noncomputable section

namespace Cert.ReferenceIdeal.Terms

open Cert.ReferenceIdeal Cert.ReferenceIdeal.Gen Idealize.ShloMosaic

variable {F : FTy → Type} [FloatOps F]

/-- The four nodes' features stacked: observation columns 6–7, the two targets, observation columns 0–1. -/
def nodesT (a0 : FVec F S1048576x8 .f32) (a1 : FVec F S1048576x2 .f32) (a2 : FVec F S1048576x2 .f32) : FVec F S4x1048576x2 .f32 :=
  concatenate S4x1048576x2 0 [⟨S1x1048576x2, broadcastInDim S1x1048576x2 ![1, 2] bcast_S1048576x2_S1x1048576x2_1_2 (extractStridedSlice S1048576x2 ![0, 6] a0 slices_S1048576x8_S1048576x2_0_6)⟩, ⟨S1x1048576x2, broadcastInDim S1x1048576x2 ![1, 2] bcast_S1048576x2_S1x1048576x2_1_2 a1⟩, ⟨S1x1048576x2, broadcastInDim S1x1048576x2 ![1, 2] bcast_S1048576x2_S1x1048576x2_1_2 a2⟩, ⟨S1x1048576x2, broadcastInDim S1x1048576x2 ![1, 2] bcast_S1048576x2_S1x1048576x2_1_2 (extractStridedSlice S1048576x2 ![0, 0] a0 slices_S1048576x8_S1048576x2_0_0)⟩] concatenates_S1x1048576x2_S1x1048576x2_S1x1048576x2_S1x1048576x2_S4x1048576x2_d0

/-- The edges' source nodes as a column of words: the table `[0, 0, 0, 1, 1, 2]`, a negative entry wrapped by 4 (none is). -/
def srcCol : IVec S6x1 32 :=
  broadcastInDim S6x1 ![0] bcast_S6_S6x1_0 (select (cmpi .slt (fun i => lit0 (S6.rowMajor i)) (broadcastInDim S6 ![] bcast_S_S6 (constantI S_ 32 0#32))) (addi (fun i => lit0 (S6.rowMajor i)) (broadcastInDim S6 ![] bcast_S_S6 (constantI S_ 32 4#32))) (fun i => lit0 (S6.rowMajor i)))

/-- The edges' target nodes as a column of words: the table `[1, 2, 3, 2, 3, 3]`. -/
def dstCol : IVec S6x1 32 :=
  broadcastInDim S6x1 ![0] bcast_S6_S6x1_0 (fun i => lit1 (S6.rowMajor i))

/-- The first round of message passing and its tanh, on all rows at once. -/
def layer1T (h : FVec F S4x1048576x2 .f32) (lw : FVec F S4x2x4 .f32) (W : FVec F S6x2x4 .f32) (mb : FVec F S6x1x4 .f32) (hb : FVec F S4x1x4 .f32) : FVec F S4x1048576x4 .f32 :=
  Host.tanh (addf (addf (Host.scatterAdd scatter_S4x1048576x4_S6x1_S6x1048576x4_12_0_0_1 (broadcastInDim S4x1048576x4 ![] bcast_S_S4x1048576x4 (constant S_ .f32 0x00000000#32)) dstCol (addf (Host.dotGeneral dot_S6x1048576x2_S6x2x4_S6x1048576x4_2_1_1_2_0_0 none (Host.gather gather_S4x1048576x2_S6x1_S6x1048576x2_12_0_n_n_0_1_110485762 h srcCol) W) (broadcastInDim S6x1048576x4 ![0, 1, 2] bcast_S6x1x4_S6x1048576x4_0_1_2 mb))) (broadcastInDim S4x1048576x4 ![0, 1, 2] bcast_S4x1x4_S4x1048576x4_0_1_2 hb)) (Host.dotGeneral dot_S4x1048576x2_S4x2x4_S4x1048576x4_2_1_1_2_0_0 none h lw))

/-- The second round, its one output feature dropped, tanh, and rows and nodes exchanged: `[B, 4]`. -/
def layer2T (x : FVec F S4x1048576x4 .f32) (lw : FVec F S4x4x1 .f32) (W : FVec F S6x4x1 .f32) (mb : FVec F S6x1x1 .f32) (hb : FVec F S4x1x1 .f32) : FVec F S1048576x4 .f32 :=
  transpose S1048576x4 [1, 0] (Host.tanh (shapeCast S4x1048576 (addf (addf (Host.scatterAdd scatter_S4x1048576x1_S6x1_S6x1048576x1_12_0_0_1 (broadcastInDim S4x1048576x1 ![] bcast_S_S4x1048576x1 (constant S_ .f32 0x00000000#32)) dstCol (addf (Host.dotGeneral dot_S6x1048576x4_S6x4x1_S6x1048576x1_2_1_1_2_0_0 none (Host.gather gather_S4x1048576x4_S6x1_S6x1048576x4_12_0_n_n_0_1_110485764 x srcCol) W) (broadcastInDim S6x1048576x1 ![0, 1, 2] bcast_S6x1x1_S6x1048576x1_0_1_2 mb))) (broadcastInDim S4x1048576x1 ![0, 1, 2] bcast_S4x1x1_S4x1048576x1_0_1_2 hb)) (Host.dotGeneral dot_S4x1048576x4_S4x4x1_S4x1048576x1_2_1_1_2_0_0 none x lw)) shapeCasts_S4x1048576x1_S4x1048576)) transposes_S4x1048576_S1048576x4_1_0

/-- The graph's latent features: a 4×4 layer and tanh. -/
def glT (g : FVec F S1048576x4 .f32) (w : FVec F S4x4 .f32) (b : FVec F S4 .f32) : FVec F S1048576x4 .f32 :=
  Host.tanh (addf (Host.dotGeneral dot_S1048576x4_S4x4_S1048576x4_1_0_0_1_n_n none g w) (broadcastInDim S1048576x4 ![0, 1] bcast_S1x4_S1048576x4_0_1 (broadcastInDim S1x4 ![1] bcast_S4_S1x4_1 b)))

/-- The shared layer's eight inputs: the latent features, then observation columns 2–5. -/
def featT (gl : FVec F S1048576x4 .f32) (a0 : FVec F S1048576x8 .f32) : FVec F S1048576x8 .f32 :=
  concatenate S1048576x8 1 [⟨S1048576x4, gl⟩, ⟨S1048576x4, extractStridedSlice S1048576x4 ![0, 2] a0 slices_S1048576x8_S1048576x4_0_2⟩] concatenates_S1048576x4_S1048576x4_S1048576x8_d1

/-- The shared 64-wide tanh layer. -/
def sharedRT (f : FVec F S1048576x8 .f32) (w : FVec F S8x64 .f32) (b : FVec F S64 .f32) : FVec F S1048576x64 .f32 :=
  Host.tanh (addf (Host.dotGeneral dot_S1048576x8_S8x64_S1048576x64_1_0_0_1_n_n none f w) (broadcastInDim S1048576x64 ![0, 1] bcast_S1x64_S1048576x64_0_1 (broadcastInDim S1x64 ![1] bcast_S64_S1x64_1 b)))

/-- A head's 64-wide tanh layer. -/
def hiddenT (s : FVec F S1048576x64 .f32) (w : FVec F S64x64 .f32) (b : FVec F S64 .f32) : FVec F S1048576x64 .f32 :=
  Host.tanh (addf (Host.dotGeneral dot_S1048576x64_S64x64_S1048576x64_1_0_0_1_n_n none s w) (broadcastInDim S1048576x64 ![0, 1] bcast_S1x64_S1048576x64_0_1 (broadcastInDim S1x64 ![1] bcast_S64_S1x64_1 b)))

/-- The actor's two means. -/
def actT (l : FVec F S1048576x64 .f32) (w : FVec F S64x2 .f32) (b : FVec F S2 .f32) : FVec F S1048576x2 .f32 :=
  addf (Host.dotGeneral dot_S1048576x64_S64x2_S1048576x2_1_0_0_1_n_n none l w) (broadcastInDim S1048576x2 ![0, 1] bcast_S1x2_S1048576x2_0_1 (broadcastInDim S1x2 ![1] bcast_S2_S1x2_1 b))

/-- The critic's value. -/
def valT (l : FVec F S1048576x64 .f32) (w : FVec F S64x1 .f32) (b : FVec F S1 .f32) : FVec F S1048576x1 .f32 :=
  addf (Host.dotGeneral dot_S1048576x64_S64x1_S1048576x1_1_0_0_1_n_n none l w) (broadcastInDim S1048576x1 ![0, 1] bcast_S1x1_S1048576x1_0_1 (broadcastInDim S1x1 ![1] bcast_S1_S1x1_1 b))

/-- The action's deviation from the mean over the standard deviation: `(act - act) / exp ls`. -/
def devT (act : FVec F S1048576x2 .f32) (ls : FVec F S2 .f32) : FVec F S1048576x2 .f32 :=
  Host.divf (subf act act) (broadcastInDim S1048576x2 ![0, 1] bcast_S1x2_S1048576x2_0_1 (broadcastInDim S1x2 ![1] bcast_S2_S1x2_1 (Host.exp ls)))

/-- The log-probability of the action `act` under the Gaussian with mean `act`: over the two actions,
    `-1/2 · dev² - ls - c`, summed from zero. -/
def logpT (act : FVec F S1048576x2 .f32) (ls : FVec F S2 .f32) : FVec F S1048576 .f32 :=
  Host.reduceAdd (subf (subf (mulf (broadcastInDim S1048576x2 ![] bcast_S_S1048576x2 (constant S_ .f32 0xBF000000#32)) (mulf (devT act ls) (devT act ls))) (broadcastInDim S1048576x2 ![0, 1] bcast_S1x2_S1048576x2_0_1 (broadcastInDim S1x2 ![1] bcast_S2_S1x2_1 ls))) (broadcastInDim S1048576x2 ![] bcast_S_S1048576x2 (constant S_ .f32 0x3F6B3F8E#32))) (constant S_ .f32 0x00000000#32) reducesTo_S1048576x2_S1048576_d1 h_S_

/-- The shared layer of every row, from the argument arrays. -/
def sharedFull (a0 : FVec F S1048576x8 .f32) (a1 : FVec F S1048576x2 .f32) (a2 : FVec F S1048576x2 .f32) (a3 : FVec F S4x2x4 .f32) (a4 : FVec F S6x2x4 .f32) (a5 : FVec F S6x1x4 .f32) (a6 : FVec F S4x1x4 .f32) (a7 : FVec F S4x4x1 .f32) (a8 : FVec F S6x4x1 .f32) (a9 : FVec F S6x1x1 .f32) (a10 : FVec F S4x1x1 .f32) (a11 : FVec F S4x4 .f32) (a12 : FVec F S4 .f32) (a13 : FVec F S8x64 .f32) (a14 : FVec F S64 .f32) : FVec F S1048576x64 .f32 :=
  sharedRT (featT (glT (layer2T (layer1T (nodesT a0 a1 a2) a3 a4 a5 a6) a7 a8 a9 a10) a11 a12) a0) a13 a14

/-- The first result: the action means. -/
def resAct (a0 : FVec F S1048576x8 .f32) (a1 : FVec F S1048576x2 .f32) (a2 : FVec F S1048576x2 .f32) (a3 : FVec F S4x2x4 .f32) (a4 : FVec F S6x2x4 .f32) (a5 : FVec F S6x1x4 .f32) (a6 : FVec F S4x1x4 .f32) (a7 : FVec F S4x4x1 .f32) (a8 : FVec F S6x4x1 .f32) (a9 : FVec F S6x1x1 .f32) (a10 : FVec F S4x1x1 .f32) (a11 : FVec F S4x4 .f32) (a12 : FVec F S4 .f32) (a13 : FVec F S8x64 .f32) (a14 : FVec F S64 .f32) (a15 : FVec F S64x64 .f32) (a16 : FVec F S64 .f32) (a17 : FVec F S64x2 .f32) (a18 : FVec F S2 .f32) : FVec F S1048576x2 .f32 :=
  actT (hiddenT (sharedFull a0 a1 a2 a3 a4 a5 a6 a7 a8 a9 a10 a11 a12 a13 a14) a15 a16) a17 a18
/-- The second result: the values. -/
def resVal (a0 : FVec F S1048576x8 .f32) (a1 : FVec F S1048576x2 .f32) (a2 : FVec F S1048576x2 .f32) (a3 : FVec F S4x2x4 .f32) (a4 : FVec F S6x2x4 .f32) (a5 : FVec F S6x1x4 .f32) (a6 : FVec F S4x1x4 .f32) (a7 : FVec F S4x4x1 .f32) (a8 : FVec F S6x4x1 .f32) (a9 : FVec F S6x1x1 .f32) (a10 : FVec F S4x1x1 .f32) (a11 : FVec F S4x4 .f32) (a12 : FVec F S4 .f32) (a13 : FVec F S8x64 .f32) (a14 : FVec F S64 .f32) (a20 : FVec F S64x64 .f32) (a21 : FVec F S64 .f32) (a22 : FVec F S64x1 .f32) (a23 : FVec F S1 .f32) : FVec F S1048576x1 .f32 :=
  valT (hiddenT (sharedFull a0 a1 a2 a3 a4 a5 a6 a7 a8 a9 a10 a11 a12 a13 a14) a20 a21) a22 a23
/-- The third result: the log-probabilities. -/
def resLogp (a0 : FVec F S1048576x8 .f32) (a1 : FVec F S1048576x2 .f32) (a2 : FVec F S1048576x2 .f32) (a3 : FVec F S4x2x4 .f32) (a4 : FVec F S6x2x4 .f32) (a5 : FVec F S6x1x4 .f32) (a6 : FVec F S4x1x4 .f32) (a7 : FVec F S4x4x1 .f32) (a8 : FVec F S6x4x1 .f32) (a9 : FVec F S6x1x1 .f32) (a10 : FVec F S4x1x1 .f32) (a11 : FVec F S4x4 .f32) (a12 : FVec F S4 .f32) (a13 : FVec F S8x64 .f32) (a14 : FVec F S64 .f32) (a15 : FVec F S64x64 .f32) (a16 : FVec F S64 .f32) (a17 : FVec F S64x2 .f32) (a18 : FVec F S2 .f32) (a19 : FVec F S2 .f32) : FVec F S1048576 .f32 :=
  logpT (resAct a0 a1 a2 a3 a4 a5 a6 a7 a8 a9 a10 a11 a12 a13 a14 a15 a16 a17 a18) a19

end Cert.ReferenceIdeal.Terms

end
-- ==== Proof.RefRun.lean ====
/-
  The reference's run, read back.

  The reference is a straight line of host operations on tensor values: every weakly fair execution runs them in order
  and terminates, each buffer ending at its operation's function of the buffers it reads. The hundred operations are
  read in eight consecutive stretches, each from ANY contents of the buffers at its start: the stacked nodes and the two
  edge tables; the first round; the second round; the latent features and the shared layer's inputs; the shared layer;
  the actor; the log-probability; the critic. A buffer a stretch does not write keeps its contents through it, so the
  three results end at the stage terms of the arguments as launched, and the arguments, written by no operation,
  end as launched.
-/
import proofs.«124978_j13331578487072_1_alg».proof.Proof.RefOps
import proofs.«124978_j13331578487072_1_alg».proof.Proof.RefTerms

noncomputable section

namespace Cert.ReferenceIdeal.HandRun

open Cert.ReferenceIdeal Cert.ReferenceIdeal.Gen Cert.ReferenceIdeal.Terms Idealize.ShloMosaic Idealize.ShloMosaic.TcCoe Idealize.SL.Sem
  Idealize.ShloMosaic.StableHlo

variable {F : FTy → Type} [FloatOps F]

set_option maxRecDepth 8192 in
set_option maxHeartbeats 4000000 in
/-- The printed program is its operations in order. -/
theorem main_eq (c : Dev nD) : main (F := F) c = seq ops := rfl

/-- No TensorCore buffer of the reference is scoped to a region, … -/
theorem scopedRefs_eq : (Finset.univ.filter fun b : Ref sig .tc => b.isScoped) = ∅ := by decide
/-- … and it has no semaphore. -/
theorem scopedSems_eq : (Finset.univ.filter fun sm : SemLoc sig => sm.isScoped .tc) = ∅ := by decide

/-- Two stretches run one after the other: the second from the first's final contents. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-! ## A buffer a stretch does not write keeps its contents through it -/

theorem keepA' (W : Valuation τ sig (Elt F)) (r : Ref sig .tc) (h : r ∉ wA_W) :
    after wA W (no_index (Proc.devRef .tc r)) = W (Proc.devRef .tc r) :=
  after_of_writes_sub wA W wA_writes h
theorem keepB' (W : Valuation τ sig (Elt F)) (r : Ref sig .tc) (h : r ∉ wB_W) :
    after wB W (no_index (Proc.devRef .tc r)) = W (Proc.devRef .tc r) :=
  after_of_writes_sub wB W wB_writes h
theorem keepC' (W : Valuation τ sig (Elt F)) (r : Ref sig .tc) (h : r ∉ wC_W) :
    after wC W (no_index (Proc.devRef .tc r)) = W (Proc.devRef .tc r) :=
  after_of_writes_sub wC W wC_writes h
theorem keepD' (W : Valuation τ sig (Elt F)) (r : Ref sig .tc) (h : r ∉ wD_W) :
    after wD W (no_index (Proc.devRef .tc r)) = W (Proc.devRef .tc r) :=
  after_of_writes_sub wD W wD_writes h
theorem keepE' (W : Valuation τ sig (Elt F)) (r : Ref sig .tc) (h : r ∉ wE_W) :
    after wE W (no_index (Proc.devRef .tc r)) = W (Proc.devRef .tc r) :=
  after_of_writes_sub wE W wE_writes h
theorem keepF' (W : Valuation τ sig (Elt F)) (r : Ref sig .tc) (h : r ∉ wF_W) :
    after wF W (no_index (Proc.devRef .tc r)) = W (Proc.devRef .tc r) :=
  after_of_writes_sub wF W wF_writes h
theorem keepG' (W : Valuation τ sig (Elt F)) (r : Ref sig .tc) (h : r ∉ wG_W) :
    after wG W (no_index (Proc.devRef .tc r)) = W (Proc.devRef .tc r) :=
  after_of_writes_sub wG W wG_writes h
theorem keepH' (W : Valuation τ sig (Elt F)) (r : Ref sig .tc) (h : r ∉ wH_W) :
    after wH W (no_index (Proc.devRef .tc r)) = W (Proc.devRef .tc r) :=
  after_of_writes_sub wH W wH_writes h

/-- A buffer no stretch writes ends as it started. -/
theorem kept (V : Valuation τ sig (Elt F)) (r : Ref sig .tc) (hA : r ∉ wA_W) (hB : r ∉ wB_W) (hC : r ∉ wC_W) (hD : r ∉ wD_W)
    (hE : r ∉ wE_W) (hF : r ∉ wF_W) (hG : r ∉ wG_W) (hH : r ∉ wH_W) :
    after ops V (Proc.devRef .tc r) = V (Proc.devRef .tc r) := by
  rw [ops_eq]
  simp only [after_append]
  exact (after_of_writes_sub wH _ wH_writes hH).trans ((after_of_writes_sub wG _ wG_writes hG).trans
    ((after_of_writes_sub wF _ wF_writes hF).trans ((after_of_writes_sub wE _ wE_writes hE).trans
    ((after_of_writes_sub wD _ wD_writes hD).trans ((after_of_writes_sub wC _ wC_writes hC).trans
    ((after_of_writes_sub wB _ wB_writes hB).trans (after_of_writes_sub wA _ wA_writes hA)))))))

/-! ## Each stretch, from any contents -/

variable (W : Valuation τ sig (Elt F))

set_option maxRecDepth 8192 in
/-- The source table. -/
theorem wA_c : after wA W (Proc.devRef .tc main_c) = ((fun i => lit0 (S6.rowMajor i)) : (⟨S6, .i32⟩ : BufTy).Contents (Elt F)) := by
  unfold wA; after_results_simp <;> (try dsimp only [Matrix.cons_val]) <;> (try after_results_simp) <;> rfl

set_option maxRecDepth 8192 in
/-- The target table. -/
theorem wA_c0 : after wA W (Proc.devRef .tc main_c_0) = ((fun i => lit1 (S6.rowMajor i)) : (⟨S6, .i32⟩ : BufTy).Contents (Elt F)) := by
  unfold wA; after_results_simp <;> (try dsimp only [Matrix.cons_val]) <;> (try after_results_simp) <;> rfl

set_option maxRecDepth 8192 in
/-- The stacked nodes. -/
theorem wA_v6 : after wA W (Proc.devRef .tc main_v6) = nodesT (W (Proc.devRef .tc main_arg0)) (W (Proc.devRef .tc main_arg1)) (W (Proc.devRef .tc main_arg2)) := by
  unfold wA; after_results_simp <;> (try dsimp only [Matrix.cons_val]) <;> (try after_results_simp) <;> rfl

set_option maxRecDepth 8192 in
set_option maxHeartbeats 4000000 in
/-- The first round, where the two tables are in place. -/
theorem wB_v24 (hc : W (Proc.devRef .tc main_c) = ((fun i => lit0 (S6.rowMajor i)) : (⟨S6, .i32⟩ : BufTy).Contents (Elt F)))
    (hc0 : W (Proc.devRef .tc main_c_0) = ((fun i => lit1 (S6.rowMajor i)) : (⟨S6, .i32⟩ : BufTy).Contents (Elt F))) :
    after wB W (Proc.devRef .tc main_v24) = layer1T (W (Proc.devRef .tc main_v6)) (W (Proc.devRef .tc main_arg3)) (W (Proc.devRef .tc main_arg4)) (W (Proc.devRef .tc main_arg5)) (W (Proc.devRef .tc main_arg6)) := by
  unfold wB; after_results_simp <;> (try dsimp only [Matrix.cons_val]) <;> (try after_results_simp)
  all_goals (simp only [hc, hc0]; rfl)

set_option maxRecDepth 8192 in
set_option maxHeartbeats 4000000 in
/-- The second round, where the two tables are in place. -/
theorem wC_v44 (hc : W (Proc.devRef .tc main_c) = ((fun i => lit0 (S6.rowMajor i)) : (⟨S6, .i32⟩ : BufTy).Contents (Elt F)))
    (hc0 : W (Proc.devRef .tc main_c_0) = ((fun i => lit1 (S6.rowMajor i)) : (⟨S6, .i32⟩ : BufTy).Contents (Elt F))) :
    after wC W (Proc.devRef .tc main_v44) = layer2T (W (Proc.devRef .tc main_v24)) (W (Proc.devRef .tc main_arg7)) (W (Proc.devRef .tc main_arg8)) (W (Proc.devRef .tc main_arg9)) (W (Proc.devRef .tc main_arg10)) := by
  unfold wC; after_results_simp <;> (try dsimp only [Matrix.cons_val]) <;> (try after_results_simp)
  all_goals (simp only [hc, hc0]; rfl)

set_option maxRecDepth 8192 in
/-- The latent features and the shared layer's inputs. -/
theorem wD_v51 : after wD W (Proc.devRef .tc main_v51) = featT (glT (W (Proc.devRef .tc main_v44)) (W (Proc.devRef .tc main_arg11)) (W (Proc.devRef .tc main_arg12))) (W (Proc.devRef .tc main_arg0)) := by
  unfold wD; after_results_simp <;> (try dsimp only [Matrix.cons_val]) <;> (try after_results_simp) <;> rfl

set_option maxRecDepth 8192 in
/-- The shared layer. -/
theorem wE_v56 : after wE W (Proc.devRef .tc main_v56) = sharedRT (W (Proc.devRef .tc main_v51)) (W (Proc.devRef .tc main_arg13)) (W (Proc.devRef .tc main_arg14)) := by
  unfold wE; after_results_simp <;> (try dsimp only [Matrix.cons_val]) <;> (try after_results_simp) <;> rfl

set_option maxRecDepth 8192 in
/-- The actor. -/
theorem wF_v65 : after wF W (Proc.devRef .tc main_v65) = actT (hiddenT (W (Proc.devRef .tc main_v56)) (W (Proc.devRef .tc main_arg15)) (W (Proc.devRef .tc main_arg16))) (W (Proc.devRef .tc main_arg17)) (W (Proc.devRef .tc main_arg18)) := by
  unfold wF; after_results_simp <;> (try dsimp only [Matrix.cons_val]) <;> (try after_results_simp) <;> rfl

set_option maxRecDepth 8192 in
/-- The log-probability. -/
theorem wG_v79 : after wG W (Proc.devRef .tc main_v79) = logpT (W (Proc.devRef .tc main_v65)) (W (Proc.devRef .tc main_arg19)) := by
  unfold wG; after_results_simp <;> (try dsimp only [Matrix.cons_val]) <;> (try after_results_simp) <;> rfl

set_option maxRecDepth 8192 in
/-- The critic. -/
theorem wH_v88 : after wH W (Proc.devRef .tc main_v88) = valT (hiddenT (W (Proc.devRef .tc main_v56)) (W (Proc.devRef .tc main_arg20)) (W (Proc.devRef .tc main_arg21))) (W (Proc.devRef .tc main_arg22)) (W (Proc.devRef .tc main_arg23)) := by
  unfold wH; after_results_simp <;> (try dsimp only [Matrix.cons_val]) <;> (try after_results_simp) <;> rfl

/-! ## The three results -/

set_option maxRecDepth 8192 in
set_option maxHeartbeats 4000000 in
/-- After the whole line, from any contents `V`: the three results at their stage terms of `V`'s arguments. -/
theorem results (V : Valuation τ sig (Elt F)) :
    after ops V (Proc.devRef .tc main_v65) = resAct (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18))
    ∧ after ops V (Proc.devRef .tc main_v88) = resVal (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg20)) (V (Proc.devRef .tc main_arg21)) (V (Proc.devRef .tc main_arg22)) (V (Proc.devRef .tc main_arg23))
    ∧ after ops V (Proc.devRef .tc main_v79) = resLogp (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) := by
  rw [ops_eq]
  simp only [after_append]
  have hcA := wA_c V
  have hc0A := wA_c0 V
  have hcB : after wB (after wA V) (Proc.devRef .tc main_c) = _ := (keepB' _ main_c (by decide)).trans hcA
  have hc0B : after wB (after wA V) (Proc.devRef .tc main_c_0) = _ := (keepB' _ main_c_0 (by decide)).trans hc0A
  have h6 := wA_v6 V
  have h24 := wB_v24 (after wA V) hcA hc0A
  have h44 := wC_v44 (after wB (after wA V)) hcB hc0B
  have h51 := wD_v51 (after wC (after wB (after wA V)))
  have h56 := wE_v56 (after wD (after wC (after wB (after wA V))))
  have h65 := wF_v65 (after wE (after wD (after wC (after wB (after wA V)))))
  have h79 := wG_v79 (after wF (after wE (after wD (after wC (after wB (after wA V))))))
  have h88 := wH_v88 (after wG (after wF (after wE (after wD (after wC (after wB (after wA V)))))))
  refine ⟨?_, ?_, ?_⟩ <;>
    simp (disch := decide) only [keepA', keepB', keepC', keepD', keepE', keepF', keepG', keepH', h6, h24, h44, h51, h56, h65, h79,
      h88, resAct, resVal, resLogp, sharedFull]

/-! ## The run -/

set_option maxRecDepth 8192 in
set_option maxHeartbeats 4000000 in
/-- On every device, from any memory with zero counters: every weakly fair execution terminates with the three results at
    their stage terms of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = resAct (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v88) = resVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg20)) (m ((c.tc : Thread nD τ).loc main_arg21)) (m ((c.tc : Thread nD τ).loc main_arg22)) (m ((c.tc : Thread nD τ).loc main_arg23))
      ∧ r.2.mem ((c.tc : Thread nD τ).loc main_v79) = resLogp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23) :=
  (θ_run defs _ _).mono (fun _ h c => ⟨
      (h c main_v65).trans ((results _).1.trans rfl),
      (h c main_v88).trans ((results _).2.1.trans rfl),
      (h c main_v79).trans ((results _).2.2.trans rfl),
      (h c main_arg0).trans ((kept _ main_arg0 (by decide) (by decide) (by decide) (by decide) (by decide) (by decide) (by decide) (by decide)).trans rfl),
      (h c main_arg1).trans ((kept _ main_arg1 (by decide) (by decide) (by decide) (by decide) (by decide) (by decide) (by decide) (by decide)).trans rfl),
      (h c main_arg2).trans ((kept _ main_arg2 (by decide) (by decide) (by decide) (by decide) (by decide) (by decide) (by decide) (by decide)).trans rfl),
      (h c main_arg3).trans ((kept _ main_arg3 (by decide) (by decide) (by decide) (by decide) (by decide) (by decide) (by decide) (by decide)).trans rfl),
      (h c main_arg4).trans ((kept _ main_arg4 (by decide) (by decide) (by decide) (by decide) (by decide) (by decide) (by decide) (by decide)).trans rfl),
      (h c main_arg5).trans ((kept _ main_arg5 (by decide) (by decide) (by decide) (by decide) (by decide) (by decide) (by decide) (by decide)).trans rfl),
      (h c main_arg6).trans ((kept _ main_arg6 (by decide) (by decide) (by decide) (by decide) (by decide) (by decide) (by decide) (by decide)).trans rfl),
      (h c main_arg7).trans ((kept _ main_arg7 (by decide) (by decide) (by decide) (by decide) (by decide) (by decide) (by decide) (by decide)).trans rfl),
      (h c main_arg8).trans ((kept _ main_arg8 (by decide) (by decide) (by decide) (by decide) (by decide) (by decide) (by decide) (by decide)).trans rfl),
      (h c main_arg9).trans ((kept _ main_arg9 (by decide) (by decide) (by decide) (by decide) (by decide) (by decide) (by decide) (by decide)).trans rfl),
      (h c main_arg10).trans ((kept _ main_arg10 (by decide) (by decide) (by decide) (by decide) (by decide) (by decide) (by decide) (by decide)).trans rfl),
      (h c main_arg11).trans ((kept _ main_arg11 (by decide) (by decide) (by decide) (by decide) (by decide) (by decide) (by decide) (by decide)).trans rfl),
      (h c main_arg12).trans ((kept _ main_arg12 (by decide) (by decide) (by decide) (by decide) (by decide) (by decide) (by decide) (by decide)).trans rfl),
      (h c main_arg13).trans ((kept _ main_arg13 (by decide) (by decide) (by decide) (by decide) (by decide) (by decide) (by decide) (by decide)).trans rfl),
      (h c main_arg14).trans ((kept _ main_arg14 (by decide) (by decide) (by decide) (by decide) (by decide) (by decide) (by decide) (by decide)).trans rfl),
      (h c main_arg15).trans ((kept _ main_arg15 (by decide) (by decide) (by decide) (by decide) (by decide) (by decide) (by decide) (by decide)).trans rfl),
      (h c main_arg16).trans ((kept _ main_arg16 (by decide) (by decide) (by decide) (by decide) (by decide) (by decide) (by decide) (by decide)).trans rfl),
      (h c main_arg17).trans ((kept _ main_arg17 (by decide) (by decide) (by decide) (by decide) (by decide) (by decide) (by decide) (by decide)).trans rfl),
      (h c main_arg18).trans ((kept _ main_arg18 (by decide) (by decide) (by decide) (by decide) (by decide) (by decide) (by decide) (by decide)).trans rfl),
      (h c main_arg19).trans ((kept _ main_arg19 (by decide) (by decide) (by decide) (by decide) (by decide) (by decide) (by decide) (by decide)).trans rfl),
      (h c main_arg20).trans ((kept _ main_arg20 (by decide) (by decide) (by decide) (by decide) (by decide) (by decide) (by decide) (by decide)).trans rfl),
      (h c main_arg21).trans ((kept _ main_arg21 (by decide) (by decide) (by decide) (by decide) (by decide) (by decide) (by decide) (by decide)).trans rfl),
      (h c main_arg22).trans ((kept _ main_arg22 (by decide) (by decide) (by decide) (by decide) (by decide) (by decide) (by decide) (by decide)).trans rfl),
      (h c main_arg23).trans ((kept _ main_arg23 (by decide) (by decide) (by decide) (by decide) (by decide) (by decide) (by decide) (by decide)).trans rfl)⟩)
    (run_seq scopedRefs_eq scopedSems_eq defs main (fun _ => ops) main_eq (fun _ => ops_sub) m ρ)

end Cert.ReferenceIdeal.HandRun

end
-- ==== Proof.LibRowsAt.lean ====
/-
  Whole rows gathered and scatter-added along the leading axis, read at an entry.

  An array `[N, B, C]` and a column `[E, 1]` of row numbers. Gathering takes, for each `e`, the whole slab
  `[1, B, C]` at the row the column names (read as a signed integer and clamped into `[0, N - 1]`): the result
  `[E, B, C]` at `(e, b, q)` is the array at `(row e, b, q)`. Scatter-adding an update `[E, B, C]` adds slab `e` of
  the update onto the row the column names for `e` (a row number outside the array drops the slab): at the ideal
  values the result at `(n, b, q)` is the operand there plus the sum of the update's `(e, b, q)` over the `e` whose
  row number is `n`.
-/
import Idealize.ShloMosaic.PureOps.Ideal.Laws
import Idealize.ShloMosaic.Lib.ValueIdx

noncomputable section

open scoped BigOperators

namespace Cert.LibRowsAt

open Idealize.ShloMosaic Idealize.ShloMosaic.ValueIdx

variable {N B C E : ℕ}

/-- The gather's dimension numbers as a literal record: offset axes `[1, 2]`, the leading axis collapsed and named by the start index map, slices `[1, B, C]`. -/
private abbrev gDims (N B C E : ℕ)
    (wf : GatherDims.WF ⟨3, ![N, B, C]⟩ ⟨2, ![E, 1]⟩ ⟨3, ![E, B, C]⟩ [1, 2] [0] [] [0] [] 1 ![1, B, C]) :
    GatherDims ⟨3, ![N, B, C]⟩ ⟨2, ![E, 1]⟩ ⟨3, ![E, B, C]⟩ where
  offsetDims := [1, 2]
  collapsedSliceDims := [0]
  operandBatchingDims := []
  startIndicesBatchingDims := []
  startIndexMap := [0]
  indexVectorDim := 1
  sliceSizes := ![1, B, C]
  wf := wf

/-- The scatter's dimension numbers as a literal record: window axes `[1, 2]`, the leading axis inserted and named by the scatter-dims-to-operand-dims map. -/
private abbrev sDims (N B C E : ℕ)
    (wf : ScatterDims.WF ⟨3, ![N, B, C]⟩ ⟨2, ![E, 1]⟩ ⟨3, ![E, B, C]⟩ [1, 2] [0] [0] 1) :
    ScatterDims ⟨3, ![N, B, C]⟩ ⟨2, ![E, 1]⟩ ⟨3, ![E, B, C]⟩ where
  updateWindowDims := [1, 2]
  insertedWindowDims := [0]
  scatterDimsToOperandDims := [0]
  indexVectorDim := 1
  wf := wf

/-- An update lands on an operand index exactly when, on every axis, the start plus the window coordinate is that
    index's coordinate. -/
private theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  · rename_i h
    rw [Option.some_inj]
    constructor
    · intro hi a
      have h' := h a
      rw [← hi]
      show _ = (((d.start j idx a + (d.window j a : ℤ)).toNat : ℕ) : ℤ)
      omega
    · intro hi
      funext a
      refine Fin.ext ?_
      show (d.start j idx a + (d.window j a : ℤ)).toNat = (i a).val
      have h' := hi a
      omega
  · rename_i h
    constructor
    · intro hi
      exact absurd hi (Option.some_ne_none i).symm
    · intro hi
      exfalso
      apply h
      intro a
      have h' := hi a
      have h'' := (i a).isLt
      omega

/-- Where an update entry of the literal record lands: on `(n, b, q)` exactly when its row number is `n` and its
    position inside the slab is `(b, q)`. -/
private theorem sDims_resultIdx?_iff
    (wf : ScatterDims.WF ⟨3, ![N, B, C]⟩ ⟨2, ![E, 1]⟩ ⟨3, ![E, B, C]⟩ [1, 2] [0] [0] 1)
    {w : ℕ} (idx : IVec ⟨2, ![E, 1]⟩ w) (j : (⟨3, ![E, B, C]⟩ : Shape).Idx) (n : Fin N) (b : Fin B) (q : Fin C) :
    (sDims N B C E wf).resultIdx? j idx = some (ix3 n b q)
      ↔ (idx (ix2 (j 0 : Fin E) (0 : Fin 1))).toInt = (n.val : ℤ) ∧ (j 1 : Fin B) = b ∧ (j 2 : Fin C) = q := by
  -- the start and the window coordinate on each axis
  have hm0 : (0 : Fin 3) ∈ (sDims N B C E wf).scatterDimsToOperandDims := List.mem_singleton.mpr rfl
  have hs0 : (sDims N B C E wf).start j idx (0 : Fin 3) = (idx (ix2 (j 0 : Fin E) (0 : Fin 1))).toInt := by
    unfold ScatterDims.start
    rw [dif_pos hm0]
    have hsi : (sDims N B C E wf).siIdx j
        ⟨List.idxOf (0 : Fin 3) (sDims N B C E wf).scatterDimsToOperandDims, List.idxOf_lt_length_iff.2 hm0⟩
        = ix2 (j 0 : Fin E) (0 : Fin 1) := by
      funext c; refine Fin.ext ?_
      match c with
      | ⟨0, _⟩ => rfl
      | ⟨1, _⟩ => rfl
    rw [hsi]
    rfl
  have hs1 : (sDims N B C E wf).start j idx (1 : Fin 3) = 0 := by
    unfold ScatterDims.start
    rw [dif_neg (fun h => Nat.one_ne_zero (congrArg Fin.val (List.mem_singleton.mp h)))]
  have hs2 : (sDims N B C E wf).start j idx (2 : Fin 3) = 0 := by
    unfold ScatterDims.start
    rw [dif_neg (fun h => (by decide : (2 : ℕ) ≠ 0) (congrArg Fin.val (List.mem_singleton.mp h)))]
  have hw0 : (sDims N B C E wf).window j (0 : Fin 3) = 0 := rfl
  have hw1 : (sDims N B C E wf).window j (1 : Fin 3) = (j 1 : Fin B).val := rfl
  have hw2 : (sDims N B C E wf).window j (2 : Fin 3) = (j 2 : Fin C).val := rfl
  rw [resultIdx?_eq_some_iff]
  constructor
  · intro h
    have h0 := h (0 : Fin 3)
    have h1 := h (1 : Fin 3)
    have h2 := h (2 : Fin 3)
    rw [hs0, hw0] at h0
    rw [hs1, hw1] at h1
    rw [hs2, hw2] at h2
    refine ⟨?_, Fin.ext ?_, Fin.ext ?_⟩
    · have : ((ix3 n b q (0 : Fin 3)).val : ℤ) = (n.val : ℤ) := rfl
      omega
    · have : ((ix3 n b q (1 : Fin 3)).val : ℤ) = (b.val : ℤ) := rfl
      omega
    · have : ((ix3 n b q (2 : Fin 3)).val : ℤ) = (q.val : ℤ) := rfl
      omega
  · rintro ⟨h0, h1, h2⟩ a
    match a with
    | ⟨0, _⟩ =>
      show (sDims N B C E wf).start j idx (0 : Fin 3) + ((sDims N B C E wf).window j (0 : Fin 3) : ℤ) = (n.val : ℤ)
      rw [hs0, hw0, h0]; simp
    | ⟨1, _⟩ =>
      show (sDims N B C E wf).start j idx (1 : Fin 3) + ((sDims N B C E wf).window j (1 : Fin 3) : ℤ) = (b.val : ℤ)
      rw [hs1, hw1, h1]; simp
    | ⟨2, _⟩ =>
      show (sDims N B C E wf).start j idx (2 : Fin 3) + ((sDims N B C E wf).window j (2 : Fin 3) : ℤ) = (q.val : ℤ)
      rw [hs2, hw2, h2]; simp

/-- THE GATHER OF ROWS AT AN ENTRY: the operand at the named row, same position inside the slab. -/
theorem gather_rows_at {α : Type} (D : GatherDims ⟨3, ![N, B, C]⟩ ⟨2, ![E, 1]⟩ ⟨3, ![E, B, C]⟩)
    (h1 : D.offsetDims = [1, 2]) (h2 : D.collapsedSliceDims = [0]) (h3 : D.operandBatchingDims = [])
    (h4 : D.startIndicesBatchingDims = []) (h5 : D.startIndexMap = [0]) (h6 : D.indexVectorDim = 1)
    (h7 : D.sliceSizes = ![1, B, C])
    {w : ℕ} (x : (⟨3, ![N, B, C]⟩ : Shape).Idx → α) (idx : IVec ⟨2, ![E, 1]⟩ w) (e : Fin E) (b : Fin B) (q : Fin C) (n : Fin N)
    (hn : n.val = min (idx (ix2 e (0 : Fin 1))).toInt.toNat (N - 1)) :
    Host.gather D x idx (ix3 e b q) = x (ix3 n b q) := by
  obtain ⟨od, cd, ob, sb, sm, iv, ss, wf⟩ := D
  dsimp only at h1 h2 h3 h4 h5 h6 h7
  subst h1 h2 h3 h4 h5 h6 h7
  show Host.gather (gDims N B C E wf) x idx (ix3 e b q) = x (ix3 n b q)
  unfold Host.gather
  congr 1
  funext a
  refine Fin.ext ?_
  show (gDims N B C E wf).start (ix3 e b q) idx a + (gDims N B C E wf).batchCoord (ix3 e b q) a
    + (gDims N B C E wf).offCoord (ix3 e b q) a = _
  rw [GatherDims.batchCoord_eq_zero _ _ _ List.not_mem_nil, Nat.add_zero]
  match a with
  | ⟨0, h0⟩ =>
    -- the collapsed axis: no offset coordinate, the clamped start
    have hm : (⟨0, h0⟩ : Fin 3) ∈ (gDims N B C E wf).startIndexMap := List.mem_singleton.mpr rfl
    rw [GatherDims.offCoord_eq_zero _ _ _ (fun h => ((GatherDims.mem_sKept _ _).mp h).1 (List.mem_singleton.mpr rfl)),
      Nat.add_zero]
    unfold GatherDims.start
    rw [dif_pos hm]
    have hsi : (gDims N B C E wf).siIdx (ix3 e b q)
        ⟨List.idxOf (⟨0, h0⟩ : Fin 3) (gDims N B C E wf).startIndexMap, List.idxOf_lt_length_iff.2 hm⟩
        = ix2 e (0 : Fin 1) := by
      funext c; refine Fin.ext ?_
      match c with
      | ⟨0, _⟩ => rfl
      | ⟨1, _⟩ => rfl
    rw [hsi]
    exact hn.symm
  | ⟨1, h1'⟩ =>
    -- an offset axis: start zero, the result's own coordinate
    have hm : (⟨1, h1'⟩ : Fin 3) ∉ (gDims N B C E wf).startIndexMap :=
      fun h => Nat.one_ne_zero (congrArg Fin.val (List.mem_singleton.mp h))
    unfold GatherDims.start
    rw [dif_neg hm, Nat.zero_add]
    rfl
  | ⟨2, h2'⟩ =>
    have hm : (⟨2, h2'⟩ : Fin 3) ∉ (gDims N B C E wf).startIndexMap :=
      fun h => (by decide : (2 : ℕ) ≠ 0) (congrArg Fin.val (List.mem_singleton.mp h))
    unfold GatherDims.start
    rw [dif_neg hm, Nat.zero_add]
    rfl

/-- THE SCATTER-ADD OF ROWS AT AN ENTRY, at the ideal values: the operand plus the update's slabs that land on the row. -/
theorem scatterAdd_rows_at (D : ScatterDims ⟨3, ![N, B, C]⟩ ⟨2, ![E, 1]⟩ ⟨3, ![E, B, C]⟩)
    (h1 : D.updateWindowDims = [1, 2]) (h2 : D.insertedWindowDims = [0]) (h3 : D.scatterDimsToOperandDims = [0])
    (h4 : D.indexVectorDim = 1)
    {w : ℕ} {φ : FTy} (x : FVec Ideal ⟨3, ![N, B, C]⟩ φ) (idx : IVec ⟨2, ![E, 1]⟩ w) (upd : FVec Ideal ⟨3, ![E, B, C]⟩ φ)
    (n : Fin N) (b : Fin B) (q : Fin C) :
    Host.scatterAdd D x idx upd (ix3 n b q)
      = x (ix3 n b q) + ∑ e ∈ Finset.univ.filter (fun e : Fin E => (idx (ix2 e (0 : Fin 1))).toInt = (n.val : ℤ)), upd (ix3 e b q) := by
  obtain ⟨uw, iw, sd, iv, wf⟩ := D
  dsimp only at h1 h2 h3 h4
  subst h1 h2 h3 h4
  show Ideal.hostScatterAdd (sDims N B C E wf) x idx upd (ix3 n b q) = _
  unfold Ideal.hostScatterAdd
  congr 1
  -- the update entries landing on `(n, b, q)` are the `(e, b, q)` with row number `n`
  refine Finset.sum_nbij' (fun j => (j 0 : Fin E)) (fun e => ix3 e b q) ?_ ?_ ?_ ?_ ?_
  · intro j hj
    have hj' := (Finset.mem_filter.mp hj).2
    exact Finset.mem_filter.mpr ⟨Finset.mem_univ _, ((sDims_resultIdx?_iff wf idx j n b q).mp hj').1⟩
  · intro e he
    have he' := (Finset.mem_filter.mp he).2
    exact Finset.mem_filter.mpr
      ⟨Finset.mem_univ _, (sDims_resultIdx?_iff wf idx (ix3 e b q) n b q).mpr ⟨he', rfl, rfl⟩⟩
  · intro j hj
    have hj' := (Finset.mem_filter.mp hj).2
    obtain ⟨-, h1, h2⟩ := (sDims_resultIdx?_iff wf idx j n b q).mp hj'
    show ix3 (j 0 : Fin E) b q = j
    rw [← h1, ← h2]
    exact (eq_ix3 j).symm
  · intro e he
    rfl
  · intro j hj
    have hj' := (Finset.mem_filter.mp hj).2
    obtain ⟨-, h1, h2⟩ := (sDims_resultIdx?_iff wf idx j n b q).mp hj'
    show upd j = upd (ix3 (j 0 : Fin E) b q)
    rw [← h1, ← h2]
    exact congrArg upd (eq_ix3 j)

end Cert.LibRowsAt

end
-- ==== Proof.RGraph.lean ====
/-
  The reference's two rounds of message passing, read at an entry.

  The stacked node array at `(n, b, i)` is feature `i` of node `n` of batch row `b`. A round gathers each edge's source
  node (the table `[0, 0, 0, 1, 1, 2]`), multiplies by the edge's matrix in a product batched over the edges, adds the
  edge's bias, scatter-adds the six messages onto the target nodes (the table `[1, 2, 3, 2, 3, 3]`) from zero, adds the
  node's bias and the product, batched over the nodes, with the loop matrices. Read at `(n, b, q)` this is one round of the
  specification on row `b`'s node values. The second round's result loses its unit axis and is transposed to `[B, 4]`.
-/
import proofs.«124978_j13331578487072_1_alg».proof.Proof.RefTerms
import proofs.«124978_j13331578487072_1_alg».proof.Proof.Spec
import proofs.«124978_j13331578487072_1_alg».proof.Proof.LibDotAt
import proofs.«124978_j13331578487072_1_alg».proof.Proof.LibRowsAt
import Idealize.ShloMosaic.Lib.ValueLayout
import Idealize.ShloMosaic.Lib.Pipeline.Value
import Idealize.ShloMosaic.PureOps.Ideal.Laws

noncomputable section

open scoped BigOperators

namespace Cert.ReferenceIdeal.Rows

open Cert.ReferenceIdeal Cert.ReferenceIdeal.Gen Cert.ReferenceIdeal.Terms Idealize.ShloMosaic Idealize.ShloMosaic.ValueIdx Cert

/-- The stacked nodes at `(n, b, i)`: node `n`'s feature `i` in row `b`. -/
theorem nodesT_at (a0 : FVec Ideal S1048576x8 .f32) (a1 a2 : FVec Ideal S1048576x2 .f32) (n : Fin 4) (b : Fin 1048576) (i : Fin 2) :
    nodesT (F := Ideal) a0 a1 a2 (ix3 n b i) = Spec.nodeRow (Spec.row2 a0 b) (Spec.row2 a1 b) (Spec.row2 a2 b) n i := by
  unfold nodesT
  match n with
  | ⟨0, _⟩ =>
    refine Eq.trans (concatenate_apply_piece (t := S4x1048576x2) (0 : Fin 3) _ _ _ 0 (by simp) S1x1048576x2 _ rfl rfl 0 rfl (ix3 (0 : Fin 1) b i)
      (fun c hc => by match c with | ⟨0, _⟩ => exact absurd rfl hc | ⟨1, _⟩ => rfl | ⟨2, _⟩ => rfl) rfl) ?_
    refine (broadcastInDim_apply _ _ _ _ (ix2 b i) (fun c => by match c with | ⟨0, _⟩ => rfl | ⟨1, _⟩ => rfl)).trans ?_
    exact slice2_axis1_apply 6 a0 _ b i ⟨6 + i.val, by omega⟩ rfl
  | ⟨1, _⟩ =>
    refine Eq.trans (concatenate_apply_piece (t := S4x1048576x2) (0 : Fin 3) _ _ _ 1 (by simp) S1x1048576x2 _ rfl rfl 1 rfl (ix3 (0 : Fin 1) b i)
      (fun c hc => by match c with | ⟨0, _⟩ => exact absurd rfl hc | ⟨1, _⟩ => rfl | ⟨2, _⟩ => rfl) rfl) ?_
    exact (broadcastInDim_apply _ _ _ _ (ix2 b i) (fun c => by match c with | ⟨0, _⟩ => rfl | ⟨1, _⟩ => rfl))
  | ⟨2, _⟩ =>
    refine Eq.trans (concatenate_apply_piece (t := S4x1048576x2) (0 : Fin 3) _ _ _ 2 (by simp) S1x1048576x2 _ rfl rfl 2 rfl (ix3 (0 : Fin 1) b i)
      (fun c hc => by match c with | ⟨0, _⟩ => exact absurd rfl hc | ⟨1, _⟩ => rfl | ⟨2, _⟩ => rfl) rfl) ?_
    exact (broadcastInDim_apply _ _ _ _ (ix2 b i) (fun c => by match c with | ⟨0, _⟩ => rfl | ⟨1, _⟩ => rfl))
  | ⟨3, _⟩ =>
    refine Eq.trans (concatenate_apply_piece (t := S4x1048576x2) (0 : Fin 3) _ _ _ 3 (by simp) S1x1048576x2 _ rfl rfl 3 rfl (ix3 (0 : Fin 1) b i)
      (fun c hc => by match c with | ⟨0, _⟩ => exact absurd rfl hc | ⟨1, _⟩ => rfl | ⟨2, _⟩ => rfl) rfl) ?_
    refine (broadcastInDim_apply _ _ _ _ (ix2 b i) (fun c => by match c with | ⟨0, _⟩ => rfl | ⟨1, _⟩ => rfl)).trans ?_
    exact slice2_axis1_apply 0 a0 _ b i ⟨i.val, by omega⟩ (Nat.zero_add _).symm

/-- The source column's word for edge `e` is the edge's source node. -/
theorem srcCol_at (e : Fin 6) : (srcCol (ix2 e (0 : Fin 1))).toInt.toNat = (Spec.src e).val := by
  match e with
  | ⟨0, _⟩ => rfl
  | ⟨1, _⟩ => rfl
  | ⟨2, _⟩ => rfl
  | ⟨3, _⟩ => rfl
  | ⟨4, _⟩ => rfl
  | ⟨5, _⟩ => rfl

/-- The target column's word for edge `e` is the edge's target node. -/
theorem dstCol_at (e : Fin 6) : (dstCol (ix2 e (0 : Fin 1))).toInt = ((Spec.dst e).val : ℤ) := by
  match e with
  | ⟨0, _⟩ => rfl
  | ⟨1, _⟩ => rfl
  | ⟨2, _⟩ => rfl
  | ⟨3, _⟩ => rfl
  | ⟨4, _⟩ => rfl
  | ⟨5, _⟩ => rfl

/-- The tanh of an array of extended reals, read at an index, is the tanh of the entry there. -/
private theorem host_tanh_at {s : Shape} {φ : FTy} (x : FVec Ideal s φ) (i : s.Idx) : Host.tanh x i = Ideal.tanh (x i) := rfl

/-- One round before its tanh, for any row count and feature counts: the scatter-add from zero of the six messages, the
    node's bias and the loop product, read at `(n, b, q)`, are the specification's round on row `b`'s node values. -/
private theorem round_at {B I O : ℕ}
    (DS : ScatterDims ⟨3, ![4, B, O]⟩ ⟨2, ![6, 1]⟩ ⟨3, ![6, B, O]⟩)
    (hs1 : DS.updateWindowDims = [1, 2]) (hs2 : DS.insertedWindowDims = [0]) (hs3 : DS.scatterDimsToOperandDims = [0])
    (hs4 : DS.indexVectorDim = 1)
    (DM : DotDims ⟨3, ![6, B, I]⟩ ⟨3, ![6, I, O]⟩ ⟨3, ![6, B, O]⟩)
    (hm1 : DM.lhsContracting = [2]) (hm2 : DM.rhsContracting = [1]) (hm3 : DM.lhsBatch = [0]) (hm4 : DM.rhsBatch = [0])
    (hm5 : DM.lhsNonContracting = [1]) (hm6 : DM.rhsNonContracting = [2])
    (DG : GatherDims ⟨3, ![4, B, I]⟩ ⟨2, ![6, 1]⟩ ⟨3, ![6, B, I]⟩)
    (hg1 : DG.offsetDims = [1, 2]) (hg2 : DG.collapsedSliceDims = [0]) (hg3 : DG.operandBatchingDims = [])
    (hg4 : DG.startIndicesBatchingDims = []) (hg5 : DG.startIndexMap = [0]) (hg6 : DG.indexVectorDim = 1)
    (hg7 : DG.sliceSizes = ![1, B, I])
    (DL : DotDims ⟨3, ![4, B, I]⟩ ⟨3, ![4, I, O]⟩ ⟨3, ![4, B, O]⟩)
    (hl1 : DL.lhsContracting = [2]) (hl2 : DL.rhsContracting = [1]) (hl3 : DL.lhsBatch = [0]) (hl4 : DL.rhsBatch = [0])
    (hl5 : DL.lhsNonContracting = [1]) (hl6 : DL.rhsNonContracting = [2])
    (hz : (⟨0, ![]⟩ : Shape).BroadcastsInDim ⟨3, ![4, B, O]⟩ ![])
    (hbm : (⟨3, ![6, 1, O]⟩ : Shape).BroadcastsInDim ⟨3, ![6, B, O]⟩ ![0, 1, 2])
    (hbh : (⟨3, ![4, 1, O]⟩ : Shape).BroadcastsInDim ⟨3, ![4, B, O]⟩ ![0, 1, 2])
    (h : FVec Ideal ⟨3, ![4, B, I]⟩ .f32) (lw : FVec Ideal ⟨3, ![4, I, O]⟩ .f32) (W : FVec Ideal ⟨3, ![6, I, O]⟩ .f32)
    (mb : FVec Ideal ⟨3, ![6, 1, O]⟩ .f32) (hb : FVec Ideal ⟨3, ![4, 1, O]⟩ .f32) (n : Fin 4) (b : Fin B) (q : Fin O) :
    addf (addf (Host.scatterAdd DS (broadcastInDim ⟨3, ![4, B, O]⟩ ![] hz (constant ⟨0, ![]⟩ .f32 0x00000000#32)) dstCol
          (addf (Host.dotGeneral DM none (Host.gather DG h srcCol) W) (broadcastInDim ⟨3, ![6, B, O]⟩ ![0, 1, 2] hbm mb)))
        (broadcastInDim ⟨3, ![4, B, O]⟩ ![0, 1, 2] hbh hb)) (Host.dotGeneral DL none h lw) (ix3 n b q)
      = Spec.gnn lw W mb hb (fun n i => h (ix3 n b i)) n q := by
  unfold Spec.gnn Spec.msg Spec.loop
  refine Eq.trans (addf_apply _ _ _) ?_
  refine congrArg₂ (· + ·) (Eq.trans (addf_apply _ _ _) (congrArg₂ (· + ·) ?_ ?_)) ?_
  · -- the scatter-add from zero: the sum of the messages of the edges that enter `n`
    refine (Cert.LibRowsAt.scatterAdd_rows_at DS hs1 hs2 hs3 hs4 _ dstCol _ n b q).trans ?_
    refine Eq.trans (congrArg₂ (· + ·) (Ideal.ofBits_zero_f32) rfl) ?_
    refine Eq.trans (zero_add _) ?_
    refine Finset.sum_congr ?_ ?_
    · refine Finset.filter_congr fun e _ => ?_
      rw [dstCol_at]
      constructor
      · intro he; exact Fin.ext (Int.ofNat_inj.mp he)
      · intro he; rw [he]
    · intro e _
      refine Eq.trans (addf_apply _ _ _) ?_
      refine congrArg₂ (· + ·) ?_ ?_
      · -- the batched product reads the gathered source node's features
        refine (Cert.LibDotAt.dotGeneral_batched_at DM hm1 hm2 hm3 hm4 hm5 hm6 none _ W e b q).trans ?_
        refine Finset.sum_congr rfl fun c _ => ?_
        refine congrArg (· * W (ix3 e c q)) ?_
        exact Cert.LibRowsAt.gather_rows_at DG hg1 hg2 hg3 hg4 hg5 hg6 hg7 h srcCol e b c (Spec.src e)
          (by rw [srcCol_at]; have := (Spec.src e).isLt; omega)
      · exact broadcastInDim_apply _ _ mb _ (ix3 e (0 : Fin 1) q) (fun a => by
          match a with
          | ⟨0, _⟩ => rfl
          | ⟨1, _⟩ => rfl
          | ⟨2, _⟩ =>
            show q.val = if O = 1 then 0 else q.val
            have := q.isLt
            split <;> omega)
  · exact broadcastInDim_apply _ _ hb _ (ix3 n (0 : Fin 1) q) (fun a => by
      match a with
      | ⟨0, _⟩ => rfl
      | ⟨1, _⟩ => rfl
      | ⟨2, _⟩ =>
        show q.val = if O = 1 then 0 else q.val
        have := q.isLt
        split <;> omega)
  · exact Cert.LibDotAt.dotGeneral_batched_at DL hl1 hl2 hl3 hl4 hl5 hl6 none h lw n b q

/-- The first round at `(n, b, q)`. -/
theorem layer1T_at (h : FVec Ideal S4x1048576x2 .f32) (lw : FVec Ideal S4x2x4 .f32) (W : FVec Ideal S6x2x4 .f32)
    (mb : FVec Ideal S6x1x4 .f32) (hb : FVec Ideal S4x1x4 .f32) (n : Fin 4) (b : Fin 1048576) (q : Fin 4) :
    layer1T (F := Ideal) h lw W mb hb (ix3 n b q) = Ideal.tanh (Spec.gnn lw W mb hb (fun n i => h (ix3 n b i)) n q) := by
  unfold layer1T
  refine Eq.trans (host_tanh_at _ _) (congrArg Ideal.tanh ?_)
  exact round_at scatter_S4x1048576x4_S6x1_S6x1048576x4_12_0_0_1 rfl rfl rfl rfl
    dot_S6x1048576x2_S6x2x4_S6x1048576x4_2_1_1_2_0_0 rfl rfl rfl rfl rfl rfl
    gather_S4x1048576x2_S6x1_S6x1048576x2_12_0_n_n_0_1_110485762 rfl rfl rfl rfl rfl rfl rfl
    dot_S4x1048576x2_S4x2x4_S4x1048576x4_2_1_1_2_0_0 rfl rfl rfl rfl rfl rfl
    _ _ _ h lw W mb hb n b q

/-- The second round, transposed, at `(b, n)`. -/
theorem layer2T_at (x : FVec Ideal S4x1048576x4 .f32) (lw : FVec Ideal S4x4x1 .f32) (W : FVec Ideal S6x4x1 .f32)
    (mb : FVec Ideal S6x1x1 .f32) (hb : FVec Ideal S4x1x1 .f32) (b : Fin 1048576) (n : Fin 4) :
    layer2T (F := Ideal) x lw W mb hb (ix2 b n) = Ideal.tanh (Spec.gnn lw W mb hb (fun n i => x (ix3 n b i)) n (0 : Fin 1)) := by
  unfold layer2T
  refine Eq.trans (transpose_ix2_apply _ _ b n) ?_
  refine Eq.trans (host_tanh_at _ _) (congrArg Ideal.tanh ?_)
  refine Eq.trans (shapeCast_apply _ _ (ix2 n b) (ix3 n b (0 : Fin 1)) (by
    rw [Shape.rowMajor_val_three, Shape.rowMajor_val_two]
    show (n.val * 1048576 + b.val) * 1 + 0 = n.val * 1048576 + b.val
    omega)) ?_
  exact round_at scatter_S4x1048576x1_S6x1_S6x1048576x1_12_0_0_1 rfl rfl rfl rfl
    dot_S6x1048576x4_S6x4x1_S6x1048576x1_2_1_1_2_0_0 rfl rfl rfl rfl rfl rfl
    gather_S4x1048576x4_S6x1_S6x1048576x4_12_0_n_n_0_1_110485764 rfl rfl rfl rfl rfl rfl rfl
    dot_S4x1048576x4_S4x4x1_S4x1048576x1_2_1_1_2_0_0 rfl rfl rfl rfl rfl rfl
    _ _ _ x lw W mb hb n b (0 : Fin 1)

end Cert.ReferenceIdeal.Rows

end
-- ==== Proof.RHeads.lean ====
/-
  The reference's dense layers and its log-probability, read at a row.

  A dense layer at `(b, j)` is the row's inputs times the weight column plus the bias entry; the hidden layers apply tanh.
  The log-probability subtracts the action from itself: where the action is a real number the difference is zero, and
  the rest is the same expression as the specification's; the action means are real when the action layer's weights and
  bias are, since a tanh is always a real number between -1 and 1 and a finite sum of products of reals is real.
-/
import proofs.«124978_j13331578487072_1_alg».proof.Proof.RefTerms
import proofs.«124978_j13331578487072_1_alg».proof.Proof.Spec
import proofs.«124978_j13331578487072_1_alg».proof.Proof.LibDotAt
import Idealize.ShloMosaic.Lib.ValueLayout
import Idealize.ShloMosaic.Lib.Pipeline.Value
import Idealize.ShloMosaic.PureOps.Ideal.Laws

noncomputable section

open scoped BigOperators

namespace Cert.ReferenceIdeal.Rows

open Cert.ReferenceIdeal Cert.ReferenceIdeal.Gen Cert.ReferenceIdeal.Terms Idealize.ShloMosaic Idealize.ShloMosaic.ValueIdx Cert

/-- A bias vector broadcast to one row and then to every row reads, at `(b, j)`, its entry `j`. -/
private theorem bias_at {B N : ℕ} {α : Type} (h2 : (⟨2, ![1, N]⟩ : Shape).BroadcastsInDim ⟨2, ![B, N]⟩ ![0, 1])
    (h1 : (⟨1, ![N]⟩ : Shape).BroadcastsInDim ⟨2, ![1, N]⟩ ![1]) (v : (⟨1, ![N]⟩ : Shape).Idx → α) (b : Fin B) (j : Fin N) :
    broadcastInDim ⟨2, ![B, N]⟩ ![0, 1] h2 (broadcastInDim ⟨2, ![1, N]⟩ ![1] h1 v) (ix2 b j) = v (ix1 j) := by
  refine (broadcastInDim_apply _ h2 _ (ix2 b j) (ix2 (0 : Fin 1) j) (fun a => ?_)).trans ?_
  · match a with
    | ⟨0, _⟩ => rfl
    | ⟨1, _⟩ =>
      show j.val = if N = 1 then 0 else j.val
      split_ifs with h
      · subst h; omega
      · rfl
  · refine broadcastInDim_apply _ h1 v (ix2 (0 : Fin 1) j) (ix1 j) (fun a => ?_)
    match a with
    | ⟨0, _⟩ =>
      show j.val = if N = 1 then 0 else j.val
      split_ifs with h
      · subst h; omega
      · rfl

/-- A dense layer at `(b, j)`: the row's inputs times the weight column, plus the bias entry. -/
private theorem dense_at {B K N : ℕ} (d : DotDims ⟨2, ![B, K]⟩ ⟨2, ![K, N]⟩ ⟨2, ![B, N]⟩)
    (hlc : d.lhsContracting = [1]) (hrc : d.rhsContracting = [0]) (hlb : d.lhsBatch = []) (hrb : d.rhsBatch = [])
    (hln : d.lhsNonContracting = [0]) (hrn : d.rhsNonContracting = [1])
    (h2 : (⟨2, ![1, N]⟩ : Shape).BroadcastsInDim ⟨2, ![B, N]⟩ ![0, 1])
    (h1 : (⟨1, ![N]⟩ : Shape).BroadcastsInDim ⟨2, ![1, N]⟩ ![1])
    (x : FVec Ideal ⟨2, ![B, K]⟩ .f32) (w : FVec Ideal ⟨2, ![K, N]⟩ .f32) (b' : FVec Ideal ⟨1, ![N]⟩ .f32) (b : Fin B) (j : Fin N) :
    addf (Host.dotGeneral d none x w) (broadcastInDim ⟨2, ![B, N]⟩ ![0, 1] h2 (broadcastInDim ⟨2, ![1, N]⟩ ![1] h1 b')) (ix2 b j)
      = Spec.dense w b' (fun k => x (ix2 b k)) j := by
  show Host.dotGeneral d none x w (ix2 b j) + broadcastInDim ⟨2, ![B, N]⟩ ![0, 1] h2 (broadcastInDim ⟨2, ![1, N]⟩ ![1] h1 b') (ix2 b j) = _
  rw [bias_at h2 h1 b' b j, Cert.LibDotAt.dotGeneral_at d hlc hrc hlb hrb hln hrn none x w b j]
  rfl

theorem glT_at (g : FVec Ideal S1048576x4 .f32) (w : FVec Ideal S4x4 .f32) (b' : FVec Ideal S4 .f32) (b : Fin 1048576) (q : Fin 4) :
    glT (F := Ideal) g w b' (ix2 b q) = Ideal.tanh (Spec.dense w b' (fun n => g (ix2 b n)) q) := by
  exact congrArg Ideal.tanh (dense_at _ rfl rfl rfl rfl rfl rfl _ _ g w b' b q)

theorem featT_at (gl : FVec Ideal S1048576x4 .f32) (a0 : FVec Ideal S1048576x8 .f32) (b : Fin 1048576) (k : Fin 8) :
    featT (F := Ideal) gl a0 (ix2 b k) = Spec.feat (fun q => gl (ix2 b q)) (Spec.midRow (Spec.row2 a0 b)) k := by
  by_cases h : k.val < 4
  · rw [Spec.feat, dif_pos h]
    exact concatenate_pair_apply_left (1 : Fin 2) gl _ _ (ix2 b k) rfl (ix2 b ⟨k.val, h⟩)
      (fun a => by match a with | ⟨0, _⟩ => rfl | ⟨1, _⟩ => rfl)
  · rw [Spec.feat, dif_neg h]
    refine (concatenate_pair_apply_right (s₂ := S1048576x4) (1 : Fin 2) gl
      (extractStridedSlice S1048576x4 ![0, 2] a0 slices_S1048576x8_S1048576x4_0_2) _ (ix2 b k) rfl rfl
      (ix2 b (⟨k.val - 4, by omega⟩ : Fin 4)) (fun a ha => ?_) ?_).trans ?_
    · match a with
      | ⟨0, _⟩ => rfl
      | ⟨1, _⟩ => exact absurd rfl ha
    · show (k.val - 4) + 4 = k.val
      omega
    · exact slice2_axis1_apply 2 a0 _ b ⟨k.val - 4, by omega⟩ ⟨2 + (k.val - 4), by omega⟩ rfl

theorem sharedRT_at (f : FVec Ideal S1048576x8 .f32) (w : FVec Ideal S8x64 .f32) (b' : FVec Ideal S64 .f32) (b : Fin 1048576) (j : Fin 64) :
    sharedRT (F := Ideal) f w b' (ix2 b j) = Ideal.tanh (Spec.dense w b' (fun k => f (ix2 b k)) j) := by
  exact congrArg Ideal.tanh (dense_at _ rfl rfl rfl rfl rfl rfl _ _ f w b' b j)

theorem hiddenT_at (s : FVec Ideal S1048576x64 .f32) (w : FVec Ideal S64x64 .f32) (b' : FVec Ideal S64 .f32) (b : Fin 1048576) (j : Fin 64) :
    hiddenT (F := Ideal) s w b' (ix2 b j) = Ideal.tanh (Spec.dense w b' (fun k => s (ix2 b k)) j) := by
  exact congrArg Ideal.tanh (dense_at _ rfl rfl rfl rfl rfl rfl _ _ s w b' b j)

theorem actT_at (l : FVec Ideal S1048576x64 .f32) (w : FVec Ideal S64x2 .f32) (b' : FVec Ideal S2 .f32) (b : Fin 1048576) (a : Fin 2) :
    actT (F := Ideal) l w b' (ix2 b a) = Spec.dense w b' (fun k => l (ix2 b k)) a := by
  exact dense_at _ rfl rfl rfl rfl rfl rfl _ _ l w b' b a

theorem valT_at (l : FVec Ideal S1048576x64 .f32) (w : FVec Ideal S64x1 .f32) (b' : FVec Ideal S1 .f32) (b : Fin 1048576) (u : Fin 1) :
    valT (F := Ideal) l w b' (ix2 b u) = Spec.dense w b' (fun k => l (ix2 b k)) (0 : Fin 1) := by
  obtain rfl : u = 0 := Subsingleton.elim _ _
  exact dense_at _ rfl rfl rfl rfl rfl rfl _ _ l w b' b 0

/-- A tanh is a real number, whatever its argument. -/
private theorem tanh_real (x : EReal) : ∃ r : ℝ, Ideal.tanh x = (r : EReal) := by
  induction x using EReal.rec with
  | bot => exact ⟨-1, by rw [Ideal.tanh_bot, EReal.coe_neg, EReal.coe_one]⟩
  | coe r => exact ⟨Real.tanh r, Ideal.tanh_coe r⟩
  | top => exact ⟨1, by rw [Ideal.tanh_top, EReal.coe_one]⟩

/-- A finite sum of real numbers, read in the extended reals, is the sum of the terms read there. -/
private theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The action means are real numbers when the action layer's weights and bias are: its inputs are tanh values. -/
theorem actT_real (s : FVec Ideal S1048576x64 .f32) (w0 : FVec Ideal S64x64 .f32) (b0 : FVec Ideal S64 .f32)
    (w : FVec Ideal S64x2 .f32) (b' : FVec Ideal S2 .f32) (hw : ∀ i, ∃ r : ℝ, w i = (r : EReal)) (hb : ∀ i, ∃ r : ℝ, b' i = (r : EReal))
    (b : Fin 1048576) (a : Fin 2) :
    ∃ r : ℝ, actT (F := Ideal) (hiddenT s w0 b0) w b' (ix2 b a) = (r : EReal) := by
  rw [actT_at]
  unfold Spec.dense
  beta_reduce
  choose wr hwr using hw
  choose br hbr using hb
  have ht : ∀ k : Fin 64, ∃ r : ℝ, hiddenT (F := Ideal) s w0 b0 (ix2 b k) = (r : EReal) := fun k => by
    rw [hiddenT_at]
    exact tanh_real _
  choose tr htr using ht
  refine ⟨(∑ k : Fin 64, tr k * wr (ix2 k a)) + br (ix1 a), ?_⟩
  rw [EReal.coe_add, coe_sum, hbr]
  congr 1
  refine Finset.sum_congr rfl fun k _ => ?_
  rw [htr, hwr, EReal.coe_mul]

/-- The log-probability at row `b`, where the row's two action means are real. -/
theorem logpT_at (act : FVec Ideal S1048576x2 .f32) (ls : FVec Ideal S2 .f32) (b : Fin 1048576)
    (hfin : ∀ a : Fin 2, ∃ r : ℝ, act (ix2 b a) = (r : EReal)) :
    logpT (F := Ideal) act ls (ix1 b) = Spec.logpOf ls := by
  have hR : (S1048576x2 : Shape).Reduces [1] S1048576 := by decide
  have hlift : ∀ k : Fin 2, hR.lift (ix1 b) k = ix2 b k := fun k => by
    funext a
    match a with
    | ⟨0, _⟩ => exact Fin.ext rfl
    | ⟨1, _⟩ => exact Fin.ext rfl
  refine (Ideal.hostReduceAdd_single reducesTo_S1048576x2_S1048576_d1 hR _ _ (ix1 b)).trans ?_
  rw [show (constant (F := Ideal) S_ .f32 0x00000000#32 (Shape.Idx.first h_S_)) = 0 from Ideal.ofBits_zero_f32, zero_add]
  unfold Spec.logpOf
  refine Finset.sum_congr rfl fun (k : Fin 2) _ => ?_
  rw [hlift k]
  obtain ⟨r, hr⟩ := hfin k
  have hdev : devT (F := Ideal) act ls (ix2 b k) = Ideal.div 0 (Ideal.exp (ls (ix1 k))) := by
    show Ideal.div (act (ix2 b k) - act (ix2 b k))
      (broadcastInDim S1048576x2 ![0, 1] bcast_S1x2_S1048576x2_0_1
        (broadcastInDim S1x2 ![1] bcast_S2_S1x2_1 (Host.exp ls)) (ix2 b k)) = _
    rw [bias_at, hr, ← EReal.coe_sub, sub_self, EReal.coe_zero]
    rfl
  show Ideal.ofBits .f32 0xBF000000#32 * (devT (F := Ideal) act ls (ix2 b k) * devT (F := Ideal) act ls (ix2 b k))
      - broadcastInDim S1048576x2 ![0, 1] bcast_S1x2_S1048576x2_0_1 (broadcastInDim S1x2 ![1] bcast_S2_S1x2_1 ls) (ix2 b k)
      - Ideal.ofBits .f32 0x3F6B3F8E#32 = _
  rw [hdev, bias_at]

end Cert.ReferenceIdeal.Rows

end
-- ==== Proof.RRows.lean ====
/-
  The reference's three results as the specification's whole-array functions of the arguments.

  Row by row: the stacked nodes are the row's node features; the first round on them is the specification's first round;
  the second round, the latent features, the eight shared inputs, the shared layer and the two heads follow stage by
  stage. The log-probability needs the action means to be real numbers, which they are when the action layer's weights
  and bias are.
-/
import proofs.«124978_j13331578487072_1_alg».proof.Proof.RGraph
import proofs.«124978_j13331578487072_1_alg».proof.Proof.RHeads

noncomputable section

open scoped BigOperators

namespace Cert.ReferenceIdeal.Rows

open Cert.ReferenceIdeal Cert.ReferenceIdeal.Gen Cert.ReferenceIdeal.Terms Idealize.ShloMosaic Idealize.ShloMosaic.ValueIdx Cert

variable (a0 : FVec Ideal S1048576x8 .f32) (a1 : FVec Ideal S1048576x2 .f32) (a2 : FVec Ideal S1048576x2 .f32) (a3 : FVec Ideal S4x2x4 .f32) (a4 : FVec Ideal S6x2x4 .f32) (a5 : FVec Ideal S6x1x4 .f32) (a6 : FVec Ideal S4x1x4 .f32) (a7 : FVec Ideal S4x4x1 .f32) (a8 : FVec Ideal S6x4x1 .f32) (a9 : FVec Ideal S6x1x1 .f32) (a10 : FVec Ideal S4x1x1 .f32) (a11 : FVec Ideal S4x4 .f32) (a12 : FVec Ideal S4 .f32) (a13 : FVec Ideal S8x64 .f32) (a14 : FVec Ideal S64 .f32) (a15 : FVec Ideal S64x64 .f32) (a16 : FVec Ideal S64 .f32) (a17 : FVec Ideal S64x2 .f32) (a18 : FVec Ideal S2 .f32) (a19 : FVec Ideal S2 .f32) (a20 : FVec Ideal S64x64 .f32) (a21 : FVec Ideal S64 .f32) (a22 : FVec Ideal S64x1 .f32) (a23 : FVec Ideal S1 .f32)

/-- The parameters, from the twenty-one parameter arrays. -/
abbrev mkP (a3 : FVec Ideal S4x2x4 .f32) (a4 : FVec Ideal S6x2x4 .f32) (a5 : FVec Ideal S6x1x4 .f32) (a6 : FVec Ideal S4x1x4 .f32) (a7 : FVec Ideal S4x4x1 .f32) (a8 : FVec Ideal S6x4x1 .f32) (a9 : FVec Ideal S6x1x1 .f32) (a10 : FVec Ideal S4x1x1 .f32) (a11 : FVec Ideal S4x4 .f32) (a12 : FVec Ideal S4 .f32) (a13 : FVec Ideal S8x64 .f32) (a14 : FVec Ideal S64 .f32) (a15 : FVec Ideal S64x64 .f32) (a16 : FVec Ideal S64 .f32) (a17 : FVec Ideal S64x2 .f32) (a18 : FVec Ideal S2 .f32) (a19 : FVec Ideal S2 .f32) (a20 : FVec Ideal S64x64 .f32) (a21 : FVec Ideal S64 .f32) (a22 : FVec Ideal S64x1 .f32) (a23 : FVec Ideal S1 .f32) : Spec.Params :=
  ⟨a3, a4, a5, a6, a7, a8, a9, a10, a11, a12, a13, a14, a15, a16, a17, a18, a19, a20, a21, a22, a23⟩

/-- Row `b`'s four nodes, read off the three batch arrays. -/
abbrev ndR (a0 : FVec Ideal S1048576x8 .f32) (a1 a2 : FVec Ideal S1048576x2 .f32) (b : Fin 1048576) : Fin 4 → Fin 2 → EReal :=
  Spec.nodeRow (Spec.row2 a0 b) (Spec.row2 a1 b) (Spec.row2 a2 b)

variable (b : Fin 1048576)

theorem x_row : (fun n i => (layer1T (F := Ideal) (nodesT a0 a1 a2) a3 a4 a5 a6) (ix3 n b i)) = Spec.X (mkP a3 a4 a5 a6 a7 a8 a9 a10 a11 a12 a13 a14 a15 a16 a17 a18 a19 a20 a21 a22 a23) (ndR a0 a1 a2 b) := by
  funext n i
  rw [layer1T_at]
  have hn : (fun n i => nodesT (F := Ideal) a0 a1 a2 (ix3 n b i)) = ndR a0 a1 a2 b := by
    funext n i; exact nodesT_at a0 a1 a2 n b i
  rw [hn]; rfl

theorem y_row : (fun n => (layer2T (F := Ideal) (layer1T (F := Ideal) (nodesT a0 a1 a2) a3 a4 a5 a6) a7 a8 a9 a10) (ix2 b n)) = Spec.Y (mkP a3 a4 a5 a6 a7 a8 a9 a10 a11 a12 a13 a14 a15 a16 a17 a18 a19 a20 a21 a22 a23) (Spec.X (mkP a3 a4 a5 a6 a7 a8 a9 a10 a11 a12 a13 a14 a15 a16 a17 a18 a19 a20 a21 a22 a23) (ndR a0 a1 a2 b)) := by
  funext n
  rw [layer2T_at, x_row a0 a1 a2 a3 a4 a5 a6 a7 a8 a9 a10 a11 a12 a13 a14 a15 a16 a17 a18 a19 a20 a21 a22 a23 b]; rfl

theorem gl_row : (fun q => (glT (F := Ideal) (layer2T (F := Ideal) (layer1T (F := Ideal) (nodesT a0 a1 a2) a3 a4 a5 a6) a7 a8 a9 a10) a11 a12) (ix2 b q)) = Spec.glat (mkP a3 a4 a5 a6 a7 a8 a9 a10 a11 a12 a13 a14 a15 a16 a17 a18 a19 a20 a21 a22 a23) (Spec.Y (mkP a3 a4 a5 a6 a7 a8 a9 a10 a11 a12 a13 a14 a15 a16 a17 a18 a19 a20 a21 a22 a23) (Spec.X (mkP a3 a4 a5 a6 a7 a8 a9 a10 a11 a12 a13 a14 a15 a16 a17 a18 a19 a20 a21 a22 a23) (ndR a0 a1 a2 b))) := by
  funext q
  rw [glT_at, y_row a0 a1 a2 a3 a4 a5 a6 a7 a8 a9 a10 a11 a12 a13 a14 a15 a16 a17 a18 a19 a20 a21 a22 a23 b]; rfl

theorem feat_row : (fun k => (featT (F := Ideal) (glT (F := Ideal) (layer2T (F := Ideal) (layer1T (F := Ideal) (nodesT a0 a1 a2) a3 a4 a5 a6) a7 a8 a9 a10) a11 a12) a0) (ix2 b k))
    = Spec.feat (Spec.glat (mkP a3 a4 a5 a6 a7 a8 a9 a10 a11 a12 a13 a14 a15 a16 a17 a18 a19 a20 a21 a22 a23) (Spec.Y (mkP a3 a4 a5 a6 a7 a8 a9 a10 a11 a12 a13 a14 a15 a16 a17 a18 a19 a20 a21 a22 a23) (Spec.X (mkP a3 a4 a5 a6 a7 a8 a9 a10 a11 a12 a13 a14 a15 a16 a17 a18 a19 a20 a21 a22 a23) (ndR a0 a1 a2 b)))) (Spec.midRow (Spec.row2 a0 b)) := by
  funext k
  rw [featT_at, gl_row a0 a1 a2 a3 a4 a5 a6 a7 a8 a9 a10 a11 a12 a13 a14 a15 a16 a17 a18 a19 a20 a21 a22 a23 b]

theorem shared_row : (fun j => sharedFull (F := Ideal) a0 a1 a2 a3 a4 a5 a6 a7 a8 a9 a10 a11 a12 a13 a14 (ix2 b j)) = Spec.sharedRow (mkP a3 a4 a5 a6 a7 a8 a9 a10 a11 a12 a13 a14 a15 a16 a17 a18 a19 a20 a21 a22 a23) (ndR a0 a1 a2 b) (Spec.midRow (Spec.row2 a0 b)) := by
  funext j
  unfold sharedFull
  rw [sharedRT_at, feat_row a0 a1 a2 a3 a4 a5 a6 a7 a8 a9 a10 a11 a12 a13 a14 a15 a16 a17 a18 a19 a20 a21 a22 a23 b]; rfl

/-- The first result is the specification's action means. -/
theorem resAct_eq : resAct (F := Ideal) a0 a1 a2 a3 a4 a5 a6 a7 a8 a9 a10 a11 a12 a13 a14 a15 a16 a17 a18 = Spec.Gact (mkP a3 a4 a5 a6 a7 a8 a9 a10 a11 a12 a13 a14 a15 a16 a17 a18 a19 a20 a21 a22 a23) a0 a1 a2 := by
  funext j
  obtain ⟨b, a, rfl⟩ : ∃ (b : Fin 1048576) (a : Fin 2), j = ix2 b a := ⟨j 0, j 1, eq_ix2 j⟩
  unfold resAct
  rw [actT_at]
  have hl : (fun k => hiddenT (F := Ideal) (sharedFull a0 a1 a2 a3 a4 a5 a6 a7 a8 a9 a10 a11 a12 a13 a14) a15 a16 (ix2 b k))
      = Spec.lpi (mkP a3 a4 a5 a6 a7 a8 a9 a10 a11 a12 a13 a14 a15 a16 a17 a18 a19 a20 a21 a22 a23) (Spec.sharedRow (mkP a3 a4 a5 a6 a7 a8 a9 a10 a11 a12 a13 a14 a15 a16 a17 a18 a19 a20 a21 a22 a23) (ndR a0 a1 a2 b) (Spec.midRow (Spec.row2 a0 b))) := by
    funext k; rw [hiddenT_at, shared_row a0 a1 a2 a3 a4 a5 a6 a7 a8 a9 a10 a11 a12 a13 a14 a15 a16 a17 a18 a19 a20 a21 a22 a23 b]; rfl
  rw [hl]; rfl

/-- The second result is the specification's values. -/
theorem resVal_eq : resVal (F := Ideal) a0 a1 a2 a3 a4 a5 a6 a7 a8 a9 a10 a11 a12 a13 a14 a20 a21 a22 a23 = Spec.Gval (mkP a3 a4 a5 a6 a7 a8 a9 a10 a11 a12 a13 a14 a15 a16 a17 a18 a19 a20 a21 a22 a23) a0 a1 a2 := by
  funext j
  obtain ⟨b, u, rfl⟩ : ∃ (b : Fin 1048576) (u : Fin 1), j = ix2 b u := ⟨j 0, j 1, eq_ix2 j⟩
  unfold resVal
  rw [valT_at]
  have hl : (fun k => hiddenT (F := Ideal) (sharedFull a0 a1 a2 a3 a4 a5 a6 a7 a8 a9 a10 a11 a12 a13 a14) a20 a21 (ix2 b k))
      = Spec.lvf (mkP a3 a4 a5 a6 a7 a8 a9 a10 a11 a12 a13 a14 a15 a16 a17 a18 a19 a20 a21 a22 a23) (Spec.sharedRow (mkP a3 a4 a5 a6 a7 a8 a9 a10 a11 a12 a13 a14 a15 a16 a17 a18 a19 a20 a21 a22 a23) (ndR a0 a1 a2 b) (Spec.midRow (Spec.row2 a0 b))) := by
    funext k; rw [hiddenT_at, shared_row a0 a1 a2 a3 a4 a5 a6 a7 a8 a9 a10 a11 a12 a13 a14 a15 a16 a17 a18 a19 a20 a21 a22 a23 b]; rfl
  rw [hl]; rfl

/-- The third result is the specification's log-probability, when the action layer's weights and bias are real. -/
theorem resLogp_eq (hw : ∀ i, ∃ r : ℝ, a17 i = (r : EReal)) (hb : ∀ i, ∃ r : ℝ, a18 i = (r : EReal)) :
    resLogp (F := Ideal) a0 a1 a2 a3 a4 a5 a6 a7 a8 a9 a10 a11 a12 a13 a14 a15 a16 a17 a18 a19 = Spec.Glogp (mkP a3 a4 a5 a6 a7 a8 a9 a10 a11 a12 a13 a14 a15 a16 a17 a18 a19 a20 a21 a22 a23) := by
  funext j
  obtain ⟨b, rfl⟩ : ∃ b : Fin 1048576, j = ix1 b := ⟨j 0, eq_ix1 j⟩
  unfold resLogp resAct
  rw [logpT_at _ _ b (fun a => actT_real _ a15 a16 a17 a18 hw hb b a)]
  rfl

end Cert.ReferenceIdeal.Rows

end
-- ==== Proof.PreFin.lean ====
/-
  What the precondition gives the value proof: every entry of the action layer's weights and of its bias is a real number.

  The precondition says, of each of the twenty-four argument arrays, that the absolute value of every entry is below
  +∞, as a conjunction of one all-entries test per array. On the extended reals `|x| < +∞` holds exactly when `x` is
  neither infinity, that is, when `x` is a real. Only two of the conjuncts are used downstream: the action layer's
  weight matrix (the eighteenth argument) and its bias (the nineteenth).
-/
import proofs.«124978_j13331578487072_1_alg».proof.Pre_finite_inputs
import proofs.«124978_j13331578487072_1_alg».proof.Proof.Gen.Pre_finite_inputs
import Idealize.ShloMosaic.PureOps.Ideal.Laws
import Idealize.ShloMosaic.Lib.ValueIdx
import Idealize.ShloMosaic.Lib.ReduceAll

noncomputable section

namespace Cert.PreFin

open Idealize.ShloMosaic Idealize.ShloMosaic.ValueIdx Cert.Pre_finite_inputs

/-- The single-precision word with exponent field all ones and fraction zero denotes +∞. -/
private theorem ofBits_inf_f32 : Ideal.ofBits .f32 0x7F800000#32 = (⊤ : EReal) := by
  simp [Ideal.ofBits, Ideal.ieee]

/-- On the extended reals, `|x| < +∞` (with `|x| = max x (-x)`) leaves only the reals: at `⊥` and at `⊤` the
    absolute value is `⊤`, which is not below `⊤`. -/
private theorem real_of_abs_lt_inf (x : Ideal .f32)
    (h : FloatOps.cmpf .olt (FloatOps.hostAbsf x) (Ideal.ofBits .f32 0x7F800000#32) = 1#1) :
    ∃ r : ℝ, x = (r : EReal) := by
  rw [Ideal.hostAbsf_def, Ideal.cmpf_def, Ideal.absf_def, ofBits_inf_f32] at h
  induction x using EReal.rec with
  | bot => simp [Ideal.cmp] at h
  | top => simp [Ideal.cmp] at h
  | coe r => exact ⟨r, rfl⟩

/-- The scalar shape has one index. -/
private instance : Subsingleton S_.Idx := ⟨fun a b => funext fun d => d.elim0⟩

/-- From the precondition on the twenty-four arrays: the action layer's weights and bias are real entry by entry. -/
theorem real_of_pre [Cert.Pre_finite_inputs.Facts] (a0 : FVec Ideal S1048576x8 .f32) (a1 : FVec Ideal S1048576x2 .f32) (a2 : FVec Ideal S1048576x2 .f32) (a3 : FVec Ideal S4x2x4 .f32) (a4 : FVec Ideal S6x2x4 .f32) (a5 : FVec Ideal S6x1x4 .f32) (a6 : FVec Ideal S4x1x4 .f32) (a7 : FVec Ideal S4x4x1 .f32) (a8 : FVec Ideal S6x4x1 .f32) (a9 : FVec Ideal S6x1x1 .f32) (a10 : FVec Ideal S4x1x1 .f32) (a11 : FVec Ideal S4x4 .f32) (a12 : FVec Ideal S4 .f32) (a13 : FVec Ideal S8x64 .f32) (a14 : FVec Ideal S64 .f32) (a15 : FVec Ideal S64x64 .f32) (a16 : FVec Ideal S64 .f32) (a17 : FVec Ideal S64x2 .f32) (a18 : FVec Ideal S2 .f32) (a19 : FVec Ideal S2 .f32) (a20 : FVec Ideal S64x64 .f32) (a21 : FVec Ideal S64 .f32) (a22 : FVec Ideal S64x1 .f32) (a23 : FVec Ideal S1 .f32)
    (h : Cert.Pre_finite_inputs.fn (F := Ideal) a0 a1 a2 a3 a4 a5 a6 a7 a8 a9 a10 a11 a12 a13 a14 a15 a16 a17 a18 a19 a20 a21 a22 a23 = fun _ => 1#1) :
    (∀ i, ∃ r : ℝ, a17 i = (r : EReal)) ∧ (∀ i, ∃ r : ℝ, a18 i = (r : EReal)) := by
  -- At the one scalar index the claim is a left-nested conjunction of the twenty-four all-entries tests.
  have h0 := congrFun h ValueIdx.ix0
  dsimp only [Cert.Pre_finite_inputs.fn, fn_part1, fn_part2, fn_part3, fn_part4, fn_part5, fn_part6] at h0
  -- Drop the last five arrays' tests from the right, keeping the left conjunct each time; the next two right conjuncts
  -- are the bias's test and the weight matrix's test.
  have e118 := IntOp.andi_eq_one.1 h0
  have e113 := IntOp.andi_eq_one.1 e118.1
  have e108 := IntOp.andi_eq_one.1 e113.1
  have e103 := IntOp.andi_eq_one.1 e108.1
  have e98 := IntOp.andi_eq_one.1 e103.1
  have e93 := IntOp.andi_eq_one.1 e98.1
  have e88 := IntOp.andi_eq_one.1 e93.1
  -- An all-entries test that holds gives `|x| < +∞` at each entry, which makes the entry a real.
  refine ⟨fun i => ?_, fun i => ?_⟩
  · exact real_of_abs_lt_inf _ (Host.reduce_andi_all _ _ _ _ _ e88.2 i)
  · exact real_of_abs_lt_inf _ (Host.reduce_andi_all _ _ _ _ _ e93.2 i)

end Cert.PreFin

end
-- ==== Proof.lean ====
/-
  Two programs compute a small policy network on each of 1,048,576 batch rows: a graph network over four nodes (two rounds of
  message passing along six fixed edges, tanh after each), a 4×4 layer on the four node values, a shared 64-wide layer
  on those and four observation columns, and two heads, the actor's two action means and the critic's value, with the
  log-probability of the mean action under a diagonal Gaussian. The kernel streams the batch through a grid of 128
  points, each handling 8,192 rows, with one matrix product an edge and a node; the reference stacks the nodes, gathers
  the edges' sources, multiplies in batched products and scatter-adds onto the targets.

  Both are shown equal, row by row, to one specification on the extended reals (Spec.lean). Changes of float format are
  the identity there, and a sum's order and grouping do not matter, so the kernel's edge-by-edge sums and the
  reference's scatter-adds agree. The one place the precondition is used: the reference subtracts the action means from
  themselves where the kernel writes zero, and `a - a = 0` needs `a` real; the means are sums of products of tanh values
  (always real) with the action layer's weights, plus its bias, and those are real by the precondition.

  The kernel's run is the generated frame with its outputs named (Gen/KernelIdeal/Value.lean) and read block by block
  (KValue.lean over KRows.lean); the reference's run is read off its hundred operations (RefRun.lean over RefOps.lean)
  and its stages read row by row (RRows.lean). The idealization rewrote nothing, so `preserves` has nothing to say.
-/
import proofs.«124978_j13331578487072_1_alg».proof.Defs
import proofs.«124978_j13331578487072_1_alg».proof.Proof.Gen.Kernel
import proofs.«124978_j13331578487072_1_alg».proof.Proof.Gen.Kernel.Skeleton
import proofs.«124978_j13331578487072_1_alg».proof.Proof.Gen.Kernel.Launch
import proofs.«124978_j13331578487072_1_alg».proof.Proof.Gen.Kernel.Points
import proofs.«124978_j13331578487072_1_alg».proof.Proof.Gen.Kernel.Frame
import proofs.«124978_j13331578487072_1_alg».proof.Proof.Gen.KernelIdeal
import proofs.«124978_j13331578487072_1_alg».proof.Proof.Gen.KernelIdeal.Skeleton
import proofs.«124978_j13331578487072_1_alg».proof.Proof.Gen.KernelIdeal.Launch
import proofs.«124978_j13331578487072_1_alg».proof.Proof.Gen.KernelIdeal.Points
import proofs.«124978_j13331578487072_1_alg».proof.Proof.Gen.KernelIdeal.Frame
import proofs.«124978_j13331578487072_1_alg».proof.Proof.Gen.KernelIdeal.Value
import proofs.«124978_j13331578487072_1_alg».proof.Proof.Gen.ReferenceIdeal
import proofs.«124978_j13331578487072_1_alg».proof.Proof.Gen.Pre_finite_inputs
import proofs.«124978_j13331578487072_1_alg».proof.Proof.KValue
import proofs.«124978_j13331578487072_1_alg».proof.Proof.RefRun
import proofs.«124978_j13331578487072_1_alg».proof.Proof.RRows
import proofs.«124978_j13331578487072_1_alg».proof.Proof.PreFin
import Idealize.ShloMosaic.Adequacy
import Idealize.ShloMosaic.Init

noncomputable section

namespace Cert.Proof

open Idealize.ShloMosaic Idealize.SL.Sem

/-- The kernel as printed runs and leaves its arguments: the generated frame. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference runs and leaves its arguments: its run, the results dropped. -/
theorem frame_ri : Cert.frame_ReferenceIdeal := fun m ρ _ =>
  (θ_run Cert.ReferenceIdeal.defs _ _).mono (fun _ h c => (h c).2.2.2) (Cert.ReferenceIdeal.HandRun.run (F := Ideal) m ρ)

/-- The idealization rewrote no operation. -/
theorem preserves : Cert.preserves_Kernel_KernelIdeal := trivial

set_option maxHeartbeats 2000000 in
/-- From memories that agree on the arguments, both programs end with the specification's three arrays. -/
theorem algebraic : Cert.algebraic_KernelIdeal_ReferenceIdeal := by
  intro m ρ m' ρ' hpre hagree
  refine ⟨fun c => Cert.KernelIdeal.RowValue.GactM m c, fun c => Cert.KernelIdeal.RowValue.GvalM m c,
    fun c => Cert.KernelIdeal.RowValue.GlogpM m c, ?_, ?_⟩
  · exact (θ_run Cert.KernelIdeal.defs _ _).mono
      (fun r h c => ⟨(h c).1.trans (Cert.KernelIdeal.RowValue.final24 m c),
        (h c).2.1.trans (Cert.KernelIdeal.RowValue.final25 m c),
        (h c).2.2.1.trans (Cert.KernelIdeal.RowValue.final26 m c), (h c).2.2.2⟩)
      (Cert.KernelIdeal.Value.run_blocks (F := Ideal) m ρ)
  · refine (θ_run Cert.ReferenceIdeal.defs _ _).mono (fun r h c => ?_)
      (Cert.ReferenceIdeal.HandRun.run (F := Ideal) m' ρ')
    obtain ⟨h65, h88, h79, hkept⟩ := h c
    obtain ⟨e0, e1, e2, e3, e4, e5, e6, e7, e8, e9, e10, e11, e12, e13, e14, e15, e16, e17, e18, e19, e20, e21, e22, e23⟩ := hagree c
    obtain ⟨hw, hb⟩ := Cert.PreFin.real_of_pre (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (hpre c)
    refine ⟨?_, ?_, ?_, hkept⟩
    · rw [h65, e0, e1, e2, e3, e4, e5, e6, e7, e8, e9, e10, e11, e12, e13, e14, e15, e16, e17, e18]
      exact Cert.ReferenceIdeal.Rows.resAct_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
    · rw [h88, e0, e1, e2, e3, e4, e5, e6, e7, e8, e9, e10, e11, e12, e13, e14, e20, e21, e22, e23]
      exact Cert.ReferenceIdeal.Rows.resVal_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))
    · rw [h79, e0, e1, e2, e3, e4, e5, e6, e7, e8, e9, e10, e11, e12, e13, e14, e15, e16, e17, e18, e19]
      exact Cert.ReferenceIdeal.Rows.resLogp_eq (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) hw hb

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
